-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temperature" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S2048x1 : Shape := ⟨2, ![2048, 1]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg2 : IVec S2048 32) (main_v13 : IVec S_ 1) (main_v15 : IVec S2048 1) (main_c_5 : IVec S_ 32) : IVec S_ 1 :=
  let main_v16 : IVec S2048 32 := broadcastInDim S2048 ![] bcast_S_S2048 main_c_5
  let main_v17 : IVec S2048 1 := cmpi .slt main_arg2 main_v16
  let main_v18 : IVec S2048 1 := andi main_v15 main_v17
  let main_c_6 : IVec S_ 1 := constantI S_ 1 1#1
  let main_v19 : IVec S_ 1 := (fun x v => Host.reduce IntOp.andi x v reducesTo_S2048_S_d0 h_S_) main_v18 main_c_6
  let main_v20 : IVec S_ 1 := andi main_v13 main_v19
  main_v20

def fn {F : FTy → Type} [FloatOps F] (main_arg0 : FVec F S2048x512 .f32) (main_arg1 : FVec F S2048x512 .f32) (main_arg2 : IVec S2048 32) (main_arg3 : FVec F S2048x1 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x1 .f32 := Host.absf main_arg3
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_c_4 : IVec S_ 32 := constantI S_ 32 0#32
  let main_v14 : IVec S2048 32 := broadcastInDim S2048 ![] bcast_S_S2048 main_c_4
  let main_v15 : IVec S2048 1 := cmpi .sge main_arg2 main_v14
  let main_c_5 : IVec S_ 32 := constantI S_ 32 4#32
  fn_part1 (F := F) main_arg2 main_v13 main_v15 main_c_5
-- ==== Kernel.lean ====
abbrev S2048x512 : Shape := ⟨2, ![2048, 512]⟩
abbrev S2048 : Shape := ⟨1, ![2048]⟩
abbrev S2048x1 : Shape := ⟨2, ![2048, 1]⟩
abbrev S_ : Shape := ⟨0, ![]⟩
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 37
  | .vmem => 31
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048, .i32⟩
  | .hbm, ⟨3, _⟩ => ⟨S2048x1, .f32⟩
  | .hbm, ⟨4, _⟩ => ⟨S2048x512, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S4096x512, .f32⟩
  | .hbm, ⟨25, _⟩ => ⟨S4096, .i32⟩
  | .hbm, ⟨26, _⟩ => ⟨S4096x1, .i32⟩
  | .hbm, ⟨27, _⟩ => ⟨S1x4096, .i32⟩
  | .hbm, ⟨28, _⟩ => ⟨S4096x1, .f32⟩
  | .hbm, ⟨29, _⟩ => ⟨S1x4096, .f32⟩
  | .hbm, ⟨30, _⟩ => ⟨S4096x1, .f32⟩
  | .hbm, ⟨31, _⟩ => ⟨S1x4096, .f32⟩
  | .hbm, ⟨32, _⟩ => ⟨S4096x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S512x1, .i32⟩
  | .local _ .vmem, ⟨1, _⟩ => ⟨S512x1, .i32⟩
  | .local _ .vmem, ⟨2, _⟩ => ⟨S1x512, .i32⟩
  | .local _ .vmem, ⟨3, _⟩ => ⟨S1x512, .i32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .i32⟩
  | .local _ .vmem, ⟨12, _⟩ => ⟨S512x1, .i32⟩
  | .local _ .vmem, ⟨13, _⟩ => ⟨S1x512, .i32⟩
  | .local _ .vmem, ⟨14, _⟩ => ⟨S1x512, .i32⟩
  | .local _ .vmem, ⟨15, _⟩ => ⟨S512x1, .f32⟩
  | .local _ .vmem, ⟨16, _⟩ => ⟨S512x1, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc1_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_16 : BitVec 32 := 0#32
  let v46 : BitVec 1 := Scalar.cmpi .ne v45 c0_i32_16
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v90 : BitVec 1 := Scalar.cmpi .eq arg1 c7_i32
  let v91 : BitVec 32 := Scalar.extui v90
  let c0_i32_42 : BitVec 32 := 0#32
  let v92 : BitVec 1 := Scalar.cmpi .ne v91 c0_i32_42
  v92

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  concatenates_S2048x512_S2048x512_S4096x512_d0 : Shape.Concatenates [S2048x512, S2048x512] S4096x512 0
  concatenates_S2048_S2048_S4096_d0 : Shape.Concatenates [S2048, S2048] S4096 0
  shapeCasts_S4096_S4096x1 : S4096.ShapeCasts S4096x1
  shapeCasts_S4096_S1x4096 : S4096.ShapeCasts S1x4096
  concatenates_S2048x1_S2048x1_S4096x1_d0 : Shape.Concatenates [S2048x1, S2048x1] S4096x1 0
  shapeCasts_S4096x1_S1x4096 : S4096x1.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x512_d0_w32 : S512x512.Iotas .tc 32 [0]
  iota_S512x512_d1_w32 : S512x512.Iotas .tc 32 [1]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  natLt_1_32 : 1 < 32
  reduces_S512x512_S512 : S512x512.Reduces [1] S512
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  transposes_S512x512_p1_0_S512x512 : S512x512.Transposes [1, 0] S512x512
  reducesTo_S4096x1_S_d0_1 : S4096x1.ReducesTo [0, 1] S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .i32 = 32 ∨ (Rect.block (s := S4096x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .i32 = 32 ∨ (Rect.block (s := S1x4096) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1.size a ≤ S4096x1.size a
  hwx1_0 : ∀ i : grid1.Coords, EltTy.bits .i32 = 32 ∨ (Rect.block (s := S4096x1) S512x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x4096.size a
  hwx1_1 : ∀ i : grid1.Coords, EltTy.bits .i32 = 32 ∨ (Rect.block (s := S1x4096) S1x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x512.size a
  hwx1_5 : ∀ i : grid1.Coords, EltTy.bits .f32 = 32 ∨ (Rect.block (s := S4096x512) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x512.size a
  hwx1_6 : ∀ i : grid1.Coords, EltTy.bits .f32 = 32 ∨ (Rect.block (s := S4096x512) S512x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S4096x1.size a
  hwx1_7 : ∀ i : grid1.Coords, EltTy.bits .f32 = 32 ∨ (Rect.block (s := S4096x1) S512x1.size (cc1_transform_7 i) (hinb1_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v18) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v18) S512x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S512x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v16) S512x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v24) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S2048x1 : Shape := ⟨2, ![2048, 1]⟩
abbrev S_ : Shape := ⟨0, ![]⟩
abbrev S2048x2048 : Shape := ⟨2, ![2048, 2048]⟩
abbrev S512x2048 : Shape := ⟨2, ![512, 2048]⟩
abbrev S1x4 : Shape := ⟨2, ![1, 4]⟩
abbrev S2048x4 : Shape := ⟨2, ![2048, 4]⟩
abbrev S4096x4 : Shape := ⟨2, ![4096, 4]⟩
abbrev S4096x4096 : Shape := ⟨2, ![4096, 4096]⟩
abbrev S4x4096 : Shape := ⟨2, ![4, 4096]⟩
abbrev S1x2048x1x1 : Shape := ⟨4, ![1, 2048, 1, 1]⟩
abbrev S2x2048x1x1 : Shape := ⟨4, ![2, 2048, 1, 1]⟩
abbrev S4096x1 : Shape := ⟨2, ![4096, 1]⟩
abbrev S4096 : Shape := ⟨1, ![4096]⟩
abbrev S1x4096 : Shape := ⟨2, ![1, 4096]⟩
abbrev S2048x4096 : Shape := ⟨2, ![2048, 4096]⟩

abbrev nBuf : Space → Nat
  | .hbm => 132
  | .vmem => 0
  | .smem => 0
  | _ => 0

abbrev hbmTy0_0 (i : Nat) : BufTy := match i % 128 with
  | 0 => ⟨S2048x512, .f32⟩
  | 1 => ⟨S2048x512, .f32⟩
  | 2 => ⟨S2048, .i32⟩
  | 3 => ⟨S2048x1, .f32⟩
  | 4 => ⟨S2048x512, .f32⟩
  | 5 => ⟨S_, .f32⟩
  | 6 => ⟨S2048, .f32⟩
  | 7 => ⟨S2048x1, .f32⟩
  | 8 => ⟨S2048x1, .f32⟩
  | 9 => ⟨S_, .f32⟩
  | 10 => ⟨S2048x1, .f32⟩
  | 11 => ⟨S2048x1, .f32⟩
  | 12 => ⟨S2048x512, .f32⟩
  | 13 => ⟨S2048x512, .f32⟩
  | 14 => ⟨S2048x512, .f32⟩
  | 15 => ⟨S_, .f32⟩
  | 16 => ⟨S2048, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x512, .f32⟩
  | 23 => ⟨S2048x512, .f32⟩
  | 24 => ⟨S2048x2048, .i32⟩
  | 25 => ⟨S2048x2048, .i32⟩
  | 26 => ⟨S_, .i32⟩
  | 27 => ⟨S2048x2048, .i32⟩
  | 28 => ⟨S2048x2048, .i32⟩
  | 29 => ⟨S2048x2048, .i1⟩
  | 30 => ⟨S2048x2048, .f32⟩
  | 31 => ⟨S512x2048, .f32⟩
  | 32 => ⟨S2048x2048, .f32⟩
  | 33 => ⟨S_, .f32⟩
  | 34 => ⟨S2048x2048, .f32⟩
  | 35 => ⟨S2048x2048, .f32⟩
  | 36 => ⟨S_, .f32⟩
  | 37 => ⟨S2048x2048, .f32⟩
  | 38 => ⟨S2048x2048, .f32⟩
  | 39 => ⟨S2048x2048, .f32⟩
  | 40 => ⟨S512x2048, .f32⟩
  | 41 => ⟨S2048x2048, .f32⟩
  | 42 => ⟨S_, .f32⟩
  | 43 => ⟨S2048x2048, .f32⟩
  | 44 => ⟨S2048x2048, .f32⟩
  | 45 => ⟨S_, .f32⟩
  | 46 => ⟨S2048x2048, .f32⟩
  | 47 => ⟨S2048x2048, .f32⟩
  | 48 => ⟨S2048x2048, .f32⟩
  | 49 => ⟨S512x2048, .f32⟩
  | 50 => ⟨S2048x2048, .f32⟩
  | 51 => ⟨S_, .f32⟩
  | 52 => ⟨S2048x2048, .f32⟩
  | 53 => ⟨S2048x2048, .f32⟩
  | 54 => ⟨S2048x1, .i32⟩
  | 55 => ⟨S1x4, .i32⟩
  | 56 => ⟨S2048x4, .i32⟩
  | 57 => ⟨S2048x4, .i32⟩
  | 58 => ⟨S2048x4, .i1⟩
  | 59 => ⟨S2048x4, .f32⟩
  | 60 => ⟨S4096x4, .f32⟩
  | 61 => ⟨S4096x4096, .i32⟩
  | 62 => ⟨S4096x4096, .i32⟩
  | 63 => ⟨S_, .i32⟩
  | 64 => ⟨S4096x4096, .i32⟩
  | 65 => ⟨S4096x4096, .i32⟩
  | 66 => ⟨S4096x4096, .i1⟩
  | 67 => ⟨S4096x4096, .f32⟩
  | 68 => ⟨S4x4096, .f32⟩
  | 69 => ⟨S4096x4096, .f32⟩
  | 70 => ⟨S_, .f32⟩
  | 71 => ⟨S4096x4096, .f32⟩
  | 72 => ⟨S4096x4096, .f32⟩
  | 73 => ⟨S4096x4096, .f32⟩
  | 74 => ⟨S1x2048x1x1, .f32⟩
  | 75 => ⟨S2x2048x1x1, .f32⟩
  | 76 => ⟨S4096x1, .f32⟩
  | 77 => ⟨S4096x1, .f32⟩
  | 78 => ⟨S_, .f32⟩
  | 79 => ⟨S4096, .f32⟩
  | 80 => ⟨S4096x1, .f32⟩
  | 81 => ⟨S1x4096, .f32⟩
  | 82 => ⟨S4096x4096, .f32⟩
  | 83 => ⟨S4096x4096, .f32⟩
  | 84 => ⟨S4096x4096, .f32⟩
  | 85 => ⟨S1x4096, .f32⟩
  | 86 => ⟨S4096x4096, .f32⟩
  | 87 => ⟨S_, .f32⟩
  | 88 => ⟨S4096x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S4096x4096, .f32⟩
  | 96 => ⟨S4096x4096, .f32⟩
  | 97 => ⟨S4096x4096, .f32⟩
  | 98 => ⟨S_, .f32⟩
  | 99 => ⟨S4096x4096, .f32⟩
  | 100 => ⟨S4096x4096, .f32⟩
  | 101 => ⟨S4096x4096, .f32⟩
  | 102 => ⟨S4096x4096, .f32⟩
  | 103 => ⟨S_, .f32⟩
  | 104 => ⟨S4096, .f32⟩
  | 105 => ⟨S1x4096, .f32⟩
  | 106 => ⟨S4096x4096, .f32⟩
  | 107 => ⟨S4096x4096, .f32⟩
  | 108 => ⟨S2048x4096, .f32⟩
  | 109 => ⟨S2048x2048, .f32⟩
  | 110 => ⟨S2048x4096, .f32⟩
  | 111 => ⟨S4096x4096, .f32⟩
  | 112 => ⟨S_, .f32⟩
  | 113 => ⟨S4096, .f32⟩
  | 114 => ⟨S_, .f32⟩
  | 115 => ⟨S4096, .f32⟩
  | 116 => ⟨S4096, .f32⟩
  | 117 => ⟨S4096x1, .f32⟩
  | 118 => ⟨S4096x4096, .f32⟩
  | 119 => ⟨S4096x4096, .f32⟩
  | 120 => ⟨S4096x4096, .f32⟩
  | 121 => ⟨S_, .f32⟩
  | 122 => ⟨S4096, .f32⟩
  | 123 => ⟨S4096x1, .f32⟩
  | 124 => ⟨S4096x1, .f32⟩
  | 125 => ⟨S4096x4096, .f32⟩
  | 126 => ⟨S4096x4096, .f32⟩
  | 127 => ⟨S4096x4096, .f32⟩
  | _ => ⟨S2048x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_cst_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call1_cst : Ref sig .tc := ⟨.hbm, 112, rfl⟩
abbrev main_call1_v0 : Ref sig .tc := ⟨.hbm, 113, rfl⟩
abbrev main_call1_cst_0 : Ref sig .tc := ⟨.hbm, 114, rfl⟩
abbrev main_call1_v1 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_v5 : Ref sig .tc := ⟨.hbm, 119, rfl⟩
abbrev main_call1_v6 : Ref sig .tc := ⟨.hbm, 120, rfl⟩
abbrev main_call1_cst_1 : Ref sig .tc := ⟨.hbm, 121, rfl⟩
abbrev main_call1_v7 : Ref sig .tc := ⟨.hbm, 122, rfl⟩
abbrev main_call1_v8 : Ref sig .tc := ⟨.hbm, 123, rfl⟩
abbrev main_call1_v9 : Ref sig .tc := ⟨.hbm, 124, rfl⟩
abbrev main_call1_v10 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_cst_17 : Ref sig .tc := ⟨.hbm, 130, rfl⟩
abbrev main_v88 : Ref sig .tc := ⟨.hbm, 131, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  bcast_S_S2048x2048 : S_.BroadcastsInDim S2048x2048 (![] : Fin 0 → Fin S2048x2048.rank)
  transposes_S2048x512_S512x2048_1_0 : S2048x512.Transposes [1, 0] S512x2048
  bcast_S2048x1_S2048x4_0_1 : S2048x1.BroadcastsInDim S2048x4 (![0, 1] : Fin 2 → Fin S2048x4.rank)
  bcast_S1x4_S2048x4_0_1 : S1x4.BroadcastsInDim S2048x4 (![0, 1] : Fin 2 → Fin S2048x4.rank)
  concatenates_S2048x4_S2048x4_S4096x4_d0 : Shape.Concatenates [S2048x4, S2048x4] S4096x4 0
  bcast_S_S4096x4096 : S_.BroadcastsInDim S4096x4096 (![] : Fin 0 → Fin S4096x4096.rank)
  transposes_S4096x4_S4x4096_1_0 : S4096x4.Transposes [1, 0] S4x4096
  shapeCasts_S2048x1_S1x2048x1x1 : S2048x1.ShapeCasts S1x2048x1x1
  bcast_S1x2048x1x1_S2x2048x1x1_0_1_2_3 : S1x2048x1x1.BroadcastsInDim S2x2048x1x1 (![0, 1, 2, 3] : Fin 4 → Fin S2x2048x1x1.rank)
  shapeCasts_S2x2048x1x1_S4096x1 : S2x2048x1x1.ShapeCasts S4096x1
  reducesTo_S4096x1_S4096_d1 : S4096x1.ReducesTo [1] S4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1_S1x4096_1_0 : S4096x1.Transposes [1, 0] S1x4096
  reducesTo_S4096x4096_S4096_d1 : S4096x4096.ReducesTo [1] S4096
  concatenates_S2048x2048_S2048x2048_S2048x4096_d1 : Shape.Concatenates [S2048x2048, S2048x2048] S2048x4096 1
  transposes_S2048x2048_S2048x2048_1_0 : S2048x2048.Transposes [1, 0] S2048x2048
  concatenates_S2048x4096_S2048x4096_S4096x4096_d0 : Shape.Concatenates [S2048x4096, S2048x4096] S4096x4096 0
  bcast_S_S4096 : S_.BroadcastsInDim S4096 (![] : Fin 0 → Fin S4096.rank)
  reducesTo_S4096x4096_S_d0_1 : S4096x4096.ReducesTo [0, 1] S_
  dot_S2048x512_S512x2048_S2048x2048_1_0_0_1_n_n_wf : DotDims.WF S2048x512 S512x2048 S2048x2048 [1] [0] [0] [1] [] []
  dot_S4096x4_S4x4096_S4096x4096_1_0_0_1_n_n_wf : DotDims.WF S4096x4 S4x4096 S4096x4096 [1] [0] [0] [1] [] []
  dot_S4096x1_S1x4096_S4096x4096_1_0_0_1_n_n_wf : DotDims.WF S4096x1 S1x4096 S4096x4096 [1] [0] [0] [1] [] []

variable [Facts₀]

def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf

class Facts : Prop extends Facts₀ where

variable [Facts]
-- ==== Proof.Steps.lean ====
/-
  What one grid point of each kernel does to the values it carries, as pure functions of the windows' blocks.

  Both kernels walk an 8 × 8 grid (row block, column block), the column block fastest.  The first kernel
  carries one 512 × 1 column (a partial row sum), reset at column block 0; the second carries four (running
  maximum, rescaled sum of exponentials, two weighted sums), reset likewise, and both write their output
  block at column block 7.  The arithmetic is the printed payload terms; nothing is evaluated here.
-/
import proofs.«421925_j36627481101076_1_alg».proof.Proof.Gen.KernelIdeal.Skeleton
import proofs.«421925_j36627481101076_1_alg».proof.Proof.Gen.KernelIdeal.Launch
import proofs.«421925_j36627481101076_1_alg».proof.Proof.Gen.KernelIdeal.Points

noncomputable section

namespace Cert.KernelIdeal.Hand

open Idealize.ShloMosaic Idealize.ShloMosaic.TcCoe Idealize.SL.Sem
open Cert.KernelIdeal Cert.KernelIdeal.Gen

variable {F : FTy → Type} [FloatOps F] [Named F]

-- the TensorCore's buffer contents when a region is entered: the parameter each region's half is stated at
variable (V : (c : Dev nD) → (b : Ref sig .tc) → Buf (Elt F) ((c : Thread nD τ).loc b))

/-! ## Region 0: the masked weights' row sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point of region 0: the carried column `sc` (zeroed first when `first`) plus this block's row sums. -/
def step0 (first : Bool) (i : grid0.Coords) (x0 : Vec F S512x1 .i32) (x1 : Vec F S1x512 .i32) (x2 : Vec F S512x1 .f32)
    (x3 : Vec F S1x512 .f32) (sc : Vec F S512x1 .f32) : Vec F S512x1 .f32 :=
  k0_pay1 (if first then k0_pay2 (F := F) else sc) (k0_pay3 i x0 x1 x2 x3)

/-- The carried column after point `n`. -/
def acc0 (c : Dev nD) : (n : ℕ) → n < cfg0.N → Vec F S512x1 .f32
  | 0, h => step0 true (grid0.coords ⟨0, h⟩) (iblk0 V c 0 ⟨0, h⟩) (iblk0 V c 1 ⟨0, h⟩) (iblk0 V c 2 ⟨0, h⟩) (iblk0 V c 3 ⟨0, h⟩) (k0_pay2 (F := F))
  | n + 1, h => step0 (decide ((n + 1) % 8 = 0)) (grid0.coords ⟨n + 1, h⟩) (iblk0 V c 0 ⟨n + 1, h⟩) (iblk0 V c 1 ⟨n + 1, h⟩)
      (iblk0 V c 2 ⟨n + 1, h⟩) (iblk0 V c 3 ⟨n + 1, h⟩) (acc0 c n (Nat.lt_of_succ_lt h))

/-! ## Region 1: the online masked log-softmax -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four carried columns: running maximum, rescaled sum of exponentials, Σ fw·S, Σ fw. -/
structure St1 (F : FTy → Type) [FloatOps F] where
  m : Vec F S512x1 .f32
  l : Vec F S512x1 .f32
  s1 : Vec F S512x1 .f32
  s0 : Vec F S512x1 .f32

/-- What the reset at column block 0 stores. -/
def st1Reset : St1 F := ⟨k1_pay4 (F := F), k1_pay5 (F := F), k1_pay6 (F := F), k1_pay7 (F := F)⟩

/-- One point of region 1 from the carried columns `s` (reset first when `first`):
    `x0 … x6` are windows 0 … 6's blocks (label column, label row, position column, position row,
    row-sum row, the row block of Z, the column block of Z). -/
def step1 (first : Bool) (i : grid1.Coords) (x0 : Vec F S512x1 .i32) (x1 : Vec F S1x512 .i32) (x2 : Vec F S512x1 .f32)
    (x3 : Vec F S1x512 .f32) (x4 : Vec F S1x512 .f32) (x5 : Vec F S512x512 .f32) (x6 : Vec F S512x512 .f32) (s : St1 F) : St1 F :=
  let s' : St1 F := if first then st1Reset else s
  let v21 := k1_pay8 i
  let v24 := k1_pay9 (F := F) i x5 x6
  let v33 := k1_pay10 (F := F) i x0 x1
  let v35 := k1_pay11 x2
  let v72 := k1_pay15 v24 s'.m
  let v75 := k1_pay16 v24 s'.m s'.m
  ⟨k1_pay2 v72, k1_pay1 v24 v72 v75 s'.l, k1_pay13 v21 v24 v33 v35 x3 x4 s'.s1, k1_pay14 v21 v33 v35 x3 x4 s'.s0⟩

/-- The carried columns after point `n`. -/
def st1 (c : Dev nD) : (n : ℕ) → n < cfg1.N → St1 F
  | 0, h => step1 true (grid1.coords ⟨0, h⟩) (iblk1 V c 0 ⟨0, h⟩) (iblk1 V c 1 ⟨0, h⟩) (iblk1 V c 2 ⟨0, h⟩) (iblk1 V c 3 ⟨0, h⟩)
      (iblk1 V c 4 ⟨0, h⟩) (iblk1 V c 5 ⟨0, h⟩) (iblk1 V c 6 ⟨0, h⟩) st1Reset
  | n + 1, h => step1 (decide ((n + 1) % 8 = 0)) (grid1.coords ⟨n + 1, h⟩) (iblk1 V c 0 ⟨n + 1, h⟩) (iblk1 V c 1 ⟨n + 1, h⟩)
      (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)
      (st1 c n (Nat.lt_of_succ_lt h))

/-- What the output block holds when column block 7 stores it: `s1 - (m + log l) * s0`. -/
def out1 (s : St1 F) : Vec F S512x1 .f32 := k1_pay3 s.m s.l s.s1 s.s0

end Cert.KernelIdeal.Hand

end
-- ==== Proof.RegionA1.lean ====
/-
  The first kernel's body at one grid point, case by case.

  The body zeroes its carried 512 × 1 column when the column block is 0, adds the block's masked row sums to
  it, and copies it into the output block when the column block is 7.  Three cases meet the grid: column
  block 0 (reset, no copy), 1 … 6 (neither) and 7 (copy, no reset).  In each the carried column ends at
  one step of the accumulation (Steps.lean) and the input blocks are left as found; the output block is left
  as found unless the case copies into it.
-/
import proofs.«421925_j36627481101076_1_alg».proof.Proof.Steps
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The body's two conditions -/

/-- "The column block is 0", as the body computes it from the grid coordinates. -/
abbrev cond0_0 (i : grid0.Coords) : Prop := (Scalar.cmpi .ne (Scalar.extui (Scalar.cmpi .eq (BitVec.ofNat 32 (i 1).val) 0#32)) 0#32) = 1#1
/-- "The column block is 7". -/
abbrev cond0_1 (i : grid0.Coords) : Prop := k0_cond2 i = 1#1

/-- The whole-block rectangle's offsets are zero. -/
theorem off00 : (![0, 0] : Fin 2 → Nat) = fun _ => 0 := by funext a; fin_cases a <;> rfl

/-! ## Column block 0: the carried column is reset, then this block's row sums are added -/

set_option maxHeartbeats 1000000 in
theorem sound_kernel0_A (c : Dev nD) (E : Set ℕ) (i : grid0.Coords)
    (arg2 : Memref sig .tc .vmem S512x1 .i32) (harg2 : arg2.IsWhole) (arg3 : Memref sig .tc .vmem S1x512 .i32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S512x1 .f32) (harg7 : arg7.IsWhole)
    (hc0 : cond0_0 i) (hc1 : ¬cond0_1 i) (x0 : Vec F S512x1 .i32) (x1 : Vec F S1x512 .i32) (x2 : Vec F S512x1 .f32) (x3 : Vec F S1x512 .f32)
    (y : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y
            ∗ owns (c : Thread nD τ) arg7 fullShare (step0 true i x0 x1 x2 x3 (k0_pay2 (F := F)))) -∗ K ⟨⟩))
      ⊢ wp frame (wpE (defs₀ (F := F)) Variants.none c none) E (cc0__msum_kernel i arg2 harg2 arg3 harg3 arg4 harg4 arg5 harg5 arg6 harg6 arg7 harg7) K := by
  simp only [cc0__msum_kernel_eq_skeleton]; unfold cc0__msum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  subst hf0; subst hf1; subst hf2; subst hf3; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  sl_unfold_words
  rw [View.read_writes_eq_canon _ _ _ (fun y => ⟨_, List.mem_cons_self .., View.mem_set_unit_zero off00 inb_S512x1_S512x1_0_0 y⟩)]
  rw [View.canon_cons_unit_zero (S := S512x1) off00]
  unfold step0
  simp only [View.readCov_unit_zero (S := S512x1) _ off00, View.readAt_eq_ld, View.ld_unit_zero (S := S512x1) off00, View.ld_unit_zero (S := S1x512) off00, if_true]

/-! ## Column blocks 1 … 6: this block's row sums are added to the carried column -/

set_option maxHeartbeats 1000000 in
theorem sound_kernel0_B (c : Dev nD) (E : Set ℕ) (i : grid0.Coords)
    (arg2 : Memref sig .tc .vmem S512x1 .i32) (harg2 : arg2.IsWhole) (arg3 : Memref sig .tc .vmem S1x512 .i32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S512x1 .f32) (harg7 : arg7.IsWhole)
    (hc0 : ¬cond0_0 i) (hc1 : ¬cond0_1 i) (x0 : Vec F S512x1 .i32) (x1 : Vec F S1x512 .i32) (x2 : Vec F S512x1 .f32) (x3 : Vec F S1x512 .f32)
    (y : Vec F S512x1 .f32) (sc : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare sc
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y
            ∗ owns (c : Thread nD τ) arg7 fullShare (step0 false i x0 x1 x2 x3 sc)) -∗ K ⟨⟩))
      ⊢ wp frame (wpE (defs₀ (F := F)) Variants.none c none) E (cc0__msum_kernel i arg2 harg2 arg3 harg3 arg4 harg4 arg5 harg5 arg6 harg6 arg7 harg7) K := by
  simp only [cc0__msum_kernel_eq_skeleton]; unfold cc0__msum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  sl_unfold_words
  rw [View.read_writes_eq_canon _ _ _ (fun y => ⟨_, List.mem_singleton_self _, View.mem_set_unit_zero off00 inb_S512x1_S512x1_0_0 y⟩)]
  rw [View.canon_unit_zero off00]
  unfold step0
  simp only [View.readCov_unit_zero (S := S512x1) _ off00, View.readAt_eq_ld, View.ld_unit_zero (S := S512x1) off00, View.ld_unit_zero (S := S1x512) off00, Bool.false_eq_true, if_false]

/-! ## Column block 7: the row sums are added, and the carried column is copied into the output block -/

set_option maxHeartbeats 1000000 in
theorem sound_kernel0_C (c : Dev nD) (E : Set ℕ) (i : grid0.Coords)
    (arg2 : Memref sig .tc .vmem S512x1 .i32) (harg2 : arg2.IsWhole) (arg3 : Memref sig .tc .vmem S1x512 .i32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S512x1 .f32) (harg7 : arg7.IsWhole)
    (hc0 : ¬cond0_0 i) (hc1 : cond0_1 i) (x0 : Vec F S512x1 .i32) (x1 : Vec F S1x512 .i32) (x2 : Vec F S512x1 .f32) (x3 : Vec F S1x512 .f32)
    (sc : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare sc
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (step0 false i x0 x1 x2 x3 sc)
            ∗ owns (c : Thread nD τ) arg7 fullShare (step0 false i x0 x1 x2 x3 sc)) -∗ K ⟨⟩))
      ⊢ wp frame (wpE (defs₀ (F := F)) Variants.none c none) E (cc0__msum_kernel i arg2 harg2 arg3 harg3 arg4 harg4 arg5 harg5 arg6 harg6 arg7 harg7) K := by
  simp only [cc0__msum_kernel_eq_skeleton]; unfold cc0__msum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  subst hf0; subst hf1; subst hf2; subst hf3; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr
    swap; · iexact H6
    ipureintro
    sl_unfold_words
    rw [View.read_writes_eq_canon _ _ _ (fun y => ⟨_, List.mem_singleton_self _, View.mem_set_unit_zero off00 inb_S512x1_S512x1_0_0 y⟩)]
    rw [View.canon_unit_zero off00]
    unfold step0
    simp only [View.readCov_unit_zero (S := S512x1) _ off00, View.readAt_eq_ld, View.ld_unit_zero (S := S512x1) off00, View.ld_unit_zero (S := S1x512) off00, Bool.false_eq_true, if_false]
  iexists _; isplitr
  swap; · iexact H7
  ipureintro
  sl_unfold_words
  rw [View.read_writes_eq_canon _ _ _ (fun y => ⟨_, List.mem_singleton_self _, View.mem_set_unit_zero off00 inb_S512x1_S512x1_0_0 y⟩)]
  rw [View.canon_unit_zero off00]
  unfold step0
  simp only [View.readCov_unit_zero (S := S512x1) _ off00, View.readAt_eq_ld, View.ld_unit_zero (S := S512x1) off00, View.ld_unit_zero (S := S1x512) off00, Bool.false_eq_true, if_false]

end Cert.KernelIdeal.Hand

end
-- ==== Proof.RegionA.lean ====
/-
  The first pallas_call's half of the frame: the masked weights' row sums.

  The kernel walks an 8 × 8 grid, the column block fastest, and carries one 512 × 1 column in a scratch
  buffer: at column block 0 it is zeroed, at every point the block's row sums are added to it, and at column
  block 7 it is copied into the output window's staging buffer, which the pipeline writes back there.  The
  invariant names the scratch's contents after each point (the carried column of Steps.lean); the output
  window is idle at the points that do not store it.  After the run row r of the output array holds row
  r % 512 of the column carried at the last point of row block r / 512.
-/
import proofs.«421925_j36627481101076_1_alg».proof.Proof.RegionA1
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The invariant and the proof data -/

/-- The scratch the kernel carries between points, as a memref. -/
abbrev scM0 : Memref sig .tc .vmem S512x1 .f32 := Memref.whole cc0_scratch0

/-- Every scoped buffer of the core that is neither a staging buffer of this call nor its scratch, at some contents. -/
abbrev restBut0 (c : Dev nD) : sProp 𝕄 :=
  Pipeline.scopedRestBut (Ix := Unit) (Name := ℕ) (U := UR sig nD τ) (Lvl := ℕ) (Val := Elt F) spec0 c [cc0_scratch0]

/-- The region's invariant before point n: before the first point the class's (every scoped buffer that is
    no staging buffer at some contents, the generator register at some state); afterwards the same with the
    carried scratch at the column the point before left. -/
def Phi0 (c : Dev nD) : (n : ℕ) → n ≤ cfg0.N → sProp 𝕄
  | 0, _ => Pipeline.ΦA spec0 c
  | n + 1, hn => iprop((owns (c : Thread nD τ) scM0 fullShare (acc0 V c n hn) ∗ restBut0 (F := F) c) ∗ ∃ r, prngReg c r)

/-- The proof data of the first pipeline on core c, at the entry contents V: each input's buffer is left at its
    block; the output's holds the carried column where the body stores it (column block 7). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## The invariant, point by point -/

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (acc0 V c n hn) ∗ restBut0 (F := F) c) ∗ ∃ r, prngReg c r) := rfl

theorem Phi0_pos (c : Dev nD) (n : ℕ) (h : n ≤ cfg0.N) (hz : n ≠ 0) :
    Phi0 V c n h = iprop((owns (c : Thread nD τ) scM0 fullShare (acc0 V c (n - 1) (by omega)) ∗ restBut0 (F := F) c) ∗ ∃ r, prngReg c r) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-- The class's invariant with the scratch split off as a memref owned at some contents. -/
theorem PhiA0_eq (c : Dev nD) :
    (Pipeline.ΦA spec0 c : sProp 𝕄)
      = iprop(((∃ d, owns (c : Thread nD τ) scM0 fullShare d) ∗ restBut0 (F := F) c) ∗ ∃ r, prngReg c r) := by
  unfold Pipeline.ΦA
  rw [Pipeline.scopedRest_split_of_list spec0 c [cc0_scratch0] (by decide) (by decide)]
  simp only [scM0, owns_whole, bigSepL_singleton]; try rfl

theorem Phi0_first (c : Dev nD) : (dat0 V c).Φ 0 = Pipeline.ΦA spec0 c := rfl

theorem Phi0_last (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

/-! ## The carried column, point by point -/

/-- At a point of column block 0 the carried column is one step from the zero column. -/
theorem acc0_reset (c : Dev nD) (t : Fin cfg0.N) (h0 : t.val % 8 = 0) :
    acc0 V c t.val t.isLt = step0 true (grid0.coords t) (iblk0 V c 0 t) (iblk0 V c 1 t) (iblk0 V c 2 t) (iblk0 V c 3 t) (k0_pay2 (F := F)) := by
  obtain ⟨n, hn⟩ := t
  cases n with
  | zero => rfl
  | succ n =>
    show step0 (decide ((n + 1) % 8 = 0)) _ _ _ _ _ _ = _
    rw [decide_eq_true h0]; unfold step0; simp only [if_true]

/-- At any other point it is one step from what the point before left. -/
theorem acc0_step (c : Dev nD) (t : Fin cfg0.N) (h0 : ¬t.val % 8 = 0) :
    acc0 V c t.val t.isLt = step0 false (grid0.coords t) (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd (Nat.zero_mod _) h0
  | succ n =>
    show step0 (decide ((n + 1) % 8 = 0)) _ _ _ _ _ _ = _
    rw [decide_eq_false h0]; rfl

/-! ## The conditions and the idle points, over the grid -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output window is idle exactly where the body does not store it. -/
theorem idleAt0_4 : ∀ t : Fin cfg0.N, ¬t.val % 8 = 7 → cfg0.idle 4 (grid0.coords t) = true :=
  (by decide +kernel : ∀ t : Fin grid0.N, ¬t.val % 8 = 7 → idle0 4 (grid0.coords t) = true)
theorem liveAt0_4 : ∀ t : Fin cfg0.N, t.val % 8 = 7 → cfg0.idle 4 (grid0.coords t) = false :=
  (by decide +kernel : ∀ t : Fin grid0.N, t.val % 8 = 7 → idle0 4 (grid0.coords t) = false)
theorem noFlush0_4 (t : Fin cfg0.N) (h : ¬t.val % 8 = 7) : (cfg0.win 4).flush t = false :=
  Bool.eq_false_iff.mpr (mt (flush0_4 t).mp h)

/-! ## What the windows' buffers hold -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point. The inputs' buffers hold their blocks; the point's column block says which case runs.
    Column block 0: the scratch is handed over at anything (at the first point the invariant says no more; later
    it names contents the reset discards) and comes back one step from zero.  Otherwise it is handed over at what
    the point before left and comes back one step further.  The output's buffer is idle and handed back as found,
    except at column block 7, where it comes back holding the carried column. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 64 := lt_of_lt_of_eq t.isLt (show cfg0.N = 64 from N_0)
  by_cases h0 : t.val % 8 = 0
  · have h7 : ¬t.val % 8 = 7 := by omega
    rw [Dat.leavesExact_idle (dat0 V c) 4 t (idleAt0_4 t h7) (noFlush0_4 t h7)]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ ((hcond0_0 t).mpr h0) (fun h => h7 ((hcond0_1 t).mp h)) (iblk0 V c 0 t) (iblk0 V c 1 t) (iblk0 V c 2 t) (iblk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ ((hcond0_0 t).mpr h0) (fun h => h7 ((hcond0_1 t).mp h)) (iblk0 V c 0 t) (iblk0 V c 1 t) (iblk0 V c 2 t) (iblk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc0_step V c t h0]
    rw [Phi0_castSucc V c t, Phi0_pos V c _ _ hz]
    by_cases h7 : t.val % 8 = 7
    · rw [show (dat0 V c).leavesExact 4 t = owns (c : Thread nD τ) (st0_4 t) fullShare ((dat0 V c).after 4 t) from by
        unfold Dat.leavesExact; rw [liveAt0_4 t h7], after0_4, acc0_step V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ (fun h => h0 ((hcond0_0 t).mp h)) ((hcond0_1 t).mpr h7) (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t h7) (noFlush0_4 t h7)]
      iintro ⟨⟨⟨HS, HR⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ (fun h => h0 ((hcond0_0 t).mp h)) (fun h => h7 ((hcond0_1 t).mp h)) (iblk0 V c 0 t) (iblk0 V c 1 t) (iblk0 V c 2 t) (iblk0 V c 3 t) ((dat0 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the run -/

theorem arrAt0_in (c : Dev nD) (w : Fin cfg0.W) (hw : w ≠ 4) : (dat0 V c).arrAt w cfg0.N = (dat0 V c).A w :=
  (dat0 V c).arrAt_in w (by fin_cases w <;> first | rfl | exact absurd rfl hw) cfg0.N

/-- The output window's block at point t is row block t / 8, column block 0. -/
theorem idx0_4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

theorem acc0_apply_congr (c : Dev nD) {n n' : ℕ} (e : n = n') (h : n < cfg0.N) (h' : n' < cfg0.N) {j j' : S512x1.Idx} (ej : j = j') :
    acc0 V c n h j = acc0 V c n' h' j' := by subst e; subst ej; rfl

/-- The output array after the run as one function of the row: row r holds row r % 512 of the column carried at
    the last point (column block 7) of its row block r / 512. -/
def G0 (c : Dev nD) : S4096x1.Idx → Elt F .f32 := fun i =>
  acc0 V c (8 * ((i 0).val / 512) + 7) (by have : (i 0).val < 4096 := (i 0).isLt; show _ < 64; omega)
    (ValueIdx.ix2 (⟨(i 0).val % 512, Nat.mod_lt _ (by norm_num)⟩ : Fin 512) (0 : Fin 1))

/-- What a point of column block 7 writes back is its block of that function. -/
theorem flushed0_4 (c : Dev nD) (t : Fin cfg0.N) (hf : (cfg0.win 4).flush t = true) :
    (dat0 V c).flushed 4 t = ((cfg0.win 4).blk t).view.read (Elt F) (G0 V c) := by
  show (cfg0.win 4).cut (grid0.coords t) ((dat0 V c).after 4 t) = _
  rw [after0_4]
  have h7 : t.val % 8 = 7 := (flush0_4 t).mp hf
  have hN : t.val < 64 := lt_of_lt_of_eq t.isLt (show cfg0.N = 64 from N_0)
  obtain ⟨e0, e1⟩ := idx0_4 t
  funext j
  show acc0 V c t.val t.isLt j = G0 V c (((cfg0.win 4).blk t).view.emb j)
  have hj0 : (j 0).val < 512 := (j 0).isLt
  have hj1 : (j 1).val < 1 := (j 1).isLt
  have hi0 : ((((cfg0.win 4).blk t).view.emb j) 0).val = win0_4.index t (0 : Fin 2) * 512 + 1 * (j 0).val := rfl
  unfold G0
  refine acc0_apply_congr V c (by rw [hi0, e0]; omega) _ _ ?_
  funext a
  match a with
  | ⟨0, _⟩ => exact Fin.ext (by show (j 0).val = ((((cfg0.win 4).blk t).view.emb j) 0).val % 512; rw [hi0, e0]; omega)
  | ⟨1, _⟩ => exact Fin.ext (by show (j 1).val = 0; omega)

/-- A row is in point t's block iff each coordinate is in the block's range on its axis. -/
theorem mem_blk0_4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v22).slice (win0_4.rect t)).set ↔ _
  rw [View.set_slice_whole, Rect.mem_set_unit]
  exact Iff.rfl

/-- Row r of the output array after the run: row block r / 512 is written back once, at its last point
    8 (r / 512) + 7, holding the column carried there. -/
theorem arrAt0_out (c : Dev nD) (r : Fin 4096) :
    (dat0 V c).arrAt 4 cfg0.N (ValueIdx.ix2 r (0 : Fin 1))
      = acc0 V c (8 * (r.val / 512) + 7) (by have := r.isLt; show _ < 64; omega) (ValueIdx.ix2 (⟨r.val % 512, Nat.mod_lt _ (by norm_num)⟩ : Fin 512) (0 : Fin 1)) := by
  have hr := r.isLt
  have ht : 8 * (r.val / 512) + 7 < cfg0.N := by show _ < 64; omega
  have hfl : (cfg0.win 4).flush ⟨8 * (r.val / 512) + 7, ht⟩ = true := (flush0_4 _).mpr (by show (8 * (r.val / 512) + 7) % 8 = 7; omega)
  obtain ⟨e0, e1⟩ := idx0_4 ⟨8 * (r.val / 512) + 7, ht⟩
  have e0' : win0_4.index ⟨8 * (r.val / 512) + 7, ht⟩ (0 : Fin 2) = r.val / 512 := by
    rw [e0]; show (8 * (r.val / 512) + 7) / 8 = _; omega
  refine ((dat0 V c).arrAt_apply_of_mem 4 (G0 V c) (fun t hf => flushed0_4 V c t hf) cfg0.N ⟨_, ht⟩ (ValueIdx.ix2 r (0 : Fin 1)) ht hfl ?_).trans rfl
  rw [mem_blk0_4]
  intro a
  match a with
  | ⟨0, _⟩ =>
    show win0_4.index ⟨8 * (r.val / 512) + 7, ht⟩ (0 : Fin 2) * 512 ≤ r.val ∧ r.val < win0_4.index ⟨8 * (r.val / 512) + 7, ht⟩ (0 : Fin 2) * 512 + 512
    rw [e0']; omega
  | ⟨1, _⟩ =>
    show win0_4.index ⟨8 * (r.val / 512) + 7, ht⟩ (1 : Fin 2) * 1 ≤ 0 ∧ 0 < win0_4.index ⟨8 * (r.val / 512) + 7, ht⟩ (1 : Fin 2) * 1 + 1
    rw [e1]; omega

end Cert.KernelIdeal.Hand
end
-- ==== Proof.RegionB1.lean ====
/-
  The second kernel's body on whole memrefs, one triple per control case: column block 0 (the four carried
  columns are reset, then updated), a middle column block (updated), column block 7 (updated, then the output
  block stored).  Each post names the carried columns by the one-point function of the blocks.
-/
import proofs.«421925_j36627481101076_1_alg».proof.Proof.Steps
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The two conditions of the body, in closed form over the grid -/

/-- The reset's condition: the column block is 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output store's condition: the column block is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-block rectangles -/

theorem unitOff2_B : (![0, 0] : Fin 2 → Nat) = fun _ => 0 := by
  funext a; fin_cases a <;> rfl

/-- A list of pieces whose head is the whole block covers the block. -/
theorem cover_head_whole_B {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

/-- One carried column's read-back: the last store covers the block, so the block holds its payload; the
    payload's loads are the blocks the buffers held. -/
local macro "close_piece" : tactic => `(tactic| (
  (try sl_unfold_words)
  rw [View.read_writes_eq_canon _ _ _ (cover_head_whole_B unitOff2_B _ _ _), View.canon_cons_unit_zero unitOff2_B]
  (try sl_unfold_words)
  simp only [View.readAt_eq_ld, View.ld_unit_zero (S := S512x1) unitOff2_B, View.ld_unit_zero (S := S1x512) unitOff2_B,
    View.ld_unit_zero (S := S512x512) unitOff2_B, View.readCov_unit_zero (S := S512x1) _ unitOff2_B, step1, st1Reset,
    Bool.false_eq_true, if_false, if_true]
  (try rfl)))

/-! ## A middle column block -/

set_option maxHeartbeats 2000000 in
theorem sound_kernel1_B (c : Dev nD) (E : Set ℕ) (i : grid1.Coords) (arg2 : Memref sig .tc .vmem S512x1 .i32) (harg2 : arg2.IsWhole) (arg3 : Memref sig .tc .vmem S1x512 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : ¬cond1_1 i)
    (x0 : Vec F S512x1 .i32) (x1 : Vec F S1x512 .i32) (x2 : Vec F S512x1 .f32) (x3 : Vec F S1x512 .f32) (x4 : Vec F S1x512 .f32) (x5 : Vec F S512x512 .f32) (x6 : Vec F S512x512 .f32) (xo sm sl ss1 ss0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xo
        ∗ owns (c : Thread nD τ) arg10 fullShare sm ∗ owns (c : Thread nD τ) arg11 fullShare sl
        ∗ owns (c : Thread nD τ) arg12 fullShare ss1 ∗ owns (c : Thread nD τ) arg13 fullShare ss0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo
            ∗ owns (c : Thread nD τ) arg10 fullShare (step1 false i x0 x1 x2 x3 x4 x5 x6 ⟨sm, sl, ss1, ss0⟩).m
            ∗ owns (c : Thread nD τ) arg11 fullShare (step1 false i x0 x1 x2 x3 x4 x5 x6 ⟨sm, sl, ss1, ss0⟩).l
            ∗ owns (c : Thread nD τ) arg12 fullShare (step1 false i x0 x1 x2 x3 x4 x5 x6 ⟨sm, sl, ss1, ss0⟩).s1
            ∗ owns (c : Thread nD τ) arg13 fullShare (step1 false i x0 x1 x2 x3 x4 x5 x6 ⟨sm, sl, ss1, ss0⟩).s0) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf9 hf10 hf11 hf12 hf13
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists _; isplitr
    swap; · iexact H10
    ipureintro
    close_piece
  isplitl [H11]
  · iexists _; isplitr
    swap; · iexact H11
    ipureintro
    close_piece
  isplitl [H12]
  · iexists _; isplitr
    swap; · iexact H12
    ipureintro
    close_piece
  iexists _; isplitr
  swap; · iexact H13
  ipureintro
  close_piece

/-! ## Column block 0: the four columns are reset, then updated -/

set_option maxHeartbeats 2000000 in
theorem sound_kernel1_A (c : Dev nD) (E : Set ℕ) (i : grid1.Coords) (arg2 : Memref sig .tc .vmem S512x1 .i32) (harg2 : arg2.IsWhole) (arg3 : Memref sig .tc .vmem S1x512 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : cond1_0 i) (hc1 : ¬cond1_1 i)
    (x0 : Vec F S512x1 .i32) (x1 : Vec F S1x512 .i32) (x2 : Vec F S512x1 .f32) (x3 : Vec F S1x512 .f32) (x4 : Vec F S1x512 .f32) (x5 : Vec F S512x512 .f32) (x6 : Vec F S512x512 .f32) (xo : Vec F S512x1 .f32) (s : St1 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xo
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo
            ∗ owns (c : Thread nD τ) arg10 fullShare (step1 true i x0 x1 x2 x3 x4 x5 x6 s).m
            ∗ owns (c : Thread nD τ) arg11 fullShare (step1 true i x0 x1 x2 x3 x4 x5 x6 s).l
            ∗ owns (c : Thread nD τ) arg12 fullShare (step1 true i x0 x1 x2 x3 x4 x5 x6 s).s1
            ∗ owns (c : Thread nD τ) arg13 fullShare (step1 true i x0 x1 x2 x3 x4 x5 x6 s).s0) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6
  subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists _; isplitr
    swap; · iexact H10
    ipureintro
    close_piece
  isplitl [H11]
  · iexists _; isplitr
    swap; · iexact H11
    ipureintro
    close_piece
  isplitl [H12]
  · iexists _; isplitr
    swap; · iexact H12
    ipureintro
    close_piece
  iexists _; isplitr
  swap; · iexact H13
  ipureintro
  close_piece

/-! ## Column block 7: the columns are updated, then the output block is stored -/

set_option maxHeartbeats 2000000 in
theorem sound_kernel1_C (c : Dev nD) (E : Set ℕ) (i : grid1.Coords) (arg2 : Memref sig .tc .vmem S512x1 .i32) (harg2 : arg2.IsWhole) (arg3 : Memref sig .tc .vmem S1x512 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : cond1_1 i)
    (x0 : Vec F S512x1 .i32) (x1 : Vec F S1x512 .i32) (x2 : Vec F S512x1 .f32) (x3 : Vec F S1x512 .f32) (x4 : Vec F S1x512 .f32) (x5 : Vec F S512x512 .f32) (x6 : Vec F S512x512 .f32) (s : St1 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d)
        ∗ owns (c : Thread nD τ) arg10 fullShare s.m ∗ owns (c : Thread nD τ) arg11 fullShare s.l ∗ owns (c : Thread nD τ) arg12 fullShare s.s1 ∗ owns (c : Thread nD τ) arg13 fullShare s.s0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out1 (step1 false i x0 x1 x2 x3 x4 x5 x6 s))
            ∗ owns (c : Thread nD τ) arg10 fullShare (step1 false i x0 x1 x2 x3 x4 x5 x6 s).m
            ∗ owns (c : Thread nD τ) arg11 fullShare (step1 false i x0 x1 x2 x3 x4 x5 x6 s).l
            ∗ owns (c : Thread nD τ) arg12 fullShare (step1 false i x0 x1 x2 x3 x4 x5 x6 s).s1
            ∗ owns (c : Thread nD τ) arg13 fullShare (step1 false i x0 x1 x2 x3 x4 x5 x6 s).s0) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%f11, %hf11, H11⟩, ⟨%f12, %hf12, H12⟩, ⟨%f13, %hf13, H13⟩, Hk⟩
  subst hf0 hf1 hf2 hf3 hf4 hf5 hf6
  obtain ⟨sm, sl, ss1, ss0⟩ := s
  dsimp only at hf10 hf11 hf12 hf13
  subst hf10 hf11 hf12 hf13
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    close_piece
  isplitl [H10]
  · iexists _; isplitr
    swap; · iexact H10
    ipureintro
    close_piece
  isplitl [H11]
  · iexists _; isplitr
    swap; · iexact H11
    ipureintro
    close_piece
  isplitl [H12]
  · iexists _; isplitr
    swap; · iexact H12
    ipureintro
    close_piece
  iexists _; isplitr
  swap; · iexact H13
  ipureintro
  close_piece

end Cert.KernelIdeal.Hand

end
-- ==== Proof.RegionBDefs.lean ====
/-
  The second kernel's half of the two-region frame: the invariant, the proof data, and what each window's
  buffer holds at a point.

  The kernel walks an 8 × 8 grid, the column block fastest, and carries four 512 × 1 columns between points:
  the running maximum, the rescaled sum of exponentials, and two weighted sums.  The invariant before point
  n + 1 names the four columns' contents after point n.  The inputs' buffers hold their blocks at every point;
  the output's buffer is untouched except at column block 7.
-/
import proofs.«421925_j36627481101076_1_alg».proof.Proof.Steps
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

-- the buffer contents when the region is entered, and the shares held of the input arrays
variable (V : (c : Dev nD) → (b : Ref sig .tc) → Buf (Elt F) ((c : Thread nD τ).loc b))
variable (q1 : Fin cfg1.W → PosShare TreeShare)

/-! ## The four carried columns and the other scoped buffers -/

abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

/-- The first kernel's eleven scoped buffers, each whole at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f))

theorem N1_eq : cfg1.N = 64 := N_1

/-- Row `r`'s block is written back at point `8 (r / 512) + 7`. -/
theorem flushPt_lt (r : Fin 4096) : 8 * (r.val / 512) + 7 < cfg1.N := by
  have h : cfg1.N = 64 := N_1
  have := r.isLt
  omega

/-- The invariant before point `n`: at the first point the region's scoped rest at anything; afterwards the four
    carried columns at what point `n - 1` left, the other scoped buffers at anything, the generator register at
    some state. -/
def Phi1 (c : Dev nD) : (n : ℕ) → n ≤ cfg1.N → sProp 𝕄
  | 0, _ => Pipeline.ΦA spec1 c
  | n + 1, hn => iprop(iprop(owns (c : Thread nD τ) scM1_0 fullShare (st1 V c n hn).m
      ∗ owns (c : Thread nD τ) scM1_1 fullShare (st1 V c n hn).l
      ∗ owns (c : Thread nD τ) scM1_2 fullShare (st1 V c n hn).s1
      ∗ owns (c : Thread nD τ) scM1_3 fullShare (st1 V c n hn).s0
      ∗ rest1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1_0 fullShare (st1 V c n hn).m
      ∗ owns (c : Thread nD τ) scM1_1 fullShare (st1 V c n hn).l
      ∗ owns (c : Thread nD τ) scM1_2 fullShare (st1 V c n hn).s1
      ∗ owns (c : Thread nD τ) scM1_3 fullShare (st1 V c n hn).s0
      ∗ rest1 c) ∗ (∃ r, prngReg c r)) := rfl

theorem Phi1_pos (c : Dev nD) (n : ℕ) (h : n ≤ cfg1.N) (hz : n ≠ 0) :
    Phi1 V c n h = iprop(iprop(owns (c : Thread nD τ) scM1_0 fullShare (st1 V c (n - 1) (by omega)).m
      ∗ owns (c : Thread nD τ) scM1_1 fullShare (st1 V c (n - 1) (by omega)).l
      ∗ owns (c : Thread nD τ) scM1_2 fullShare (st1 V c (n - 1) (by omega)).s1
      ∗ owns (c : Thread nD τ) scM1_3 fullShare (st1 V c (n - 1) (by omega)).s0
      ∗ rest1 c) ∗ (∃ r, prngReg c r)) := by
  cases n with
  | zero => exact absurd rfl hz
  | succ n => rfl

/-- The proof data: the arrays as the region finds them; after the body each input's buffer at its block and
    the output's at `s1 - (m + log l) * s0` of the carried columns; nothing owed. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 (st1 V c t.val t.isLt)
  Φ t := Phi1 V c t.val (Nat.le_of_lt_succ t.isLt)
  q := q1
  owed _ := 0

theorem A_eq1 (c : Dev nD) (w : Fin cfg1.W) : (dat1 V q1 c).A w = V c (Pipeline.arrRef spec1 w) := by
  dsimp only [dat1]

theorem Phi1_castSucc (c : Dev nD) (t : Fin cfg1.N) :
    (dat1 V q1 c).Φ t.castSucc = Phi1 V c t.val (Nat.le_of_lt t.isLt) := by
  dsimp only [dat1]; simp only [Fin.coe_castSucc]

theorem Phi1_first (c : Dev nD) : (dat1 V q1 c).Φ 0 = Pipeline.ΦA spec1 c := rfl

theorem after1_0 (c : Dev nD) (t : Fin cfg1.N) : (dat1 V q1 c).after 0 t = iblk1 V c 0 t := by dsimp only [dat1]
theorem after1_1 (c : Dev nD) (t : Fin cfg1.N) : (dat1 V q1 c).after 1 t = iblk1 V c 1 t := by dsimp only [dat1]
theorem after1_2 (c : Dev nD) (t : Fin cfg1.N) : (dat1 V q1 c).after 2 t = iblk1 V c 2 t := by dsimp only [dat1]
theorem after1_3 (c : Dev nD) (t : Fin cfg1.N) : (dat1 V q1 c).after 3 t = iblk1 V c 3 t := by dsimp only [dat1]
theorem after1_4 (c : Dev nD) (t : Fin cfg1.N) : (dat1 V q1 c).after 4 t = iblk1 V c 4 t := by dsimp only [dat1]
theorem after1_5 (c : Dev nD) (t : Fin cfg1.N) : (dat1 V q1 c).after 5 t = iblk1 V c 5 t := by dsimp only [dat1]
theorem after1_6 (c : Dev nD) (t : Fin cfg1.N) : (dat1 V q1 c).after 6 t = iblk1 V c 6 t := by dsimp only [dat1]
theorem after1_7 (c : Dev nD) (t : Fin cfg1.N) : (dat1 V q1 c).after 7 t = out1 (st1 V c t.val t.isLt) := by dsimp only [dat1]

/-! ## The inputs' buffers hold their blocks at every point, fetched there or not -/

theorem before1_0 (c : Dev nD) (t : Fin cfg1.N) (d) : (dat1 V q1 c).before 0 t d = iblk1 V c 0 t :=
  ((dat1 V q1 c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V q1 c).before 1 t d = iblk1 V c 1 t :=
  ((dat1 V q1 c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V q1 c).before 2 t d = iblk1 V c 2 t :=
  ((dat1 V q1 c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V q1 c).before 3 t d = iblk1 V c 3 t :=
  ((dat1 V q1 c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V q1 c).before 4 t d = iblk1 V c 4 t :=
  ((dat1 V q1 c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V q1 c).before 5 t d = iblk1 V c 5 t :=
  ((dat1 V q1 c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V q1 c).before 6 t d = iblk1 V c 6 t :=
  ((dat1 V q1 c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from column block 7 the output window is idle and not written back. -/
theorem idleAt1_7 : ∀ t : Fin cfg1.N, ¬t.val % 8 = 7 → cfg1.idle 7 (grid1.coords t) = true := by decide +kernel
theorem noFlush1_7 : ∀ t : Fin cfg1.N, ¬t.val % 8 = 7 → (cfg1.win 7).flush t = false := by decide +kernel
/-- At column block 7 it is live. -/
theorem liveAt1_7 : ∀ t : Fin cfg1.N, t.val % 8 = 7 → cfg1.idle 7 (grid1.coords t) = false := by decide +kernel

/-! ## The carried columns, case by case -/

/-- At a reset the carried columns going in do not matter. -/
theorem step1_true_irrel (i : grid1.Coords) (x0 : Vec F S512x1 .i32) (x1 : Vec F S1x512 .i32) (x2 : Vec F S512x1 .f32)
    (x3 : Vec F S1x512 .f32) (x4 : Vec F S1x512 .f32) (x5 : Vec F S512x512 .f32) (x6 : Vec F S512x512 .f32) (s s' : St1 F) :
    step1 true i x0 x1 x2 x3 x4 x5 x6 s = step1 true i x0 x1 x2 x3 x4 x5 x6 s' := by
  simp only [step1, ↓reduceIte]

/-- At column block 0 the carried columns are the reset ones updated. -/
theorem st1_first (c : Dev nD) (t : Fin cfg1.N) (h0 : t.val % 8 = 0) (s : St1 F) :
    st1 V c t.val t.isLt = step1 true (grid1.coords t) (iblk1 V c 0 t) (iblk1 V c 1 t) (iblk1 V c 2 t) (iblk1 V c 3 t) (iblk1 V c 4 t) (iblk1 V c 5 t) (iblk1 V c 6 t) s := by
  obtain ⟨n, hn⟩ := t
  cases n with
  | zero => exact step1_true_irrel _ _ _ _ _ _ _ _ _ _
  | succ n =>
    show step1 (decide ((n + 1) % 8 = 0)) _ _ _ _ _ _ _ _ _ = _
    rw [decide_eq_true h0]
    exact step1_true_irrel _ _ _ _ _ _ _ _ _ _

/-- At a later column block they are the previous point's updated. -/
theorem st1_later (c : Dev nD) (t : Fin cfg1.N) (h0 : ¬t.val % 8 = 0) :
    st1 V c t.val t.isLt = step1 false (grid1.coords t) (iblk1 V c 0 t) (iblk1 V c 1 t) (iblk1 V c 2 t) (iblk1 V c 3 t) (iblk1 V c 4 t) (iblk1 V c 5 t) (iblk1 V c 6 t)
      (st1 V c (t.val - 1) (Nat.lt_of_le_of_lt (Nat.sub_le _ _) t.isLt)) := by
  obtain ⟨n, hn⟩ := t
  cases n with
  | zero => exact absurd (Nat.zero_mod _) h0
  | succ n =>
    show step1 (decide ((n + 1) % 8 = 0)) _ _ _ _ _ _ _ _ _ = _
    rw [decide_eq_false h0]
    rfl

/-! ## The scoped rest, split into the four columns' buffers and the others -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f)
      ∗ (∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

theorem PhiA1_split (c : Dev nD) :
    (Pipeline.ΦA spec1 c : sProp 𝕄) ⊢ iprop(iprop((∃ d, owns (c : Thread nD τ) scM1_0 fullShare d)
      ∗ (∃ d, owns (c : Thread nD τ) scM1_1 fullShare d) ∗ (∃ d, owns (c : Thread nD τ) scM1_2 fullShare d)
      ∗ (∃ d, owns (c : Thread nD τ) scM1_3 fullShare d) ∗ rest1 c) ∗ (∃ r, prngReg c r)) := by
  rw [PhiA1_eq]; unfold rest1
  iintro ⟨⟨A0, A1, A2, A3, A4, A5, A6, A7, A8, A9, A10, S0, S1, S2, S3⟩, Hg⟩
  isplitr [Hg]
  swap; · iexact Hg
  isplitl [S0]; · iexact S0
  isplitl [S1]; · iexact S1
  isplitl [S2]; · iexact S2
  isplitl [S3]; · iexact S3
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

theorem PhiA1_join (c : Dev nD) :
    iprop(iprop((∃ d, owns (c : Thread nD τ) scM1_0 fullShare d)
      ∗ (∃ d, owns (c : Thread nD τ) scM1_1 fullShare d) ∗ (∃ d, owns (c : Thread nD τ) scM1_2 fullShare d)
      ∗ (∃ d, owns (c : Thread nD τ) scM1_3 fullShare d) ∗ rest1 c) ∗ (∃ r, prngReg c r)) ⊢ (Pipeline.ΦA spec1 c : sProp 𝕄) := by
  rw [PhiA1_eq]; unfold rest1
  iintro ⟨⟨S0, S1, S2, S3, A0, A1, A2, A3, A4, A5, A6, A7, A8, A9, A10⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [S0]; · iexact S0
  isplitl [S1]; · iexact S1
  isplitl [S2]; · iexact S2
  iexact S3

/-- The scoped rest IS the four columns' buffers at anything, the others, and the generator register. -/
theorem PhiA1_eq2 (c : Dev nD) :
    (Pipeline.ΦA spec1 c : sProp 𝕄) = iprop(iprop((∃ d, owns (c : Thread nD τ) scM1_0 fullShare d)
      ∗ (∃ d, owns (c : Thread nD τ) scM1_1 fullShare d) ∗ (∃ d, owns (c : Thread nD τ) scM1_2 fullShare d)
      ∗ (∃ d, owns (c : Thread nD τ) scM1_3 fullShare d) ∗ rest1 c) ∗ (∃ r, prngReg c r)) :=
  Idealize.SL.BI.Entails.antisymm (PhiA1_split c) (PhiA1_join c)

/-- After the last point the invariant gives the scoped rest back: the columns' named contents are forgotten. -/
theorem Phi1_last (c : Dev nD) : (dat1 V q1 c).Φ (Fin.last cfg1.N) ⊢ Pipeline.ΦA spec1 c := by
  have hN : cfg1.N = 64 := N_1
  rw [show (dat1 V q1 c).Φ (Fin.last cfg1.N) = Phi1 V c (Fin.last cfg1.N).val (Nat.le_of_lt_succ (Fin.last cfg1.N).isLt) from rfl,
    Phi1_pos V c _ _ (by rw [Fin.val_last]; omega)]
  refine BIBase.Entails.trans ?_ (PhiA1_join c)
  iintro ⟨⟨S0, S1, S2, S3, R⟩, Hg⟩
  isplitr [Hg]
  swap; · iexact Hg
  isplitl [S0]; · iexists _; iexact S0
  isplitl [S1]; · iexists _; iexact S1
  isplitl [S2]; · iexists _; iexact S2
  isplitl [S3]; · iexists _; iexact S3
  iexact R

theorem arrAt1_in (c : Dev nD) (w : Fin cfg1.W) (hw : w ≠ 7) : (dat1 V q1 c).arrAt w cfg1.N = (dat1 V q1 c).A w := by
  refine (dat1 V q1 c).arrAt_in w ?_ _
  fin_cases w
  all_goals first | rfl | exact absurd rfl hw

end Cert.KernelIdeal.Hand

end
-- ==== Proof.RegionB2.lean ====
/-
  The body obligation of the second kernel's region, at a generic point: the inputs' buffers hold their blocks,
  the point's column block selects the control case, the invariant hands the four carried columns over at what
  the point before left (at anything at the first point) and takes them back at this point's contents.
-/
import proofs.«421925_j36627481101076_1_alg».proof.Proof.RegionB1
import proofs.«421925_j36627481101076_1_alg».proof.Proof.RegionBDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))
variable (q1 : Fin cfg1.W → PosShare TreeShare)

/-- What the body is called with at point `t`, the windows one by one, -/
def bodyPre1 (c : Dev nD) (t : Fin cfg1.N) : sProp 𝕄 :=
  iprop((dat1 V q1 c).Φ t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d))
    ∗ (∃ d, owns (c : Thread nD τ) (st1_3 t) fullShare ((dat1 V q1 c).before 3 t d))
    ∗ (∃ d, owns (c : Thread nD τ) (st1_4 t) fullShare ((dat1 V q1 c).before 4 t d))
    ∗ (∃ d, owns (c : Thread nD τ) (st1_5 t) fullShare ((dat1 V q1 c).before 5 t d))
    ∗ (∃ d, owns (c : Thread nD τ) (st1_6 t) fullShare ((dat1 V q1 c).before 6 t d))
    ∗ (∃ d, owns (c : Thread nD τ) (st1_7 t) fullShare ((dat1 V q1 c).before 7 t d)))

/-- and what it returns. -/
def bodyPost1 (c : Dev nD) (t : Fin cfg1.N) : sProp 𝕄 :=
  iprop((dat1 V q1 c).Φ t.succ ∗ (dat1 V q1 c).owesAt () t.succ
    ∗ (dat1 V q1 c).leavesExact 0 t
    ∗ (dat1 V q1 c).leavesExact 1 t
    ∗ (dat1 V q1 c).leavesExact 2 t
    ∗ (dat1 V q1 c).leavesExact 3 t
    ∗ (dat1 V q1 c).leavesExact 4 t
    ∗ (dat1 V q1 c).leavesExact 5 t
    ∗ (dat1 V q1 c).leavesExact 6 t
    ∗ (dat1 V q1 c).leavesExact 7 t)

set_option maxHeartbeats 4800000 in
theorem sound_body1 (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1, before1_2, before1_3, before1_4, before1_5, before1_6]
  rw [show (dat1 V q1 c).owesAt () t.succ = (dat1 V q1 c).owesAt () t.castSucc from rfl]
  rw [show (dat1 V q1 c).Φ t.succ = Phi1 V c (t.val + 1) t.isLt from rfl, Phi1_succ]
  have hN : t.val < 64 := lt_of_lt_of_eq t.isLt N_1
  rw [show (dat1 V q1 c).leavesExact 0 t = owns (c : Thread nD τ) (st1_0 t) fullShare ((dat1 V q1 c).after 0 t) from by
    unfold Dat.leavesExact; rw [liveAt1_0 t], after1_0]
  rw [show (dat1 V q1 c).leavesExact 1 t = owns (c : Thread nD τ) (st1_1 t) fullShare ((dat1 V q1 c).after 1 t) from by
    unfold Dat.leavesExact; rw [liveAt1_1 t], after1_1]
  rw [show (dat1 V q1 c).leavesExact 2 t = owns (c : Thread nD τ) (st1_2 t) fullShare ((dat1 V q1 c).after 2 t) from by
    unfold Dat.leavesExact; rw [liveAt1_2 t], after1_2]
  rw [show (dat1 V q1 c).leavesExact 3 t = owns (c : Thread nD τ) (st1_3 t) fullShare ((dat1 V q1 c).after 3 t) from by
    unfold Dat.leavesExact; rw [liveAt1_3 t], after1_3]
  rw [show (dat1 V q1 c).leavesExact 4 t = owns (c : Thread nD τ) (st1_4 t) fullShare ((dat1 V q1 c).after 4 t) from by
    unfold Dat.leavesExact; rw [liveAt1_4 t], after1_4]
  rw [show (dat1 V q1 c).leavesExact 5 t = owns (c : Thread nD τ) (st1_5 t) fullShare ((dat1 V q1 c).after 5 t) from by
    unfold Dat.leavesExact; rw [liveAt1_5 t], after1_5]
  rw [show (dat1 V q1 c).leavesExact 6 t = owns (c : Thread nD τ) (st1_6 t) fullShare ((dat1 V q1 c).after 6 t) from by
    unfold Dat.leavesExact; rw [liveAt1_6 t], after1_6]
  by_cases h0 : t.val % 8 = 0
  · have h7 : ¬t.val % 8 = 7 := by omega
    rw [Dat.leavesExact_idle (dat1 V q1 c) 7 t (idleAt1_7 t h7) (noFlush1_7 t h7)]
    rw [st1_first V c t h0 st1Reset]
    by_cases hz : t.val = 0
    · rw [Phi1_castSucc, Phi1_zero V c _ _ hz, PhiA1_eq2]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) (iblk1 V c 5 t) (iblk1 V c 6 t) ((dat1 V q1 c).before 7 t d7) st1Reset _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi1_castSucc, Phi1_pos V c _ _ hz]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) (iblk1 V c 5 t) (iblk1 V c 6 t) ((dat1 V q1 c).before 7 t d7) st1Reset _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexists _; iexact S0
      isplitl [S1]; · iexists _; iexact S1
      isplitl [S2]; · iexists _; iexact S2
      isplitl [S3]; · iexists _; iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    rw [Phi1_castSucc, Phi1_pos V c _ _ hz]
    rw [st1_later V c t h0]
    by_cases h7 : t.val % 8 = 7
    · rw [show (dat1 V q1 c).leavesExact 7 t = owns (c : Thread nD τ) (st1_7 t) fullShare ((dat1 V q1 c).after 7 t) from by
        unfold Dat.leavesExact; rw [liveAt1_7 t h7], after1_7]
      rw [st1_later V c t h0]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_C c Set.univ (grid1.coords t) _ _ _ _ _ _ _ _ _ _ _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) (iblk1 V c 5 t) (iblk1 V c 6 t) (st1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [S0]; · iexact S0
      isplitl [S1]; · iexact S1
      isplitl [S2]; · iexact S2
      isplitl [S3]; · iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V q1 c) 7 t (idleAt1_7 t h7) (noFlush1_7 t h7)]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_B c Set.univ (grid1.coords t) _ _ _ _ _ _ _ _ _ _ _ _ _ _ _ _ _ _ _ _ _ _ _ _ (fun h => h0 ((hcond1_0 t).mp h)) (fun h => h7 ((hcond1_1 t).mp h)) (iblk1 V c 0 t) (iblk1 V c 1 t) (iblk1 V c 2 t) (iblk1 V c 3 t) (iblk1 V c 4 t) (iblk1 V c 5 t) (iblk1 V c 6 t) ((dat1 V q1 c).before 7 t d7) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) :
    BodyObligation (dat1 (F := F) V q1 c) (defs₀ (F := F)) Variants.none () Set.univ := fun t => by
  rw [bigSep_W1, bigSep_W1]
  exact sound_body1 V q1 c t

end Cert.KernelIdeal.Hand

end
-- ==== Proof.RegionB3.lean ====
/-
  From the output window's blocks to its array.  The output's row block i is written back once, at point
  8 i + 7, so row r of the array after the run is row r % 512 of what point 8 (r / 512) + 7 left in the
  window's buffer.  Stated for any proof data of the region whose output window holds a given family of blocks.
-/
import proofs.«421925_j36627481101076_1_alg».proof.Proof.RegionBDefs
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The output window's block index at point `t` is (t / 8, 0). -/
theorem out_idx_facts : ∀ t : Fin cfg1.N, win1_7.index t (0 : Fin 2) = t.val / 8 ∧ win1_7.index t (1 : Fin 2) = 0 :=
  (by decide +kernel : ∀ t : Fin grid1.N, win1_7.index t (0 : Fin 2) = t.val / 8 ∧ win1_7.index t (1 : Fin 2) = 0)

/-- The array a family of blocks `g` fills: row `r` is row `r % 512` of block `8 (r / 512) + 7`. -/
def outArr (g : Fin cfg1.N → Vec F S512x1 .f32) : S4096x1.Idx → Elt F .f32 := fun i =>
  g ⟨8 * ((i 0).val / 512) + 7, by
      have h : cfg1.N = 64 := N_1
      have hi : (i 0).val < 4096 := (i 0).isLt
      omega⟩
    (ValueIdx.ix2 ⟨(i 0).val % 512, Nat.mod_lt _ (by norm_num)⟩ 0)

/-- What a flushing point writes back is its block of `outArr g`. -/
theorem flushed7_eq {c : Dev nD} (dat : Dat τ (Elt F) Unit ℕ (UR sig nD τ) ℕ cfg1 c)
    (g : Fin cfg1.N → Vec F S512x1 .f32) (hafter : ∀ t, dat.after 7 t = g t)
    (t : Fin cfg1.N) (hf : (cfg1.win 7).flush t = true) :
    dat.flushed 7 t = ((cfg1.win 7).blk t).view.read (Elt F) (outArr g) := by
  have h7 : t.val % 8 = 7 := (flush1_7 t).mp hf
  have hN : cfg1.N = 64 := N_1
  have htN : t.val < 64 := lt_of_lt_of_eq t.isLt hN
  show (cfg1.win 7).cut (grid1.coords t) (dat.after 7 t) = _
  rw [hafter]
  obtain ⟨e0, e1⟩ := out_idx_facts t
  funext j
  show g t j = outArr g (((cfg1.win 7).blk t).view.emb j)
  have hj : (j 0).val < 512 := (j 0).isLt
  have hj1 : (j 1).val < 1 := (j 1).isLt
  have hemb : ((((cfg1.win 7).blk t).view.emb j) 0).val = win1_7.index t (0 : Fin 2) * 512 + 1 * (j 0).val := rfl
  unfold outArr
  refine congr (congrArg g (Fin.ext ?_)) ?_
  · show t.val = 8 * (((((cfg1.win 7).blk t).view.emb j) 0).val / 512) + 7
    rw [hemb, e0]; omega
  · funext a; apply Fin.ext
    match a with
    | ⟨0, _⟩ =>
      show (j 0).val = ((((cfg1.win 7).blk t).view.emb j) 0).val % 512
      rw [hemb, e0]; omega
    | ⟨1, _⟩ =>
      show (j 1).val = 0
      omega

/-- An index of the array is in point `t`'s block iff each coordinate is in the block's range on its axis. -/
theorem mem_blk7 (t : Fin cfg1.N) (i : S4096x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_v24).slice (win1_7.rect t)).set ↔ _
  rw [View.set_slice_whole, Rect.mem_set_unit]
  exact Iff.rfl

/-- The output array after the run, row by row. -/
theorem arrAt7_of {c : Dev nD} (dat : Dat τ (Elt F) Unit ℕ (UR sig nD τ) ℕ cfg1 c)
    (g : Fin cfg1.N → Vec F S512x1 .f32) (hafter : ∀ t, dat.after 7 t = g t)
    (r : Fin 4096) (h : 8 * (r.val / 512) + 7 < cfg1.N) :
    dat.arrAt 7 cfg1.N (ValueIdx.ix2 r 0)
      = g ⟨8 * (r.val / 512) + 7, h⟩ (ValueIdx.ix2 ⟨r.val % 512, Nat.mod_lt _ (by norm_num)⟩ 0) := by
  have hr : r.val < 4096 := r.isLt
  have hf : (cfg1.win 7).flush ⟨8 * (r.val / 512) + 7, h⟩ = true :=
    (flush1_7 ⟨8 * (r.val / 512) + 7, h⟩).mpr (by show (8 * (r.val / 512) + 7) % 8 = 7; omega)
  have hi : (ValueIdx.ix2 r (0 : Fin 1) : S4096x1.Idx) ∈ ((cfg1.win 7).blk ⟨8 * (r.val / 512) + 7, h⟩).view.set := by
    rw [mem_blk7]
    obtain ⟨e0, e1⟩ := out_idx_facts ⟨8 * (r.val / 512) + 7, h⟩
    intro a
    match a with
    | ⟨0, _⟩ =>
      show win1_7.index ⟨8 * (r.val / 512) + 7, h⟩ (0 : Fin 2) * 512 ≤ r.val ∧ r.val < win1_7.index ⟨8 * (r.val / 512) + 7, h⟩ (0 : Fin 2) * 512 + 512
      rw [e0]; show (8 * (r.val / 512) + 7) / 8 * 512 ≤ r.val ∧ r.val < (8 * (r.val / 512) + 7) / 8 * 512 + 512
      omega
    | ⟨1, _⟩ =>
      show win1_7.index ⟨8 * (r.val / 512) + 7, h⟩ (1 : Fin 2) * 1 ≤ 0 ∧ 0 < win1_7.index ⟨8 * (r.val / 512) + 7, h⟩ (1 : Fin 2) * 1 + 1
      rw [e1]; omega
  exact dat.arrAt_apply_of_mem 7 (outArr g) (fun t hf => flushed7_eq dat g hafter t hf) cfg1.N
    ⟨8 * (r.val / 512) + 7, h⟩ _ (Fin.isLt _) hf hi

/-! ## The region's output array -/

variable (V : (c : Dev nD) → (b : Ref sig .tc) → Buf (Elt F) ((c : Thread nD τ).loc b))
variable (q1 : Fin cfg1.W → PosShare TreeShare)

/-- Row `r` of the output array after the run: row `r % 512` of `s1 - (m + log l) * s0` of the columns carried
    through row block `r / 512`'s eight column blocks. -/
theorem arrAt1_out (c : Dev nD) (r : Fin 4096) :
    (dat1 V q1 c).arrAt 7 cfg1.N (ValueIdx.ix2 r 0)
      = out1 (st1 V c (8 * (r.val / 512) + 7) (flushPt_lt r)) (ValueIdx.ix2 ⟨r.val % 512, Nat.mod_lt _ (by norm_num)⟩ 0) :=
  arrAt7_of (dat1 V q1 c) (fun t => out1 (st1 V c t.val t.isLt)) (after1_7 V q1 c) r (flushPt_lt r)

end Cert.KernelIdeal.Hand

end
-- ==== Proof.RegionB.lean ====
/-
  The second kernel's half of the two-region frame, at the buffer contents the region is entered with.

  The kernel walks an 8 × 8 grid, the column block fastest, and carries four 512 × 1 columns between points:
  the running maximum, the rescaled sum of exponentials, and two weighted sums.  At column block 0 the four
  are reset before the update; at column block 7 the update is followed by the store of the output block.
  The invariant before point n + 1 names the four columns' contents after point n; the output row block i is
  written back once, at point 8 i + 7.

  The invariant and the proof data, the kernel's triple per control case, the body obligation at a generic
  point, and the output array row by row are in the modules imported here.
-/
import proofs.«421925_j36627481101076_1_alg».proof.Proof.RegionB2
import proofs.«421925_j36627481101076_1_alg».proof.Proof.RegionB3
-- ==== Proof.Fold.lean ====
/-
  What the two kernel regions leave behind them.

  Between two items of the program a core's unscoped buffers sit at a valuation: the launch memory, then each
  host stretch applied to it, then, at a region, the one array that region writes replaced by what its
  pipeline's write-backs leave.  Region 0 writes the row sums' array, and what it leaves there depends on
  the launch memory alone; region 1 writes the row losses' array, and what it leaves depends on the launch
  memory and on region 0's array (through one host reshape).  So the two contents are named in that order,
  and the family the valuations are written over is read off them.

  Region 1 stages the normalised embeddings through two of its input windows (the row block and the column
  block of the similarity matrix): the two windows hold the two halves of the array's full share.
-/
import proofs.«421925_j36627481101076_1_alg».proof.Proof.Gen.KernelIdeal.Regions
import proofs.«421925_j36627481101076_1_alg».proof.Proof.RegionA
import proofs.«421925_j36627481101076_1_alg».proof.Proof.RegionB

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

variable (m : (ℓ : Loc nD τ sig) → Buf (Elt F) ℓ)

/-! ## The shares region 1's input windows hold -/

/-- Windows 5 and 6 read one array, a half of its full share each; every other input window holds its own
    array whole. -/
def q1K : Fin cfg1.W → PosShare TreeShare
  | ⟨5, _⟩ => fullShare.left
  | ⟨6, _⟩ => fullShare.right
  | _ => fullShare

theorem q1K_5 : q1K 5 = fullShare.left := rfl
theorem q1K_6 : q1K 6 = fullShare.right := rfl
theorem q1K_of (w : Fin cfg1.W) (h5 : w ≠ 5) (h6 : w ≠ 6) : q1K w = fullShare := by
  revert w; decide

/-! ## Region 0's array -/

/-- The buffers as region 0 finds them: the launch memory after the first host stretch. -/
abbrev VA : (c : Dev nD) → (b : Ref sig .tc) → Buf (Elt F) ((c : Thread nD τ).loc b) := fun c b => Gen.V1 m c b

/-- What region 0's write-backs leave in the row sums' array. -/
def o2 (c : Dev nD) : Buf (Elt F) ((c : Thread nD τ).loc main_v22) := (dat0 (VA m) c).arrAt 4 cfg0.N

/-- The buffers after region 0. -/
def W2 (c : Dev nD) : Valuation τ sig (Elt F) := Function.update (Gen.V1 m c) main_v22 (o2 m c)

/-! ## Region 1's array -/

/-- The buffers as region 1 finds them: those after region 0, after the second host stretch. -/
abbrev VB : (c : Dev nD) → (b : Ref sig .tc) → Buf (Elt F) ((c : Thread nD τ).loc b) :=
  fun c b => StableHlo.after hostOps1 (W2 m c) b

/-- What region 1's write-backs leave in the row losses' array. -/
def o4 (c : Dev nD) : Buf (Elt F) ((c : Thread nD τ).loc main_v24) := (dat1 (VB m) q1K c).arrAt 7 cfg1.N

/-- The buffers after region 1. -/
def W4 (c : Dev nD) : Valuation τ sig (Elt F) := Function.update (StableHlo.after hostOps1 (W2 m c)) main_v24 (o4 m c)

/-! ## The family the valuations are written over -/

/-- After item 1 every buffer as region 0 leaves it; after item 3 every buffer as region 1 leaves it. -/
def outsK : Gen.Outs (F := F) := fun J r c => if J = 2 then W2 m c r else W4 m c r

theorem outsK_2 (r : Ref sig .tc) (c : Dev nD) : outsK m 2 r c = W2 m c r := if_pos rfl
theorem outsK_4 (r : Ref sig .tc) (c : Dev nD) : outsK m 4 r c = W4 m c r := if_neg (by decide)

/-- Region 0's array after item 1 is what its write-backs leave. -/
theorem outsK_22' (c : Dev nD) : outsK m 2 main_v22 c = o2 m c := by
  rw [outsK_2]; unfold W2; exact Function.update_self ..

/-- The second valuation at this family is the buffers after region 0. -/
theorem V2_outsK (c : Dev nD) : Gen.V2 m (outsK m) c = W2 m c := by
  show Function.update (Gen.V1 m c) main_v22 (outsK m 2 main_v22 c) = W2 m c
  rw [outsK_22']; rfl

/-- The third is the buffers region 1 finds. -/
theorem V3_outsK (c : Dev nD) : Gen.V3 m (outsK m) c = StableHlo.after hostOps1 (W2 m c) := by
  show StableHlo.after hostOps1 (Gen.V2 m (outsK m) c) = _
  rw [V2_outsK]

theorem VB_eq : VB m = fun (c : Dev nD) (b : Ref sig .tc) => Gen.V3 m (outsK m) c b := by
  funext c b; rw [V3_outsK]

/-- Region 1's array after item 3 is what its write-backs leave. -/
theorem outsK_24' (c : Dev nD) : outsK m 4 main_v24 c = o4 m c := by
  rw [outsK_4]; unfold W4; exact Function.update_self ..

/-- The fourth valuation at this family is the buffers after region 1. -/
theorem V4_outsK (c : Dev nD) : Gen.V4 m (outsK m) c = W4 m c := by
  show Function.update (Gen.V3 m (outsK m) c) main_v24 (outsK m 4 main_v24 c) = W4 m c
  rw [outsK_24', V3_outsK]; rfl

/-! ## The two arrays, by the regions' proof data -/

theorem outsK_22 (c : Dev nD) : outsK m 2 main_v22 c = (dat0 (fun c b => Gen.V1 m c b) c).arrAt 4 cfg0.N :=
  outsK_22' m c

theorem outsK_24 (c : Dev nD) :
    outsK m 4 main_v24 c = (dat1 (fun c b => Gen.V3 m (outsK m) c b) q1K c).arrAt 7 cfg1.N := by
  rw [outsK_24', ← VB_eq]; rfl

end Cert.KernelIdeal.Hand

end
-- ==== Proof.Run.lean ====
/-
  The run of the two-region program, with every unscoped buffer named at the end.

  A core's thread state between two items is: every unscoped buffer whole at the valuation of that boundary,
  the generator register at some state, nothing owed.  A host stretch moves the valuation by its operations.
  A kernel region takes its windows' arrays out of the unscoped buffers, runs its pipeline, and puts them
  back with the one array it writes replaced by what the write-backs leave.  Region 1 reads one array through
  two windows: the array's buffer is split in two halves of the full share at the entry, one per window, and
  the halves are joined again at the exit, both windows having left the array as they found it.
-/
import proofs.«421925_j36627481101076_1_alg».proof.Proof.Fold
import Idealize.ShloMosaic.Lib.Pipeline.RegionsLoop

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The buffers as region 1 finds them, read at the TensorCore's references. -/
abbrev VC : (c : Dev nD) → (b : Ref sig .tc) → Buf (Elt F) ((c : Thread nD τ).loc b) :=
  fun c b => Gen.V3 m (outsK m) c b

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VC m) q1K c

abbrev 𝒱K : Variants := Variants.none
/-- No core owes another anything. -/
abbrev LK : GSem nD τ sig → Finset Unit := fun _ => ∅
abbrev lvK : GSem nD τ sig → Unit → ℕ := fun _ _ => 0

/-- What rides beside the buffers through every item: the generator register at some state and the core's
    dues, at nothing. -/
abbrev RK (c : Dev nD) : sProp 𝕄 :=
  iprop((∃ r, prngReg c r) ∗ ∃ W, owes (c : Thread nD τ) (0 : CellTallies nD τ sig Unit) W)

abbrev EK : Fin 3 → Dev nD → sProp 𝕄 := fun _ c => RK (F := F) c

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## Region 0: its arrays are distinct buffers -/

/-- At region 0's exit each of its arrays holds what the pipeline leaves: the inputs as entered, the row sums'
    array at the write-backs' result. -/
theorem hF0 (c : Dev nD) (w : Fin cfg0.W) :
    (dat0 (VA m) c).arrAt w cfg0.N = Gen.V2 m (outsK m) c (Pipeline.arrRef spec0 w) := by
  by_cases hw : w = 4
  · subst hw
    exact (outsK_22 m c).symm.trans (by
      show outsK m 2 main_v22 c = Function.update (Gen.V1 m c) main_v22 (outsK m 2 main_v22 c) main_v22
      rw [Function.update_self])
  · refine (arrAt0_in (VA m) c w hw).trans ((A_eq0 (VA m) c w).trans ?_)
    exact (Gen.V2_of m (outsK m) c (Pipeline.arrRef spec0 w) (by revert w; decide)).symm

/-- Every other buffer holds what it held at the entry. -/
theorem hrest0 (c : Dev nD) (b : Ref sig .tc) (hb : b ∉ Finset.univ.image (Pipeline.arrRef spec0)) :
    Gen.V2 m (outsK m) c b = Gen.V1 m c b :=
  Gen.V2_of m (outsK m) c b fun h => by
    rw [List.mem_singleton] at h
    exact hb (Finset.mem_image.mpr ⟨4, Finset.mem_univ _, h.symm⟩)

set_option backward.isDefEq.respectTransparency.types false in
/-- Region 0 over the thread state: entered from every unscoped buffer at the first host stretch's result,
    left with the row sums' array at what the pipeline writes. -/
def reg0 : RegionSeg (pcfgs (F := F)) adm (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ LK lvK 0 fun _ _ => rfl
  pre c := iprop(StableHlo.held (c : Thread nD τ) (Pipeline.ucRefs τ sig) (Gen.V1 m c) ∗ RK c)
  post c := iprop(StableHlo.held (c : Thread nD τ) (Pipeline.ucRefs τ sig) (Gen.V2 m (outsK m) c) ∗ RK c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (VA m) c]; unfold Pipeline.ΦA
    iintro ⟨Hp, -, Hr⟩
    isplitl [Hr]; · iexact Hr
    iexact Hp
  hout c := by
    refine (show (pdats m 0 c).Φ (Fin.last _) ⊢ Pipeline.ΦA spec0 c from Phi0_last (VA m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => Gen.V2 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: two windows on one array -/

/-- The share each window of region 1 holds its array at: the output's is full by definition, an input's is
    the proof data's. -/
theorem share1K (V : (c : Dev nD) → (b : Ref sig .tc) → Buf (Elt F) ((c : Thread nD τ).loc b)) (c : Dev nD) :
    ∀ w : Fin cfg1.W, (dat1 V q1K c).share w = q1K w
  | 0 => rfl | 1 => rfl | 2 => rfl | 3 => rfl | 4 => rfl | 5 => rfl | 6 => rfl | 7 => rfl
  | ⟨_ + 8, h⟩ => absurd h (Nat.not_lt.2 (Nat.le_add_left _ _))

/-- The seven distinct buffers behind region 1's eight windows, as a chain. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v18) ↦{fullShare} V main_v18) ∗ (((c : Thread nD τ).loc main_v19) ↦{fullShare} V main_v19)
        ∗ (((c : Thread nD τ).loc main_v20) ↦{fullShare} V main_v20) ∗ (((c : Thread nD τ).loc main_v21) ↦{fullShare} V main_v21)
        ∗ (((c : Thread nD τ).loc main_v23) ↦{fullShare} V main_v23) ∗ (((c : Thread nD τ).loc main_v16) ↦{fullShare} V main_v16)
        ∗ (((c : Thread nD τ).loc main_v24) ↦{fullShare} V main_v24)) := by
  unfold Pipeline.arrBufs
  rw [bigSep_eq_bigSepL_of_eq [main_v18, main_v19, main_v20, main_v21, main_v23, main_v16, main_v24] (by decide) (by decide)]
  rfl

/-- One window's array: a whole buffer, at the window's share. -/
theorem arr1_pt (V' : (c : Dev nD) → (b : Ref sig .tc) → Buf (Elt F) ((c : Thread nD τ).loc b)) (c : Dev nD)
    (G : (w : Fin cfg1.W) → Buf (Elt F) ((cfg1.win w).arr.view.loc (c : Thread nD τ))) (w : Fin cfg1.W) :
    (((cfg1.win w).arr.view.loc (c : Thread nD τ)) ↦[(cfg1.win w).arr.view.set]{(dat1 V' q1K c).share w} G w : sProp 𝕄)
      = (((c : Thread nD τ).loc (Pipeline.arrRef spec1 w)) ↦{q1K w} G w) := by
  rw [(arr_whole1 w).set_eq_univ, share1K]

/-- Region 1's arrays at contents read off a valuation, window by window: the array two windows read is held
    twice, a half of the full share each. -/
theorem arrays1_eq (V' : (c : Dev nD) → (b : Ref sig .tc) → Buf (Elt F) ((c : Thread nD τ).loc b)) (c : Dev nD)
    (V : (b : Ref sig .tc) → Buf (Elt F) ((c : Thread nD τ).loc b)) :
    ((dat1 V' q1K c).arrays (fun w => V (Pipeline.arrRef spec1 w)) : sProp 𝕄)
      = iprop((((c : Thread nD τ).loc main_v18) ↦{fullShare} V main_v18) ∗ (((c : Thread nD τ).loc main_v19) ↦{fullShare} V main_v19)
        ∗ (((c : Thread nD τ).loc main_v20) ↦{fullShare} V main_v20) ∗ (((c : Thread nD τ).loc main_v21) ↦{fullShare} V main_v21)
        ∗ (((c : Thread nD τ).loc main_v23) ↦{fullShare} V main_v23) ∗ (((c : Thread nD τ).loc main_v16) ↦{fullShare.left} V main_v16)
        ∗ (((c : Thread nD τ).loc main_v16) ↦{fullShare.right} V main_v16) ∗ (((c : Thread nD τ).loc main_v24) ↦{fullShare} V main_v24)) := by
  unfold Pipeline.Dat.arrays
  rw [bigSep_congr fun w _ => arr1_pt V' c (fun w => V (Pipeline.arrRef spec1 w)) w, bigSep_W1]
  rfl

/-- ENTRY: the buffers behind the arrays, each whole, make the arrays: the shared one is split in two halves. -/
theorem split1 (V' : (c : Dev nD) → (b : Ref sig .tc) → Buf (Elt F) ((c : Thread nD τ).loc b)) (c : Dev nD)
    (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V' q1K c).arrays (fun w => V (Pipeline.arrRef spec1 w)) := by
  rw [arrBufs1_eq, arrays1_eq]
  iintro ⟨H18, H19, H20, H21, H23, H16, H24⟩
  ihave H16' := (pointsTo_share (PosShare.mem_left_op_right fullShare)).1 $$ H16
  icases H16' with ⟨H16a, H16b⟩
  isplitl [H18]; · iexact H18
  isplitl [H19]; · iexact H19
  isplitl [H20]; · iexact H20
  isplitl [H21]; · iexact H21
  isplitl [H23]; · iexact H23
  isplitl [H16a]; · iexact H16a
  isplitl [H16b]; · iexact H16b
  iexact H24

/-- EXIT: the arrays make the buffers behind them, each whole: the two halves of the shared one are joined. -/
theorem join1 (V' : (c : Dev nD) → (b : Ref sig .tc) → Buf (Elt F) ((c : Thread nD τ).loc b)) (c : Dev nD)
    (V : (b : Ref sig .tc) → Buf (Elt F) ((c : Thread nD τ).loc b)) :
    ((dat1 V' q1K c).arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq]
  iintro ⟨H18, H19, H20, H21, H23, H16a, H16b, H24⟩
  ihave H16 := (pointsTo_share (PosShare.mem_left_op_right fullShare)).2 $$ [H16a H16b]
  · isplitl [H16a]; · iexact H16a
    iexact H16b
  isplitl [H18]; · iexact H18
  isplitl [H19]; · iexact H19
  isplitl [H20]; · iexact H20
  isplitl [H21]; · iexact H21
  isplitl [H23]; · iexact H23
  isplitl [H16]; · iexact H16
  iexact H24

/-- At region 1's entry each window's array holds what the buffers hold. -/
theorem hA1 (c : Dev nD) :
    (fun w => (dat1 (VC m) q1K c).arrAt w 0) = fun w => VC m c (Pipeline.arrRef spec1 w) :=
  funext fun w => (show (dat1 (VC m) q1K c).arrAt w 0 = (dat1 (VC m) q1K c).A w from rfl).trans (A_eq1 (VC m) q1K c w)

/-- At region 1's exit each of its arrays holds what the pipeline leaves: the inputs as entered (the shared one
    by both its windows), the row losses' array at the write-backs' result. -/
theorem hF1 (c : Dev nD) (w : Fin cfg1.W) :
    (dat1 (VC m) q1K c).arrAt w cfg1.N = Gen.V4 m (outsK m) c (Pipeline.arrRef spec1 w) := by
  by_cases hw : w = 7
  · subst hw
    exact (outsK_24 m c).symm.trans (by
      show outsK m 4 main_v24 c = Function.update (Gen.V3 m (outsK m) c) main_v24 (outsK m 4 main_v24 c) main_v24
      rw [Function.update_self])
  · refine (arrAt1_in (VC m) q1K c w hw).trans ((A_eq1 (VC m) q1K c w).trans ?_)
    exact (Gen.V4_of m (outsK m) c (Pipeline.arrRef spec1 w) (by revert w; decide)).symm

/-- Every other buffer holds what it held at the entry. -/
theorem hrest1 (c : Dev nD) (b : Ref sig .tc) (hb : b ∉ Finset.univ.image (Pipeline.arrRef spec1)) :
    Gen.V4 m (outsK m) c b = Gen.V3 m (outsK m) c b :=
  Gen.V4_of m (outsK m) c b fun h => by
    rw [List.mem_singleton] at h
    exact hb (Finset.mem_image.mpr ⟨7, Finset.mem_univ _, h.symm⟩)

/-- ENTRY, the buffers' part: every unscoped buffer at the entry contents is region 1's arrays, the shared one
    split between its two windows, and the unscoped rest. -/
theorem entry1 (c : Dev nD) :
    (StableHlo.held (c : Thread nD τ) (Pipeline.ucRefs τ sig) (Gen.V3 m (outsK m) c) : sProp 𝕄)
      ⊢ iprop((dat1 (VC m) q1K c).arrays ((dat1 (VC m) q1K c).arrAt · 0)
          ∗ Pipeline.unscopedRest (Ix := Unit) (Name := ℕ) (U := UR sig nD τ) (Lvl := ℕ) spec1 c (VC m c)) := by
  have h1 : (StableHlo.held (c : Thread nD τ) (Pipeline.ucRefs τ sig) (Gen.V3 m (outsK m) c) : sProp 𝕄)
      = unscopedBufs (Ix := Unit) (Name := ℕ) (U := UR sig nD τ) (Lvl := ℕ) c (VC m c) :=
    (Pipeline.unscopedBufs_held c (Gen.V3 m (outsK m) c)).symm
  have h2 := Pipeline.unscopedBufs_split₀ (Ix := Unit) (Name := ℕ) (U := UR sig nD τ) (Lvl := ℕ) (Val := Elt F) cfgs 1
    winFacts₀1.arr_unscoped c (VC m c)
  rw [h1, h2]
  exact sep_mono ((split1 (VC m) c (VC m c)).trans (Entails.of_eq (congrArg _ (hA1 m c).symm))) .rfl

/-- EXIT, the buffers' part: region 1's arrays as the pipeline leaves them, the two halves of the shared one
    joined, and the unscoped rest are every unscoped buffer at the exit contents. -/
theorem exit1 (c : Dev nD) :
    iprop((dat1 (VC m) q1K c).arrays ((dat1 (VC m) q1K c).arrAt · cfg1.N)
        ∗ Pipeline.unscopedRest (Ix := Unit) (Name := ℕ) (U := UR sig nD τ) (Lvl := ℕ) spec1 c (VC m c))
      ⊢ (StableHlo.held (c : Thread nD τ) (Pipeline.ucRefs τ sig) (Gen.V4 m (outsK m) c) : sProp 𝕄) := by
  have h1 : (StableHlo.held (c : Thread nD τ) (Pipeline.ucRefs τ sig) (Gen.V4 m (outsK m) c) : sProp 𝕄)
      = unscopedBufs (Ix := Unit) (Name := ℕ) (U := UR sig nD τ) (Lvl := ℕ) c (fun b => Gen.V4 m (outsK m) c b) :=
    (Pipeline.unscopedBufs_held c (Gen.V4 m (outsK m) c)).symm
  have h2 := Pipeline.unscopedBufs_split₀ (Ix := Unit) (Name := ℕ) (U := UR sig nD τ) (Lvl := ℕ) (Val := Elt F) cfgs 1
    winFacts₀1.arr_unscoped c (fun b => Gen.V4 m (outsK m) c b)
  rw [h1, h2]
  refine sep_mono ?_ (Entails.of_eq ?_)
  · exact (Entails.of_eq (congrArg _ (funext (hF1 m c)))).trans (join1 (VC m) c (fun b => Gen.V4 m (outsK m) c b))
  · unfold Pipeline.unscopedRest
    exact bigSep_congr fun b hb =>
      congrArg (fun f => (((c : Thread nD τ).loc b) ↦{fullShare} f : sProp 𝕄)) (hrest1 m c b (Finset.mem_sdiff.mp hb).2).symm

set_option backward.isDefEq.respectTransparency.types false in
/-- Region 1 over the thread state: entered from every unscoped buffer at the second host stretch's result,
    left with the row losses' array at what the pipeline writes. -/
def reg1 : RegionSeg (pcfgs (F := F)) adm (pdats m) () defs₀ 𝒱K LK lvK 1 where
  win := winFacts₀1
  block_pos := block_pos1
  stage_whole := stage_whole1
  K := PEmpty
  osem k := k.elim
  ho := Pipeline.OwnSemFacts.none _
  hbody c := (body_obligation1 (VC m) q1K c).loose
  hwaits := Pipeline.hwaits_of_owed_zero _ _ _ _ LK lvK 1 fun _ _ => rfl
  pre c := iprop(StableHlo.held (c : Thread nD τ) (Pipeline.ucRefs τ sig) (Gen.V3 m (outsK m) c) ∗ RK c)
  post c := iprop(StableHlo.held (c : Thread nD τ) (Pipeline.ucRefs τ sig) (Gen.V4 m (outsK m) c) ∗ RK c)
  X c := iprop(∃ r, prngReg c r)
  Y c := iprop(∃ r, prngReg c r)
  Z c := Pipeline.unscopedRest (Ix := Unit) (Name := ℕ) (U := UR sig nD τ) (Lvl := ℕ) spec1 c (VC m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (VC m) q1K c]; unfold Pipeline.ΦA
    iintro ⟨Hp, -, Hr⟩
    isplitl [Hr]; · iexact Hr
    iexact Hp
  hout c := by
    refine (show (pdats m 1 c).Φ (Fin.last _) ⊢ Pipeline.ΦA spec1 c from Phi1_last (VC m) q1K c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory m with zero counters terminates, and any property
    of the final memory that follows from every unscoped buffer holding the last valuation holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = Gen.V5 m (outsK m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱K LK lvK m ρ main
    (segs m (outsK m) 𝒱K LK lvK EK () (pdats m) (reg0 m) (reg1 m))
    (fun c Q => by
      rewrite [main_chain c, Seg.run_eq_chain,
        show (segs m (outsK m) 𝒱K LK lvK EK () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ EK 0 c))
    (Tₙ := fun c => StableHlo.held (c : Thread nD τ) (Pipeline.ucRefs τ sig) (Gen.V5 m (outsK m) c))
    (hch := fun c => ⟨.rfl, .rfl, .rfl, .rfl, .rfl, sep_mono .rfl (by iintro ⟨-, HO⟩; iexact HO)⟩)
    (hinit := ?_)
    (QY := fun c s => ∀ b ∈ Pipeline.ucRefs τ sig, s.mem (((c : Thread nD τ)).1, b) = Gen.V5 m (outsK m) c b)
    (hfin := fun c s' => ?_) (hQ := hQ)
  · refine Pipeline.initEach LK lvK fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (Gen.V5 m (outsK m) c) s')
    isplitl [Hh] <;> iassumption

/-- THE RUN, every unscoped buffer named at the end. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outsK m) c b) :=
  run_of m ρ fun _ h => h

/-- THE RUN, the result and the arguments named at the end: the result's buffer holds the last valuation's
    contents, and every argument holds its launch contents (no item writes one). -/
theorem run_result : θ_run defs (onTc (τ := τ) (main (F := F))) ⟨m, fun _ => 0, ρ⟩ (fun r => ∀ c : Dev nD,
      r.2.mem ((c.tc : Thread nD τ).loc main_v26) = Gen.V5 m (outsK m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨h c (Proc.devRef .tc main_v26) (mem_uc main_v26 (by decide)),
      (h c (Proc.devRef .tc main_arg0) (mem_uc main_arg0 (by decide))).trans (Gen.V5_main_arg0 m (outsK m) c),
      (h c (Proc.devRef .tc main_arg1) (mem_uc main_arg1 (by decide))).trans (Gen.V5_main_arg1 m (outsK m) c),
      (h c (Proc.devRef .tc main_arg2) (mem_uc main_arg2 (by decide))).trans (Gen.V5_main_arg2 m (outsK m) c),
      (h c (Proc.devRef .tc main_arg3) (mem_uc main_arg3 (by decide))).trans (Gen.V5_main_arg3 m (outsK m) c)⟩

end Cert.KernelIdeal.Hand

end
-- ==== Proof.BitsSteps.lean ====
/-
  What one grid point of each kernel does to the values it carries, as pure functions of the windows' blocks.

  Both kernels walk an 8 × 8 grid (row block, column block), the column block fastest.  The first kernel
  carries one 512 × 1 column (a partial row sum), reset at column block 0; the second carries four (running
  maximum, rescaled sum of exponentials, two weighted sums), reset likewise, and both write their output
  block at column block 7.  The arithmetic is the printed payload terms; nothing is evaluated here.
-/
import proofs.«421925_j36627481101076_1_alg».proof.Proof.Gen.Kernel.Skeleton
import proofs.«421925_j36627481101076_1_alg».proof.Proof.Gen.Kernel.Launch
import proofs.«421925_j36627481101076_1_alg».proof.Proof.Gen.Kernel.Points

noncomputable section

namespace Cert.Kernel.Hand

open Idealize.ShloMosaic Idealize.ShloMosaic.TcCoe Idealize.SL.Sem
open Cert.Kernel Cert.Kernel.Gen

variable {F : FTy → Type} [FloatOps F]

-- the TensorCore's buffer contents when a region is entered: the parameter each region's half is stated at
variable (V : (c : Dev nD) → (b : Ref sig .tc) → Buf (Elt F) ((c : Thread nD τ).loc b))

/-! ## Region 0: the masked weights' row sums -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point of region 0: the carried column `sc` (zeroed first when `first`) plus this block's row sums. -/
def step0 (first : Bool) (i : grid0.Coords) (x0 : Vec F S512x1 .i32) (x1 : Vec F S1x512 .i32) (x2 : Vec F S512x1 .f32)
    (x3 : Vec F S1x512 .f32) (sc : Vec F S512x1 .f32) : Vec F S512x1 .f32 :=
  k0_pay1 (if first then k0_pay2 (F := F) else sc) (k0_pay3 i x0 x1 x2 x3)

/-- The carried column after point `n`. -/
def acc0 (c : Dev nD) : (n : ℕ) → n < cfg0.N → Vec F S512x1 .f32
  | 0, h => step0 true (grid0.coords ⟨0, h⟩) (iblk0 V c 0 ⟨0, h⟩) (iblk0 V c 1 ⟨0, h⟩) (iblk0 V c 2 ⟨0, h⟩) (iblk0 V c 3 ⟨0, h⟩) (k0_pay2 (F := F))
  | n + 1, h => step0 (decide ((n + 1) % 8 = 0)) (grid0.coords ⟨n + 1, h⟩) (iblk0 V c 0 ⟨n + 1, h⟩) (iblk0 V c 1 ⟨n + 1, h⟩)
      (iblk0 V c 2 ⟨n + 1, h⟩) (iblk0 V c 3 ⟨n + 1, h⟩) (acc0 c n (Nat.lt_of_succ_lt h))

/-! ## Region 1: the online masked log-softmax -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The four carried columns: running maximum, rescaled sum of exponentials, Σ fw·S, Σ fw. -/
structure St1 (F : FTy → Type) [FloatOps F] where
  m : Vec F S512x1 .f32
  l : Vec F S512x1 .f32
  s1 : Vec F S512x1 .f32
  s0 : Vec F S512x1 .f32

/-- What the reset at column block 0 stores. -/
def st1Reset : St1 F := ⟨k1_pay4 (F := F), k1_pay5 (F := F), k1_pay6 (F := F), k1_pay7 (F := F)⟩

/-- One point of region 1 from the carried columns `s` (reset first when `first`):
    `x0 … x6` are windows 0 … 6's blocks (label column, label row, position column, position row,
    row-sum row, the row block of Z, the column block of Z). -/
def step1 (first : Bool) (i : grid1.Coords) (x0 : Vec F S512x1 .i32) (x1 : Vec F S1x512 .i32) (x2 : Vec F S512x1 .f32)
    (x3 : Vec F S1x512 .f32) (x4 : Vec F S1x512 .f32) (x5 : Vec F S512x512 .f32) (x6 : Vec F S512x512 .f32) (s : St1 F) : St1 F :=
  let s' : St1 F := if first then st1Reset else s
  let v21 := k1_pay8 i
  let v24 := k1_pay9 (F := F) i x5 x6
  let v33 := k1_pay10 (F := F) i x0 x1
  let v35 := k1_pay11 x2
  let v72 := k1_pay15 v24 s'.m
  let v75 := k1_pay16 v24 s'.m s'.m
  ⟨k1_pay2 v72, k1_pay1 v24 v72 v75 s'.l, k1_pay13 v21 v24 v33 v35 x3 x4 s'.s1, k1_pay14 v21 v33 v35 x3 x4 s'.s0⟩

/-- The carried columns after point `n`. -/
def st1 (c : Dev nD) : (n : ℕ) → n < cfg1.N → St1 F
  | 0, h => step1 true (grid1.coords ⟨0, h⟩) (iblk1 V c 0 ⟨0, h⟩) (iblk1 V c 1 ⟨0, h⟩) (iblk1 V c 2 ⟨0, h⟩) (iblk1 V c 3 ⟨0, h⟩)
      (iblk1 V c 4 ⟨0, h⟩) (iblk1 V c 5 ⟨0, h⟩) (iblk1 V c 6 ⟨0, h⟩) st1Reset
  | n + 1, h => step1 (decide ((n + 1) % 8 = 0)) (grid1.coords ⟨n + 1, h⟩) (iblk1 V c 0 ⟨n + 1, h⟩) (iblk1 V c 1 ⟨n + 1, h⟩)
      (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)
      (st1 c n (Nat.lt_of_succ_lt h))

/-- What the output block holds when column block 7 stores it: `s1 - (m + log l) * s0`. -/
def out1 (s : St1 F) : Vec F S512x1 .f32 := k1_pay3 s.m s.l s.s1 s.s0

end Cert.Kernel.Hand

end
-- ==== Proof.BitsRegionA1.lean ====
/-
  The first kernel's body at one grid point, case by case.

  The body zeroes its carried 512 × 1 column when the column block is 0, adds the block's masked row sums to
  it, and copies it into the output block when the column block is 7.  Three cases meet the grid: column
  block 0 (reset, no copy), 1 … 6 (neither) and 7 (copy, no reset).  In each the carried column ends at
  one step of the accumulation (Steps.lean) and the input blocks are left as found; the output block is left
  as found unless the case copies into it.
-/
import proofs.«421925_j36627481101076_1_alg».proof.Proof.BitsSteps
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions -/

/-- "The column block is 0", as the body computes it from the grid coordinates. -/
abbrev cond0_0 (i : grid0.Coords) : Prop := (Scalar.cmpi .ne (Scalar.extui (Scalar.cmpi .eq (BitVec.ofNat 32 (i 1).val) 0#32)) 0#32) = 1#1
/-- "The column block is 7". -/
abbrev cond0_1 (i : grid0.Coords) : Prop := k0_cond2 i = 1#1

/-- The whole-block rectangle's offsets are zero. -/
theorem off00 : (![0, 0] : Fin 2 → Nat) = fun _ => 0 := by funext a; fin_cases a <;> rfl

/-! ## Column block 0: the carried column is reset, then this block's row sums are added -/

set_option maxHeartbeats 1000000 in
theorem sound_kernel0_A (c : Dev nD) (E : Set ℕ) (i : grid0.Coords)
    (arg2 : Memref sig .tc .vmem S512x1 .i32) (harg2 : arg2.IsWhole) (arg3 : Memref sig .tc .vmem S1x512 .i32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S512x1 .f32) (harg7 : arg7.IsWhole)
    (hc0 : cond0_0 i) (hc1 : ¬cond0_1 i) (x0 : Vec F S512x1 .i32) (x1 : Vec F S1x512 .i32) (x2 : Vec F S512x1 .f32) (x3 : Vec F S1x512 .f32)
    (y : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ (∃ d, owns (c : Thread nD τ) arg7 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y
            ∗ owns (c : Thread nD τ) arg7 fullShare (step0 true i x0 x1 x2 x3 (k0_pay2 (F := F)))) -∗ K ⟨⟩))
      ⊢ wp frame (wpE (defs₀ (F := F)) Variants.none c none) E (cc0__msum_kernel i arg2 harg2 arg3 harg3 arg4 harg4 arg5 harg5 arg6 harg6 arg7 harg7) K := by
  simp only [cc0__msum_kernel_eq_skeleton]; unfold cc0__msum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
  subst hf0; subst hf1; subst hf2; subst hf3; subst hf6
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  sl_unfold_words
  rw [View.read_writes_eq_canon _ _ _ (fun y => ⟨_, List.mem_cons_self .., View.mem_set_unit_zero off00 inb_S512x1_S512x1_0_0 y⟩)]
  rw [View.canon_cons_unit_zero (S := S512x1) off00]
  unfold step0
  simp only [View.readCov_unit_zero (S := S512x1) _ off00, View.readAt_eq_ld, View.ld_unit_zero (S := S512x1) off00, View.ld_unit_zero (S := S1x512) off00, if_true]

/-! ## Column blocks 1 … 6: this block's row sums are added to the carried column -/

set_option maxHeartbeats 1000000 in
theorem sound_kernel0_B (c : Dev nD) (E : Set ℕ) (i : grid0.Coords)
    (arg2 : Memref sig .tc .vmem S512x1 .i32) (harg2 : arg2.IsWhole) (arg3 : Memref sig .tc .vmem S1x512 .i32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S512x1 .f32) (harg7 : arg7.IsWhole)
    (hc0 : ¬cond0_0 i) (hc1 : ¬cond0_1 i) (x0 : Vec F S512x1 .i32) (x1 : Vec F S1x512 .i32) (x2 : Vec F S512x1 .f32) (x3 : Vec F S1x512 .f32)
    (y : Vec F S512x1 .f32) (sc : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare sc
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y
            ∗ owns (c : Thread nD τ) arg7 fullShare (step0 false i x0 x1 x2 x3 sc)) -∗ K ⟨⟩))
      ⊢ wp frame (wpE (defs₀ (F := F)) Variants.none c none) E (cc0__msum_kernel i arg2 harg2 arg3 harg3 arg4 harg4 arg5 harg5 arg6 harg6 arg7 harg7) K := by
  simp only [cc0__msum_kernel_eq_skeleton]; unfold cc0__msum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]; · iexists f6; isplitr; · ipureintro; rfl
                  iexact H6
  iexists _; isplitr
  swap; · iexact H7
  ipureintro
  sl_unfold_words
  rw [View.read_writes_eq_canon _ _ _ (fun y => ⟨_, List.mem_singleton_self _, View.mem_set_unit_zero off00 inb_S512x1_S512x1_0_0 y⟩)]
  rw [View.canon_unit_zero off00]
  unfold step0
  simp only [View.readCov_unit_zero (S := S512x1) _ off00, View.readAt_eq_ld, View.ld_unit_zero (S := S512x1) off00, View.ld_unit_zero (S := S1x512) off00, Bool.false_eq_true, if_false]

/-! ## Column block 7: the row sums are added, and the carried column is copied into the output block -/

set_option maxHeartbeats 1000000 in
theorem sound_kernel0_C (c : Dev nD) (E : Set ℕ) (i : grid0.Coords)
    (arg2 : Memref sig .tc .vmem S512x1 .i32) (harg2 : arg2.IsWhole) (arg3 : Memref sig .tc .vmem S1x512 .i32) (harg3 : arg3.IsWhole)
    (arg4 : Memref sig .tc .vmem S512x1 .f32) (harg4 : arg4.IsWhole) (arg5 : Memref sig .tc .vmem S1x512 .f32) (harg5 : arg5.IsWhole)
    (arg6 : Memref sig .tc .vmem S512x1 .f32) (harg6 : arg6.IsWhole) (arg7 : Memref sig .tc .vmem S512x1 .f32) (harg7 : arg7.IsWhole)
    (hc0 : ¬cond0_0 i) (hc1 : cond0_1 i) (x0 : Vec F S512x1 .i32) (x1 : Vec F S1x512 .i32) (x2 : Vec F S512x1 .f32) (x3 : Vec F S1x512 .f32)
    (sc : Vec F S512x1 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ owns (c : Thread nD τ) arg7 fullShare sc
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (step0 false i x0 x1 x2 x3 sc)
            ∗ owns (c : Thread nD τ) arg7 fullShare (step0 false i x0 x1 x2 x3 sc)) -∗ K ⟨⟩))
      ⊢ wp frame (wpE (defs₀ (F := F)) Variants.none c none) E (cc0__msum_kernel i arg2 harg2 arg3 harg3 arg4 harg4 arg5 harg5 arg6 harg6 arg7 harg7) K := by
  simp only [cc0__msum_kernel_eq_skeleton]; unfold cc0__msum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
  subst hf0; subst hf1; subst hf2; subst hf3; subst hf7
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H6]
  · iexists _; isplitr
    swap; · iexact H6
    ipureintro
    sl_unfold_words
    rw [View.read_writes_eq_canon _ _ _ (fun y => ⟨_, List.mem_singleton_self _, View.mem_set_unit_zero off00 inb_S512x1_S512x1_0_0 y⟩)]
    rw [View.canon_unit_zero off00]
    unfold step0
    simp only [View.readCov_unit_zero (S := S512x1) _ off00, View.readAt_eq_ld, View.ld_unit_zero (S := S512x1) off00, View.ld_unit_zero (S := S1x512) off00, Bool.false_eq_true, if_false]
  iexists _; isplitr
  swap; · iexact H7
  ipureintro
  sl_unfold_words
  rw [View.read_writes_eq_canon _ _ _ (fun y => ⟨_, List.mem_singleton_self _, View.mem_set_unit_zero off00 inb_S512x1_S512x1_0_0 y⟩)]
  rw [View.canon_unit_zero off00]
  unfold step0
  simp only [View.readCov_unit_zero (S := S512x1) _ off00, View.readAt_eq_ld, View.ld_unit_zero (S := S512x1) off00, View.ld_unit_zero (S := S1x512) off00, Bool.false_eq_true, if_false]

end Cert.Kernel.Hand

end
-- ==== Proof.BitsRegionA.lean ====
/-
  The first pallas_call's half of the frame: the masked weights' row sums.

  The kernel walks an 8 × 8 grid, the column block fastest, and carries one 512 × 1 column in a scratch
  buffer: at column block 0 it is zeroed, at every point the block's row sums are added to it, and at column
  block 7 it is copied into the output window's staging buffer, which the pipeline writes back there.  The
  invariant names the scratch's contents after each point (the carried column of Steps.lean); the output
  window is idle at the points that do not store it.  After the run row r of the output array holds row
  r % 512 of the column carried at the last point of row block r / 512.
-/
import proofs.«421925_j36627481101076_1_alg».proof.Proof.BitsRegionA1
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant and the proof data -/

/-- The scratch the kernel carries between points, as a memref. -/
abbrev scM0 : Memref sig .tc .vmem S512x1 .f32 := Memref.whole cc0_scratch0

/-- Every scoped buffer of the core that is neither a staging buffer of this call nor its scratch, at some contents. -/
abbrev restBut0 (c : Dev nD) : sProp 𝕄 :=
  Pipeline.scopedRestBut (Ix := Unit) (Name := ℕ) (U := UR sig nD τ) (Lvl := ℕ) (Val := Elt F) spec0 c [cc0_scratch0]

/-- The region's invariant before point n: before the first point the class's (every scoped buffer that is
    no staging buffer at some contents, the generator register at some state); afterwards the same with the
    carried scratch at the column the point before left. -/
def Phi0 (c : Dev nD) : (n : ℕ) → n ≤ cfg0.N → sProp 𝕄
  | 0, _ => Pipeline.ΦA spec0 c
  | n + 1, hn => iprop((owns (c : Thread nD τ) scM0 fullShare (acc0 V c n hn) ∗ restBut0 (F := F) c) ∗ ∃ r, prngReg c r)

/-- The proof data of the first pipeline on core c, at the entry contents V: each input's buffer is left at its
    block; the output's holds the carried column where the body stores it (column block 7). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## The invariant, point by point -/

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (acc0 V c n hn) ∗ restBut0 (F := F) c) ∗ ∃ r, prngReg c r) := rfl

theorem Phi0_pos (c : Dev nD) (n : ℕ) (h : n ≤ cfg0.N) (hz : n ≠ 0) :
    Phi0 V c n h = iprop((owns (c : Thread nD τ) scM0 fullShare (acc0 V c (n - 1) (by omega)) ∗ restBut0 (F := F) c) ∗ ∃ r, prngReg c r) := by
  cases n with
  | zero => exact absurd rfl hz
  | succ n => rfl

theorem Phi0_castSucc (c : Dev nD) (t : Fin cfg0.N) :
    (dat0 V c).Φ t.castSucc = Phi0 V c t.val (Nat.le_of_lt t.isLt) := by
  dsimp only [dat0]; simp only [Fin.coe_castSucc]

/-- The class's invariant with the scratch split off as a memref owned at some contents. -/
theorem PhiA0_eq (c : Dev nD) :
    (Pipeline.ΦA spec0 c : sProp 𝕄)
      = iprop(((∃ d, owns (c : Thread nD τ) scM0 fullShare d) ∗ restBut0 (F := F) c) ∗ ∃ r, prngReg c r) := by
  unfold Pipeline.ΦA
  rw [Pipeline.scopedRest_split_of_list spec0 c [cc0_scratch0] (by decide) (by decide)]
  simp only [scM0, owns_whole, bigSepL_singleton]; try rfl

theorem Phi0_first (c : Dev nD) : (dat0 V c).Φ 0 = Pipeline.ΦA spec0 c := rfl

theorem Phi0_last (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

/-! ## The carried column, point by point -/

/-- At a point of column block 0 the carried column is one step from the zero column. -/
theorem acc0_reset (c : Dev nD) (t : Fin cfg0.N) (h0 : t.val % 8 = 0) :
    acc0 V c t.val t.isLt = step0 true (grid0.coords t) (iblk0 V c 0 t) (iblk0 V c 1 t) (iblk0 V c 2 t) (iblk0 V c 3 t) (k0_pay2 (F := F)) := by
  obtain ⟨n, hn⟩ := t
  cases n with
  | zero => rfl
  | succ n =>
    show step0 (decide ((n + 1) % 8 = 0)) _ _ _ _ _ _ = _
    rw [decide_eq_true h0]; unfold step0; simp only [if_true]

/-- At any other point it is one step from what the point before left. -/
theorem acc0_step (c : Dev nD) (t : Fin cfg0.N) (h0 : ¬t.val % 8 = 0) :
    acc0 V c t.val t.isLt = step0 false (grid0.coords t) (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd (Nat.zero_mod _) h0
  | succ n =>
    show step0 (decide ((n + 1) % 8 = 0)) _ _ _ _ _ _ = _
    rw [decide_eq_false h0]; rfl

/-! ## The conditions and the idle points, over the grid -/

theorem hcond0_0 : ∀ t : Fin cfg0.N, cond0_0 (grid0.coords t) ↔ t.val % 8 = 0 :=
  (by decide +kernel : ∀ t : Fin grid0.N, cond0_0 (grid0.coords t) ↔ t.val % 8 = 0)
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output window is idle exactly where the body does not store it. -/
theorem idleAt0_4 : ∀ t : Fin cfg0.N, ¬t.val % 8 = 7 → cfg0.idle 4 (grid0.coords t) = true :=
  (by decide +kernel : ∀ t : Fin grid0.N, ¬t.val % 8 = 7 → idle0 4 (grid0.coords t) = true)
theorem liveAt0_4 : ∀ t : Fin cfg0.N, t.val % 8 = 7 → cfg0.idle 4 (grid0.coords t) = false :=
  (by decide +kernel : ∀ t : Fin grid0.N, t.val % 8 = 7 → idle0 4 (grid0.coords t) = false)
theorem noFlush0_4 (t : Fin cfg0.N) (h : ¬t.val % 8 = 7) : (cfg0.win 4).flush t = false :=
  Bool.eq_false_iff.mpr (mt (flush0_4 t).mp h)

/-! ## What the windows' buffers hold -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = acc0 V c t.val t.isLt := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
/-- The body at any point. The inputs' buffers hold their blocks; the point's column block says which case runs.
    Column block 0: the scratch is handed over at anything (at the first point the invariant says no more; later
    it names contents the reset discards) and comes back one step from zero.  Otherwise it is handed over at what
    the point before left and comes back one step further.  The output's buffer is idle and handed back as found,
    except at column block 7, where it comes back holding the carried column. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  have hN : t.val < 64 := lt_of_lt_of_eq t.isLt (show cfg0.N = 64 from N_0)
  by_cases h0 : t.val % 8 = 0
  · have h7 : ¬t.val % 8 = 7 := by omega
    rw [Dat.leavesExact_idle (dat0 V c) 4 t (idleAt0_4 t h7) (noFlush0_4 t h7)]
    rw [acc0_reset V c t h0]
    by_cases hz : t.val = 0
    · rw [Phi0_castSucc V c t, Phi0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ ((hcond0_0 t).mpr h0) (fun h => h7 ((hcond0_1 t).mp h)) (iblk0 V c 0 t) (iblk0 V c 1 t) (iblk0 V c 2 t) (iblk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [Phi0_castSucc V c t, Phi0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ ((hcond0_0 t).mpr h0) (fun h => h7 ((hcond0_1 t).mp h)) (iblk0 V c 0 t) (iblk0 V c 1 t) (iblk0 V c 2 t) (iblk0 V c 3 t) ((dat0 V c).before 4 t d4) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [acc0_step V c t h0]
    rw [Phi0_castSucc V c t, Phi0_pos V c _ _ hz]
    by_cases h7 : t.val % 8 = 7
    · rw [show (dat0 V c).leavesExact 4 t = owns (c : Thread nD τ) (st0_4 t) fullShare ((dat0 V c).after 4 t) from by
        unfold Dat.leavesExact; rw [liveAt0_4 t h7], after0_4, acc0_step V c t h0]
      iintro ⟨⟨⟨HS, HR⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ (fun h => h0 ((hcond0_0 t).mp h)) ((hcond0_1 t).mpr h7) (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · rw [Dat.leavesExact_idle (dat0 V c) 4 t (idleAt0_4 t h7) (noFlush0_4 t h7)]
      iintro ⟨⟨⟨HS, HR⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ (fun h => h0 ((hcond0_0 t).mp h)) (fun h => h7 ((hcond0_1 t).mp h)) (iblk0 V c 0 t) (iblk0 V c 1 t) (iblk0 V c 2 t) (iblk0 V c 3 t) ((dat0 V c).before 4 t d4) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The arrays after the run -/

theorem arrAt0_in (c : Dev nD) (w : Fin cfg0.W) (hw : w ≠ 4) : (dat0 V c).arrAt w cfg0.N = (dat0 V c).A w :=
  (dat0 V c).arrAt_in w (by fin_cases w <;> first | rfl | exact absurd rfl hw) cfg0.N

/-- The output window's block at point t is row block t / 8, column block 0. -/
theorem idx0_4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

theorem acc0_apply_congr (c : Dev nD) {n n' : ℕ} (e : n = n') (h : n < cfg0.N) (h' : n' < cfg0.N) {j j' : S512x1.Idx} (ej : j = j') :
    acc0 V c n h j = acc0 V c n' h' j' := by subst e; subst ej; rfl

/-- The output array after the run as one function of the row: row r holds row r % 512 of the column carried at
    the last point (column block 7) of its row block r / 512. -/
def G0 (c : Dev nD) : S4096x1.Idx → Elt F .f32 := fun i =>
  acc0 V c (8 * ((i 0).val / 512) + 7) (by have : (i 0).val < 4096 := (i 0).isLt; show _ < 64; omega)
    (ValueIdx.ix2 (⟨(i 0).val % 512, Nat.mod_lt _ (by norm_num)⟩ : Fin 512) (0 : Fin 1))

/-- What a point of column block 7 writes back is its block of that function. -/
theorem flushed0_4 (c : Dev nD) (t : Fin cfg0.N) (hf : (cfg0.win 4).flush t = true) :
    (dat0 V c).flushed 4 t = ((cfg0.win 4).blk t).view.read (Elt F) (G0 V c) := by
  show (cfg0.win 4).cut (grid0.coords t) ((dat0 V c).after 4 t) = _
  rw [after0_4]
  have h7 : t.val % 8 = 7 := (flush0_4 t).mp hf
  have hN : t.val < 64 := lt_of_lt_of_eq t.isLt (show cfg0.N = 64 from N_0)
  obtain ⟨e0, e1⟩ := idx0_4 t
  funext j
  show acc0 V c t.val t.isLt j = G0 V c (((cfg0.win 4).blk t).view.emb j)
  have hj0 : (j 0).val < 512 := (j 0).isLt
  have hj1 : (j 1).val < 1 := (j 1).isLt
  have hi0 : ((((cfg0.win 4).blk t).view.emb j) 0).val = win0_4.index t (0 : Fin 2) * 512 + 1 * (j 0).val := rfl
  unfold G0
  refine acc0_apply_congr V c (by rw [hi0, e0]; omega) _ _ ?_
  funext a
  match a with
  | ⟨0, _⟩ => exact Fin.ext (by show (j 0).val = ((((cfg0.win 4).blk t).view.emb j) 0).val % 512; rw [hi0, e0]; omega)
  | ⟨1, _⟩ => exact Fin.ext (by show (j 1).val = 0; omega)

/-- A row is in point t's block iff each coordinate is in the block's range on its axis. -/
theorem mem_blk0_4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v22).slice (win0_4.rect t)).set ↔ _
  rw [View.set_slice_whole, Rect.mem_set_unit]
  exact Iff.rfl

/-- Row r of the output array after the run: row block r / 512 is written back once, at its last point
    8 (r / 512) + 7, holding the column carried there. -/
theorem arrAt0_out (c : Dev nD) (r : Fin 4096) :
    (dat0 V c).arrAt 4 cfg0.N (ValueIdx.ix2 r (0 : Fin 1))
      = acc0 V c (8 * (r.val / 512) + 7) (by have := r.isLt; show _ < 64; omega) (ValueIdx.ix2 (⟨r.val % 512, Nat.mod_lt _ (by norm_num)⟩ : Fin 512) (0 : Fin 1)) := by
  have hr := r.isLt
  have ht : 8 * (r.val / 512) + 7 < cfg0.N := by show _ < 64; omega
  have hfl : (cfg0.win 4).flush ⟨8 * (r.val / 512) + 7, ht⟩ = true := (flush0_4 _).mpr (by show (8 * (r.val / 512) + 7) % 8 = 7; omega)
  obtain ⟨e0, e1⟩ := idx0_4 ⟨8 * (r.val / 512) + 7, ht⟩
  have e0' : win0_4.index ⟨8 * (r.val / 512) + 7, ht⟩ (0 : Fin 2) = r.val / 512 := by
    rw [e0]; show (8 * (r.val / 512) + 7) / 8 = _; omega
  refine ((dat0 V c).arrAt_apply_of_mem 4 (G0 V c) (fun t hf => flushed0_4 V c t hf) cfg0.N ⟨_, ht⟩ (ValueIdx.ix2 r (0 : Fin 1)) ht hfl ?_).trans rfl
  rw [mem_blk0_4]
  intro a
  match a with
  | ⟨0, _⟩ =>
    show win0_4.index ⟨8 * (r.val / 512) + 7, ht⟩ (0 : Fin 2) * 512 ≤ r.val ∧ r.val < win0_4.index ⟨8 * (r.val / 512) + 7, ht⟩ (0 : Fin 2) * 512 + 512
    rw [e0']; omega
  | ⟨1, _⟩ =>
    show win0_4.index ⟨8 * (r.val / 512) + 7, ht⟩ (1 : Fin 2) * 1 ≤ 0 ∧ 0 < win0_4.index ⟨8 * (r.val / 512) + 7, ht⟩ (1 : Fin 2) * 1 + 1
    rw [e1]; omega

end Cert.Kernel.Hand
end
-- ==== Proof.BitsRegionB1.lean ====
/-
  The second kernel's body on whole memrefs, one triple per control case: column block 0 (the four carried
  columns are reset, then updated), a middle column block (updated), column block 7 (updated, then the output
  block stored).  Each post names the carried columns by the one-point function of the blocks.
-/
import proofs.«421925_j36627481101076_1_alg».proof.Proof.BitsSteps
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, in closed form over the grid -/

/-- The reset's condition: the column block is 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output store's condition: the column block is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Whole-block rectangles -/

theorem unitOff2_B : (![0, 0] : Fin 2 → Nat) = fun _ => 0 := by
  funext a; fin_cases a <;> rfl

/-- A list of pieces whose head is the whole block covers the block. -/
theorem cover_head_whole_B {Val : EltTy → Type} {S : Shape} {e : EltTy} {off : Fin S.rank → Nat} (h : off = fun _ => 0)
    (inb : ∀ a, off a + S.size a ≤ S.size a) (w : S.Idx → Val e) (L : List (View.Piece Val S e)) (y : S.Idx) :
    ∃ p ∈ ((⟨Rect.unit off S.size inb, w⟩ : View.Piece Val S e) :: L), y ∈ p.1.set := by
  subst h
  exact ⟨_, List.mem_cons_self .., by show y ∈ (Rect.whole S).set; rw [Rect.set_whole]; exact Finset.mem_univ y⟩

/-- One carried column's read-back: the last store covers the block, so the block holds its payload; the
    payload's loads are the blocks the buffers held. -/
local macro "close_piece" : tactic => `(tactic| (
  (try sl_unfold_words)
  rw [View.read_writes_eq_canon _ _ _ (cover_head_whole_B unitOff2_B _ _ _), View.canon_cons_unit_zero unitOff2_B]
  (try sl_unfold_words)
  simp only [View.readAt_eq_ld, View.ld_unit_zero (S := S512x1) unitOff2_B, View.ld_unit_zero (S := S1x512) unitOff2_B,
    View.ld_unit_zero (S := S512x512) unitOff2_B, View.readCov_unit_zero (S := S512x1) _ unitOff2_B, step1, st1Reset,
    Bool.false_eq_true, if_false, if_true]
  (try rfl)))

/-! ## A middle column block -/

set_option maxHeartbeats 2000000 in
theorem sound_kernel1_B (c : Dev nD) (E : Set ℕ) (i : grid1.Coords) (arg2 : Memref sig .tc .vmem S512x1 .i32) (harg2 : arg2.IsWhole) (arg3 : Memref sig .tc .vmem S1x512 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : ¬cond1_1 i)
    (x0 : Vec F S512x1 .i32) (x1 : Vec F S1x512 .i32) (x2 : Vec F S512x1 .f32) (x3 : Vec F S1x512 .f32) (x4 : Vec F S1x512 .f32) (x5 : Vec F S512x512 .f32) (x6 : Vec F S512x512 .f32) (xo sm sl ss1 ss0 : Vec F S512x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xo
        ∗ owns (c : Thread nD τ) arg10 fullShare sm ∗ owns (c : Thread nD τ) arg11 fullShare sl
        ∗ owns (c : Thread nD τ) arg12 fullShare ss1 ∗ owns (c : Thread nD τ) arg13 fullShare ss0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo
            ∗ owns (c : Thread nD τ) arg10 fullShare (step1 false i x0 x1 x2 x3 x4 x5 x6 ⟨sm, sl, ss1, ss0⟩).m
            ∗ owns (c : Thread nD τ) arg11 fullShare (step1 false i x0 x1 x2 x3 x4 x5 x6 ⟨sm, sl, ss1, ss0⟩).l
            ∗ owns (c : Thread nD τ) arg12 fullShare (step1 false i x0 x1 x2 x3 x4 x5 x6 ⟨sm, sl, ss1, ss0⟩).s1
            ∗ owns (c : Thread nD τ) arg13 fullShare (step1 false i x0 x1 x2 x3 x4 x5 x6 ⟨sm, sl, ss1, ss0⟩).s0) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%f10, %hf10, H10⟩, ⟨%f11, %hf11, H11⟩, ⟨%f12, %hf12, H12⟩, ⟨%f13, %hf13, H13⟩, Hk⟩
  subst hf0 hf1 hf2 hf3 hf4 hf5 hf6 hf9 hf10 hf11 hf12 hf13
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists _; isplitr
    swap; · iexact H10
    ipureintro
    close_piece
  isplitl [H11]
  · iexists _; isplitr
    swap; · iexact H11
    ipureintro
    close_piece
  isplitl [H12]
  · iexists _; isplitr
    swap; · iexact H12
    ipureintro
    close_piece
  iexists _; isplitr
  swap; · iexact H13
  ipureintro
  close_piece

/-! ## Column block 0: the four columns are reset, then updated -/

set_option maxHeartbeats 2000000 in
theorem sound_kernel1_A (c : Dev nD) (E : Set ℕ) (i : grid1.Coords) (arg2 : Memref sig .tc .vmem S512x1 .i32) (harg2 : arg2.IsWhole) (arg3 : Memref sig .tc .vmem S1x512 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : cond1_0 i) (hc1 : ¬cond1_1 i)
    (x0 : Vec F S512x1 .i32) (x1 : Vec F S1x512 .i32) (x2 : Vec F S512x1 .f32) (x3 : Vec F S1x512 .f32) (x4 : Vec F S1x512 .f32) (x5 : Vec F S512x512 .f32) (x6 : Vec F S512x512 .f32) (xo : Vec F S512x1 .f32) (s : St1 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ owns (c : Thread nD τ) arg9 fullShare xo
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare xo
            ∗ owns (c : Thread nD τ) arg10 fullShare (step1 true i x0 x1 x2 x3 x4 x5 x6 s).m
            ∗ owns (c : Thread nD τ) arg11 fullShare (step1 true i x0 x1 x2 x3 x4 x5 x6 s).l
            ∗ owns (c : Thread nD τ) arg12 fullShare (step1 true i x0 x1 x2 x3 x4 x5 x6 s).s1
            ∗ owns (c : Thread nD τ) arg13 fullShare (step1 true i x0 x1 x2 x3 x4 x5 x6 s).s0) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6
  subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists f9; isplitr; · ipureintro; rfl
    iexact H9
  isplitl [H10]
  · iexists _; isplitr
    swap; · iexact H10
    ipureintro
    close_piece
  isplitl [H11]
  · iexists _; isplitr
    swap; · iexact H11
    ipureintro
    close_piece
  isplitl [H12]
  · iexists _; isplitr
    swap; · iexact H12
    ipureintro
    close_piece
  iexists _; isplitr
  swap; · iexact H13
  ipureintro
  close_piece

/-! ## Column block 7: the columns are updated, then the output block is stored -/

set_option maxHeartbeats 2000000 in
theorem sound_kernel1_C (c : Dev nD) (E : Set ℕ) (i : grid1.Coords) (arg2 : Memref sig .tc .vmem S512x1 .i32) (harg2 : arg2.IsWhole) (arg3 : Memref sig .tc .vmem S1x512 .i32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole)
    (hc0 : ¬cond1_0 i) (hc1 : cond1_1 i)
    (x0 : Vec F S512x1 .i32) (x1 : Vec F S1x512 .i32) (x2 : Vec F S512x1 .f32) (x3 : Vec F S1x512 .f32) (x4 : Vec F S1x512 .f32) (x5 : Vec F S512x512 .f32) (x6 : Vec F S512x512 .f32) (s : St1 F) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d)
        ∗ owns (c : Thread nD τ) arg10 fullShare s.m ∗ owns (c : Thread nD τ) arg11 fullShare s.l ∗ owns (c : Thread nD τ) arg12 fullShare s.s1 ∗ owns (c : Thread nD τ) arg13 fullShare s.s0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (out1 (step1 false i x0 x1 x2 x3 x4 x5 x6 s))
            ∗ owns (c : Thread nD τ) arg10 fullShare (step1 false i x0 x1 x2 x3 x4 x5 x6 s).m
            ∗ owns (c : Thread nD τ) arg11 fullShare (step1 false i x0 x1 x2 x3 x4 x5 x6 s).l
            ∗ owns (c : Thread nD τ) arg12 fullShare (step1 false i x0 x1 x2 x3 x4 x5 x6 s).s1
            ∗ owns (c : Thread nD τ) arg13 fullShare (step1 false i x0 x1 x2 x3 x4 x5 x6 s).s0) -∗ K ⟨⟩))
      ⊢ wp frame (wpE (defs₀ (F := F)) Variants.none c none) E (cc1__loss_kernel i arg2 harg2 arg3 harg3 arg4 harg4 arg5 harg5 arg6 harg6 arg7 harg7 arg8 harg8 arg9 harg9 arg10 harg10 arg11 harg11 arg12 harg12 arg13 harg13) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%f10, %hf10, H10⟩, ⟨%f11, %hf11, H11⟩, ⟨%f12, %hf12, H12⟩, ⟨%f13, %hf13, H13⟩, Hk⟩
  subst hf0 hf1 hf2 hf3 hf4 hf5 hf6
  obtain ⟨sm, sl, ss1, ss0⟩ := s
  dsimp only at hf10 hf11 hf12 hf13
  subst hf10 hf11 hf12 hf13
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H9]
  · iexists _; isplitr
    swap; · iexact H9
    ipureintro
    close_piece
  isplitl [H10]
  · iexists _; isplitr
    swap; · iexact H10
    ipureintro
    close_piece
  isplitl [H11]
  · iexists _; isplitr
    swap; · iexact H11
    ipureintro
    close_piece
  isplitl [H12]
  · iexists _; isplitr
    swap; · iexact H12
    ipureintro
    close_piece
  iexists _; isplitr
  swap; · iexact H13
  ipureintro
  close_piece

end Cert.Kernel.Hand

end
-- ==== Proof.BitsRegionBDefs.lean ====
/-
  The second kernel's half of the two-region frame: the invariant, the proof data, and what each window's
  buffer holds at a point.

  The kernel walks an 8 × 8 grid, the column block fastest, and carries four 512 × 1 columns between points:
  the running maximum, the rescaled sum of exponentials, and two weighted sums.  The invariant before point
  n + 1 names the four columns' contents after point n.  The inputs' buffers hold their blocks at every point;
  the output's buffer is untouched except at column block 7.
-/
import proofs.«421925_j36627481101076_1_alg».proof.Proof.BitsSteps
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the region is entered, and the shares held of the input arrays
variable (V : (c : Dev nD) → (b : Ref sig .tc) → Buf (Elt F) ((c : Thread nD τ).loc b))
variable (q1 : Fin cfg1.W → PosShare TreeShare)

/-! ## The four carried columns and the other scoped buffers -/

abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

/-- The first kernel's eleven scoped buffers, each whole at some contents. -/
def rest1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f))

theorem N1_eq : cfg1.N = 64 := N_1

/-- Row `r`'s block is written back at point `8 (r / 512) + 7`. -/
theorem flushPt_lt (r : Fin 4096) : 8 * (r.val / 512) + 7 < cfg1.N := by
  have h : cfg1.N = 64 := N_1
  have := r.isLt
  omega

/-- The invariant before point `n`: at the first point the region's scoped rest at anything; afterwards the four
    carried columns at what point `n - 1` left, the other scoped buffers at anything, the generator register at
    some state. -/
def Phi1 (c : Dev nD) : (n : ℕ) → n ≤ cfg1.N → sProp 𝕄
  | 0, _ => Pipeline.ΦA spec1 c
  | n + 1, hn => iprop(iprop(owns (c : Thread nD τ) scM1_0 fullShare (st1 V c n hn).m
      ∗ owns (c : Thread nD τ) scM1_1 fullShare (st1 V c n hn).l
      ∗ owns (c : Thread nD τ) scM1_2 fullShare (st1 V c n hn).s1
      ∗ owns (c : Thread nD τ) scM1_3 fullShare (st1 V c n hn).s0
      ∗ rest1 c) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1_0 fullShare (st1 V c n hn).m
      ∗ owns (c : Thread nD τ) scM1_1 fullShare (st1 V c n hn).l
      ∗ owns (c : Thread nD τ) scM1_2 fullShare (st1 V c n hn).s1
      ∗ owns (c : Thread nD τ) scM1_3 fullShare (st1 V c n hn).s0
      ∗ rest1 c) ∗ (∃ r, prngReg c r)) := rfl

theorem Phi1_pos (c : Dev nD) (n : ℕ) (h : n ≤ cfg1.N) (hz : n ≠ 0) :
    Phi1 V c n h = iprop(iprop(owns (c : Thread nD τ) scM1_0 fullShare (st1 V c (n - 1) (by omega)).m
      ∗ owns (c : Thread nD τ) scM1_1 fullShare (st1 V c (n - 1) (by omega)).l
      ∗ owns (c : Thread nD τ) scM1_2 fullShare (st1 V c (n - 1) (by omega)).s1
      ∗ owns (c : Thread nD τ) scM1_3 fullShare (st1 V c (n - 1) (by omega)).s0
      ∗ rest1 c) ∗ (∃ r, prngReg c r)) := by
  cases n with
  | zero => exact absurd rfl hz
  | succ n => rfl

/-- The proof data: the arrays as the region finds them; after the body each input's buffer at its block and
    the output's at `s1 - (m + log l) * s0` of the carried columns; nothing owed. -/
def dat1 (c : Dev nD) : Pipeline.Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 (st1 V c t.val t.isLt)
  Φ t := Phi1 V c t.val (Nat.le_of_lt_succ t.isLt)
  q := q1
  owed _ := 0

theorem A_eq1 (c : Dev nD) (w : Fin cfg1.W) : (dat1 V q1 c).A w = V c (Pipeline.arrRef spec1 w) := by
  dsimp only [dat1]

theorem Phi1_castSucc (c : Dev nD) (t : Fin cfg1.N) :
    (dat1 V q1 c).Φ t.castSucc = Phi1 V c t.val (Nat.le_of_lt t.isLt) := by
  dsimp only [dat1]; simp only [Fin.coe_castSucc]

theorem Phi1_first (c : Dev nD) : (dat1 V q1 c).Φ 0 = Pipeline.ΦA spec1 c := rfl

theorem after1_0 (c : Dev nD) (t : Fin cfg1.N) : (dat1 V q1 c).after 0 t = iblk1 V c 0 t := by dsimp only [dat1]
theorem after1_1 (c : Dev nD) (t : Fin cfg1.N) : (dat1 V q1 c).after 1 t = iblk1 V c 1 t := by dsimp only [dat1]
theorem after1_2 (c : Dev nD) (t : Fin cfg1.N) : (dat1 V q1 c).after 2 t = iblk1 V c 2 t := by dsimp only [dat1]
theorem after1_3 (c : Dev nD) (t : Fin cfg1.N) : (dat1 V q1 c).after 3 t = iblk1 V c 3 t := by dsimp only [dat1]
theorem after1_4 (c : Dev nD) (t : Fin cfg1.N) : (dat1 V q1 c).after 4 t = iblk1 V c 4 t := by dsimp only [dat1]
theorem after1_5 (c : Dev nD) (t : Fin cfg1.N) : (dat1 V q1 c).after 5 t = iblk1 V c 5 t := by dsimp only [dat1]
theorem after1_6 (c : Dev nD) (t : Fin cfg1.N) : (dat1 V q1 c).after 6 t = iblk1 V c 6 t := by dsimp only [dat1]
theorem after1_7 (c : Dev nD) (t : Fin cfg1.N) : (dat1 V q1 c).after 7 t = out1 (st1 V c t.val t.isLt) := by dsimp only [dat1]

/-! ## The inputs' buffers hold their blocks at every point, fetched there or not -/

theorem before1_0 (c : Dev nD) (t : Fin cfg1.N) (d) : (dat1 V q1 c).before 0 t d = iblk1 V c 0 t :=
  ((dat1 V q1 c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V q1 c).before 1 t d = iblk1 V c 1 t :=
  ((dat1 V q1 c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V q1 c).before 2 t d = iblk1 V c 2 t :=
  ((dat1 V q1 c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V q1 c).before 3 t d = iblk1 V c 3 t :=
  ((dat1 V q1 c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V q1 c).before 4 t d = iblk1 V c 4 t :=
  ((dat1 V q1 c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V q1 c).before 5 t d = iblk1 V c 5 t :=
  ((dat1 V q1 c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V q1 c).before 6 t d = iblk1 V c 6 t :=
  ((dat1 V q1 c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from column block 7 the output window is idle and not written back. -/
theorem idleAt1_7 : ∀ t : Fin cfg1.N, ¬t.val % 8 = 7 → cfg1.idle 7 (grid1.coords t) = true := by decide +kernel
theorem noFlush1_7 : ∀ t : Fin cfg1.N, ¬t.val % 8 = 7 → (cfg1.win 7).flush t = false := by decide +kernel
/-- At column block 7 it is live. -/
theorem liveAt1_7 : ∀ t : Fin cfg1.N, t.val % 8 = 7 → cfg1.idle 7 (grid1.coords t) = false := by decide +kernel

/-! ## The carried columns, case by case -/

/-- At a reset the carried columns going in do not matter. -/
theorem step1_true_irrel (i : grid1.Coords) (x0 : Vec F S512x1 .i32) (x1 : Vec F S1x512 .i32) (x2 : Vec F S512x1 .f32)
    (x3 : Vec F S1x512 .f32) (x4 : Vec F S1x512 .f32) (x5 : Vec F S512x512 .f32) (x6 : Vec F S512x512 .f32) (s s' : St1 F) :
    step1 true i x0 x1 x2 x3 x4 x5 x6 s = step1 true i x0 x1 x2 x3 x4 x5 x6 s' := by
  simp only [step1, ↓reduceIte]

/-- At column block 0 the carried columns are the reset ones updated. -/
theorem st1_first (c : Dev nD) (t : Fin cfg1.N) (h0 : t.val % 8 = 0) (s : St1 F) :
    st1 V c t.val t.isLt = step1 true (grid1.coords t) (iblk1 V c 0 t) (iblk1 V c 1 t) (iblk1 V c 2 t) (iblk1 V c 3 t) (iblk1 V c 4 t) (iblk1 V c 5 t) (iblk1 V c 6 t) s := by
  obtain ⟨n, hn⟩ := t
  cases n with
  | zero => exact step1_true_irrel _ _ _ _ _ _ _ _ _ _
  | succ n =>
    show step1 (decide ((n + 1) % 8 = 0)) _ _ _ _ _ _ _ _ _ = _
    rw [decide_eq_true h0]
    exact step1_true_irrel _ _ _ _ _ _ _ _ _ _

/-- At a later column block they are the previous point's updated. -/
theorem st1_later (c : Dev nD) (t : Fin cfg1.N) (h0 : ¬t.val % 8 = 0) :
    st1 V c t.val t.isLt = step1 false (grid1.coords t) (iblk1 V c 0 t) (iblk1 V c 1 t) (iblk1 V c 2 t) (iblk1 V c 3 t) (iblk1 V c 4 t) (iblk1 V c 5 t) (iblk1 V c 6 t)
      (st1 V c (t.val - 1) (Nat.lt_of_le_of_lt (Nat.sub_le _ _) t.isLt)) := by
  obtain ⟨n, hn⟩ := t
  cases n with
  | zero => exact absurd (Nat.zero_mod _) h0
  | succ n =>
    show step1 (decide ((n + 1) % 8 = 0)) _ _ _ _ _ _ _ _ _ = _
    rw [decide_eq_false h0]
    rfl

/-! ## The scoped rest, split into the four columns' buffers and the others -/

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f)
      ∗ (∃ d, owns (c : Thread nD τ) scM1_0 fullShare d) ∗ (∃ d, owns (c : Thread nD τ) scM1_1 fullShare d)
      ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

theorem PhiA1_split (c : Dev nD) :
    (Pipeline.ΦA spec1 c : sProp 𝕄) ⊢ iprop(iprop((∃ d, owns (c : Thread nD τ) scM1_0 fullShare d)
      ∗ (∃ d, owns (c : Thread nD τ) scM1_1 fullShare d) ∗ (∃ d, owns (c : Thread nD τ) scM1_2 fullShare d)
      ∗ (∃ d, owns (c : Thread nD τ) scM1_3 fullShare d) ∗ rest1 c) ∗ (∃ r, prngReg c r)) := by
  rw [PhiA1_eq]; unfold rest1
  iintro ⟨⟨A0, A1, A2, A3, A4, A5, A6, A7, A8, A9, A10, S0, S1, S2, S3⟩, Hg⟩
  isplitr [Hg]
  swap; · iexact Hg
  isplitl [S0]; · iexact S0
  isplitl [S1]; · iexact S1
  isplitl [S2]; · iexact S2
  isplitl [S3]; · iexact S3
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

theorem PhiA1_join (c : Dev nD) :
    iprop(iprop((∃ d, owns (c : Thread nD τ) scM1_0 fullShare d)
      ∗ (∃ d, owns (c : Thread nD τ) scM1_1 fullShare d) ∗ (∃ d, owns (c : Thread nD τ) scM1_2 fullShare d)
      ∗ (∃ d, owns (c : Thread nD τ) scM1_3 fullShare d) ∗ rest1 c) ∗ (∃ r, prngReg c r)) ⊢ (Pipeline.ΦA spec1 c : sProp 𝕄) := by
  rw [PhiA1_eq]; unfold rest1
  iintro ⟨⟨S0, S1, S2, S3, A0, A1, A2, A3, A4, A5, A6, A7, A8, A9, A10⟩, Hg⟩
  isplitr [Hg]
  swap; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [S0]; · iexact S0
  isplitl [S1]; · iexact S1
  isplitl [S2]; · iexact S2
  iexact S3

/-- The scoped rest IS the four columns' buffers at anything, the others, and the generator register. -/
theorem PhiA1_eq2 (c : Dev nD) :
    (Pipeline.ΦA spec1 c : sProp 𝕄) = iprop(iprop((∃ d, owns (c : Thread nD τ) scM1_0 fullShare d)
      ∗ (∃ d, owns (c : Thread nD τ) scM1_1 fullShare d) ∗ (∃ d, owns (c : Thread nD τ) scM1_2 fullShare d)
      ∗ (∃ d, owns (c : Thread nD τ) scM1_3 fullShare d) ∗ rest1 c) ∗ (∃ r, prngReg c r)) :=
  Idealize.SL.BI.Entails.antisymm (PhiA1_split c) (PhiA1_join c)

/-- After the last point the invariant gives the scoped rest back: the columns' named contents are forgotten. -/
theorem Phi1_last (c : Dev nD) : (dat1 V q1 c).Φ (Fin.last cfg1.N) ⊢ Pipeline.ΦA spec1 c := by
  have hN : cfg1.N = 64 := N_1
  rw [show (dat1 V q1 c).Φ (Fin.last cfg1.N) = Phi1 V c (Fin.last cfg1.N).val (Nat.le_of_lt_succ (Fin.last cfg1.N).isLt) from rfl,
    Phi1_pos V c _ _ (by rw [Fin.val_last]; omega)]
  refine BIBase.Entails.trans ?_ (PhiA1_join c)
  iintro ⟨⟨S0, S1, S2, S3, R⟩, Hg⟩
  isplitr [Hg]
  swap; · iexact Hg
  isplitl [S0]; · iexists _; iexact S0
  isplitl [S1]; · iexists _; iexact S1
  isplitl [S2]; · iexists _; iexact S2
  isplitl [S3]; · iexists _; iexact S3
  iexact R

theorem arrAt1_in (c : Dev nD) (w : Fin cfg1.W) (hw : w ≠ 7) : (dat1 V q1 c).arrAt w cfg1.N = (dat1 V q1 c).A w := by
  refine (dat1 V q1 c).arrAt_in w ?_ _
  fin_cases w
  all_goals first | rfl | exact absurd rfl hw

end Cert.Kernel.Hand

end
-- ==== Proof.BitsRegionB2.lean ====
/-
  The body obligation of the second kernel's region, at a generic point: the inputs' buffers hold their blocks,
  the point's column block selects the control case, the invariant hands the four carried columns over at what
  the point before left (at anything at the first point) and takes them back at this point's contents.
-/
import proofs.«421925_j36627481101076_1_alg».proof.Proof.BitsRegionB1
import proofs.«421925_j36627481101076_1_alg».proof.Proof.BitsRegionBDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (q1 : Fin cfg1.W → PosShare TreeShare)

/-- What the body is called with at point `t`, the windows one by one, -/
def bodyPre1 (c : Dev nD) (t : Fin cfg1.N) : sProp 𝕄 :=
  iprop((dat1 V q1 c).Φ t.castSucc ∗ (dat1 V q1 c).owesAt () t.castSucc
    ∗ (∃ d, owns (c : Thread nD τ) (st1_0 t) fullShare ((dat1 V q1 c).before 0 t d))
    ∗ (∃ d, owns (c : Thread nD τ) (st1_1 t) fullShare ((dat1 V q1 c).before 1 t d))
    ∗ (∃ d, owns (c : Thread nD τ) (st1_2 t) fullShare ((dat1 V q1 c).before 2 t d))
    ∗ (∃ d, owns (c : Thread nD τ) (st1_3 t) fullShare ((dat1 V q1 c).before 3 t d))
    ∗ (∃ d, owns (c : Thread nD τ) (st1_4 t) fullShare ((dat1 V q1 c).before 4 t d))
    ∗ (∃ d, owns (c : Thread nD τ) (st1_5 t) fullShare ((dat1 V q1 c).before 5 t d))
    ∗ (∃ d, owns (c : Thread nD τ) (st1_6 t) fullShare ((dat1 V q1 c).before 6 t d))
    ∗ (∃ d, owns (c : Thread nD τ) (st1_7 t) fullShare ((dat1 V q1 c).before 7 t d)))

/-- and what it returns. -/
def bodyPost1 (c : Dev nD) (t : Fin cfg1.N) : sProp 𝕄 :=
  iprop((dat1 V q1 c).Φ t.succ ∗ (dat1 V q1 c).owesAt () t.succ
    ∗ (dat1 V q1 c).leavesExact 0 t
    ∗ (dat1 V q1 c).leavesExact 1 t
    ∗ (dat1 V q1 c).leavesExact 2 t
    ∗ (dat1 V q1 c).leavesExact 3 t
    ∗ (dat1 V q1 c).leavesExact 4 t
    ∗ (dat1 V q1 c).leavesExact 5 t
    ∗ (dat1 V q1 c).leavesExact 6 t
    ∗ (dat1 V q1 c).leavesExact 7 t)

set_option maxHeartbeats 4800000 in
theorem sound_body1 (c : Dev nD) (t : Fin cfg1.N) :
    bodyPre1 V q1 c t ⊢ wp frame (wpE (defs₀ (F := F)) Variants.none c none) Set.univ (bodyAt1 t) (fun _ => bodyPost1 V q1 c t) := by
  unfold bodyPre1 bodyPost1 bodyAt1
  simp only [before1_0, before1_1, before1_2, before1_3, before1_4, before1_5, before1_6]
  rw [show (dat1 V q1 c).owesAt () t.succ = (dat1 V q1 c).owesAt () t.castSucc from rfl]
  rw [show (dat1 V q1 c).Φ t.succ = Phi1 V c (t.val + 1) t.isLt from rfl, Phi1_succ]
  have hN : t.val < 64 := lt_of_lt_of_eq t.isLt N_1
  rw [show (dat1 V q1 c).leavesExact 0 t = owns (c : Thread nD τ) (st1_0 t) fullShare ((dat1 V q1 c).after 0 t) from by
    unfold Dat.leavesExact; rw [liveAt1_0 t], after1_0]
  rw [show (dat1 V q1 c).leavesExact 1 t = owns (c : Thread nD τ) (st1_1 t) fullShare ((dat1 V q1 c).after 1 t) from by
    unfold Dat.leavesExact; rw [liveAt1_1 t], after1_1]
  rw [show (dat1 V q1 c).leavesExact 2 t = owns (c : Thread nD τ) (st1_2 t) fullShare ((dat1 V q1 c).after 2 t) from by
    unfold Dat.leavesExact; rw [liveAt1_2 t], after1_2]
  rw [show (dat1 V q1 c).leavesExact 3 t = owns (c : Thread nD τ) (st1_3 t) fullShare ((dat1 V q1 c).after 3 t) from by
    unfold Dat.leavesExact; rw [liveAt1_3 t], after1_3]
  rw [show (dat1 V q1 c).leavesExact 4 t = owns (c : Thread nD τ) (st1_4 t) fullShare ((dat1 V q1 c).after 4 t) from by
    unfold Dat.leavesExact; rw [liveAt1_4 t], after1_4]
  rw [show (dat1 V q1 c).leavesExact 5 t = owns (c : Thread nD τ) (st1_5 t) fullShare ((dat1 V q1 c).after 5 t) from by
    unfold Dat.leavesExact; rw [liveAt1_5 t], after1_5]
  rw [show (dat1 V q1 c).leavesExact 6 t = owns (c : Thread nD τ) (st1_6 t) fullShare ((dat1 V q1 c).after 6 t) from by
    unfold Dat.leavesExact; rw [liveAt1_6 t], after1_6]
  by_cases h0 : t.val % 8 = 0
  · have h7 : ¬t.val % 8 = 7 := by omega
    rw [Dat.leavesExact_idle (dat1 V q1 c) 7 t (idleAt1_7 t h7) (noFlush1_7 t h7)]
    rw [st1_first V c t h0 st1Reset]
    by_cases hz : t.val = 0
    · rw [Phi1_castSucc, Phi1_zero V c _ _ hz, PhiA1_eq2]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) (iblk1 V c 5 t) (iblk1 V c 6 t) ((dat1 V q1 c).before 7 t d7) st1Reset _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [Phi1_castSucc, Phi1_pos V c _ _ hz]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_A c Set.univ (grid1.coords t) _ _ _ _ _ _ _ _ _ _ _ _ _ _ _ _ _ _ _ _ _ _ _ _ ((hcond1_0 t).mpr h0) (fun h => h7 ((hcond1_1 t).mp h)) (iblk1 V c 0 t) (iblk1 V c 1 t) (iblk1 V c 2 t) (iblk1 V c 3 t) (iblk1 V c 4 t) (iblk1 V c 5 t) (iblk1 V c 6 t) ((dat1 V q1 c).before 7 t d7) st1Reset _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexists _; iexact S0
      isplitl [S1]; · iexists _; iexact S1
      isplitl [S2]; · iexists _; iexact S2
      isplitl [S3]; · iexists _; iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := fun e => h0 (by rw [e])
    rw [Phi1_castSucc, Phi1_pos V c _ _ hz]
    rw [st1_later V c t h0]
    by_cases h7 : t.val % 8 = 7
    · rw [show (dat1 V q1 c).leavesExact 7 t = owns (c : Thread nD τ) (st1_7 t) fullShare ((dat1 V q1 c).after 7 t) from by
        unfold Dat.leavesExact; rw [liveAt1_7 t h7], after1_7]
      rw [st1_later V c t h0]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_C c Set.univ (grid1.coords t) _ _ _ _ _ _ _ _ _ _ _ _ _ _ _ _ _ _ _ _ _ _ _ _ (fun h => h0 ((hcond1_0 t).mp h)) ((hcond1_1 t).mpr h7) (iblk1 V c 0 t) (iblk1 V c 1 t) (iblk1 V c 2 t) (iblk1 V c 3 t) (iblk1 V c 4 t) (iblk1 V c 5 t) (iblk1 V c 6 t) (st1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [S0]; · iexact S0
      isplitl [S1]; · iexact S1
      isplitl [S2]; · iexact S2
      isplitl [S3]; · iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V q1 c) 7 t (idleAt1_7 t h7) (noFlush1_7 t h7)]
      iintro ⟨⟨⟨S0, S1, S2, S3, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_B c Set.univ (grid1.coords t) _ _ _ _ _ _ _ _ _ _ _ _ _ _ _ _ _ _ _ _ _ _ _ _ (fun h => h0 ((hcond1_0 t).mp h)) (fun h => h7 ((hcond1_1 t).mp h)) (iblk1 V c 0 t) (iblk1 V c 1 t) (iblk1 V c 2 t) (iblk1 V c 3 t) (iblk1 V c 4 t) (iblk1 V c 5 t) (iblk1 V c 6 t) ((dat1 V q1 c).before 7 t d7) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [S0]; · iexact S0
      isplitl [S1]; · iexact S1
      isplitl [S2]; · iexact S2
      isplitl [S3]; · iexact S3
      iintro ⟨H0, H1, H2, H3, H4, H5, H6, H7, S0, S1, S2, S3⟩
      isplitl [S0 S1 S2 S3 R Hg]
      · isplitr [Hg]
        swap; · iexact Hg
        isplitl [S0]; · iexact S0
        isplitl [S1]; · iexact S1
        isplitl [S2]; · iexact S2
        isplitl [S3]; · iexact S3
        iexact R
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) :
    BodyObligation (dat1 (F := F) V q1 c) (defs₀ (F := F)) Variants.none () Set.univ := fun t => by
  rw [bigSep_W1, bigSep_W1]
  exact sound_body1 V q1 c t

end Cert.Kernel.Hand

end
-- ==== Proof.BitsRegionB3.lean ====
/-
  From the output window's blocks to its array.  The output's row block i is written back once, at point
  8 i + 7, so row r of the array after the run is row r % 512 of what point 8 (r / 512) + 7 left in the
  window's buffer.  Stated for any proof data of the region whose output window holds a given family of blocks.
-/
import proofs.«421925_j36627481101076_1_alg».proof.Proof.BitsRegionBDefs
import Idealize.ShloMosaic.Lib.Pipeline.FrameBody
import Idealize.ShloMosaic.Lib.Pipeline.Value
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The output window's block index at point `t` is (t / 8, 0). -/
theorem out_idx_facts : ∀ t : Fin cfg1.N, win1_7.index t (0 : Fin 2) = t.val / 8 ∧ win1_7.index t (1 : Fin 2) = 0 :=
  (by decide +kernel : ∀ t : Fin grid1.N, win1_7.index t (0 : Fin 2) = t.val / 8 ∧ win1_7.index t (1 : Fin 2) = 0)

/-- The array a family of blocks `g` fills: row `r` is row `r % 512` of block `8 (r / 512) + 7`. -/
def outArr (g : Fin cfg1.N → Vec F S512x1 .f32) : S4096x1.Idx → Elt F .f32 := fun i =>
  g ⟨8 * ((i 0).val / 512) + 7, by
      have h : cfg1.N = 64 := N_1
      have hi : (i 0).val < 4096 := (i 0).isLt
      omega⟩
    (ValueIdx.ix2 ⟨(i 0).val % 512, Nat.mod_lt _ (by norm_num)⟩ 0)

/-- What a flushing point writes back is its block of `outArr g`. -/
theorem flushed7_eq {c : Dev nD} (dat : Dat τ (Elt F) Unit ℕ (UR sig nD τ) ℕ cfg1 c)
    (g : Fin cfg1.N → Vec F S512x1 .f32) (hafter : ∀ t, dat.after 7 t = g t)
    (t : Fin cfg1.N) (hf : (cfg1.win 7).flush t = true) :
    dat.flushed 7 t = ((cfg1.win 7).blk t).view.read (Elt F) (outArr g) := by
  have h7 : t.val % 8 = 7 := (flush1_7 t).mp hf
  have hN : cfg1.N = 64 := N_1
  have htN : t.val < 64 := lt_of_lt_of_eq t.isLt hN
  show (cfg1.win 7).cut (grid1.coords t) (dat.after 7 t) = _
  rw [hafter]
  obtain ⟨e0, e1⟩ := out_idx_facts t
  funext j
  show g t j = outArr g (((cfg1.win 7).blk t).view.emb j)
  have hj : (j 0).val < 512 := (j 0).isLt
  have hj1 : (j 1).val < 1 := (j 1).isLt
  have hemb : ((((cfg1.win 7).blk t).view.emb j) 0).val = win1_7.index t (0 : Fin 2) * 512 + 1 * (j 0).val := rfl
  unfold outArr
  refine congr (congrArg g (Fin.ext ?_)) ?_
  · show t.val = 8 * (((((cfg1.win 7).blk t).view.emb j) 0).val / 512) + 7
    rw [hemb, e0]; omega
  · funext a; apply Fin.ext
    match a with
    | ⟨0, _⟩ =>
      show (j 0).val = ((((cfg1.win 7).blk t).view.emb j) 0).val % 512
      rw [hemb, e0]; omega
    | ⟨1, _⟩ =>
      show (j 1).val = 0
      omega

/-- An index of the array is in point `t`'s block iff each coordinate is in the block's range on its axis. -/
theorem mem_blk7 (t : Fin cfg1.N) (i : S4096x1.Idx) :
    i ∈ ((cfg1.win 7).blk t).view.set ↔ ∀ a : Fin 2, win1_7.index t a * S512x1.size a ≤ (i a).val ∧ (i a).val < win1_7.index t a * S512x1.size a + S512x1.size a := by
  show i ∈ ((View.whole main_v24).slice (win1_7.rect t)).set ↔ _
  rw [View.set_slice_whole, Rect.mem_set_unit]
  exact Iff.rfl

/-- The output array after the run, row by row. -/
theorem arrAt7_of {c : Dev nD} (dat : Dat τ (Elt F) Unit ℕ (UR sig nD τ) ℕ cfg1 c)
    (g : Fin cfg1.N → Vec F S512x1 .f32) (hafter : ∀ t, dat.after 7 t = g t)
    (r : Fin 4096) (h : 8 * (r.val / 512) + 7 < cfg1.N) :
    dat.arrAt 7 cfg1.N (ValueIdx.ix2 r 0)
      = g ⟨8 * (r.val / 512) + 7, h⟩ (ValueIdx.ix2 ⟨r.val % 512, Nat.mod_lt _ (by norm_num)⟩ 0) := by
  have hr : r.val < 4096 := r.isLt
  have hf : (cfg1.win 7).flush ⟨8 * (r.val / 512) + 7, h⟩ = true :=
    (flush1_7 ⟨8 * (r.val / 512) + 7, h⟩).mpr (by show (8 * (r.val / 512) + 7) % 8 = 7; omega)
  have hi : (ValueIdx.ix2 r (0 : Fin 1) : S4096x1.Idx) ∈ ((cfg1.win 7).blk ⟨8 * (r.val / 512) + 7, h⟩).view.set := by
    rw [mem_blk7]
    obtain ⟨e0, e1⟩ := out_idx_facts ⟨8 * (r.val / 512) + 7, h⟩
    intro a
    match a with
    | ⟨0, _⟩ =>
      show win1_7.index ⟨8 * (r.val / 512) + 7, h⟩ (0 : Fin 2) * 512 ≤ r.val ∧ r.val < win1_7.index ⟨8 * (r.val / 512) + 7, h⟩ (0 : Fin 2) * 512 + 512
      rw [e0]; show (8 * (r.val / 512) + 7) / 8 * 512 ≤ r.val ∧ r.val < (8 * (r.val / 512) + 7) / 8 * 512 + 512
      omega
    | ⟨1, _⟩ =>
      show win1_7.index ⟨8 * (r.val / 512) + 7, h⟩ (1 : Fin 2) * 1 ≤ 0 ∧ 0 < win1_7.index ⟨8 * (r.val / 512) + 7, h⟩ (1 : Fin 2) * 1 + 1
      rw [e1]; omega
  exact dat.arrAt_apply_of_mem 7 (outArr g) (fun t hf => flushed7_eq dat g hafter t hf) cfg1.N
    ⟨8 * (r.val / 512) + 7, h⟩ _ (Fin.isLt _) hf hi

/-! ## The region's output array -/

variable (V : (c : Dev nD) → (b : Ref sig .tc) → Buf (Elt F) ((c : Thread nD τ).loc b))
variable (q1 : Fin cfg1.W → PosShare TreeShare)

/-- Row `r` of the output array after the run: row `r % 512` of `s1 - (m + log l) * s0` of the columns carried
    through row block `r / 512`'s eight column blocks. -/
theorem arrAt1_out (c : Dev nD) (r : Fin 4096) :
    (dat1 V q1 c).arrAt 7 cfg1.N (ValueIdx.ix2 r 0)
      = out1 (st1 V c (8 * (r.val / 512) + 7) (flushPt_lt r)) (ValueIdx.ix2 ⟨r.val % 512, Nat.mod_lt _ (by norm_num)⟩ 0) :=
  arrAt7_of (dat1 V q1 c) (fun t => out1 (st1 V c t.val t.isLt)) (after1_7 V q1 c) r (flushPt_lt r)

end Cert.Kernel.Hand

end
-- ==== Proof.BitsRegionB.lean ====
/-
  The second kernel's half of the two-region frame, at the buffer contents the region is entered with.

  The kernel walks an 8 × 8 grid, the column block fastest, and carries four 512 × 1 columns between points:
  the running maximum, the rescaled sum of exponentials, and two weighted sums.  At column block 0 the four
  are reset before the update; at column block 7 the update is followed by the store of the output block.
  The invariant before point n + 1 names the four columns' contents after point n; the output row block i is
  written back once, at point 8 i + 7.

  The invariant and the proof data, the kernel's triple per control case, the body obligation at a generic
  point, and the output array row by row are in the modules imported here.
-/
import proofs.«421925_j36627481101076_1_alg».proof.Proof.BitsRegionB2
import proofs.«421925_j36627481101076_1_alg».proof.Proof.BitsRegionB3
-- ==== Proof.BitsFold.lean ====
/-
  What the two kernel regions leave behind them.

  Between two items of the program a core's unscoped buffers sit at a valuation: the launch memory, then each
  host stretch applied to it, then, at a region, the one array that region writes replaced by what its
  pipeline's write-backs leave.  Region 0 writes the row sums' array, and what it leaves there depends on
  the launch memory alone; region 1 writes the row losses' array, and what it leaves depends on the launch
  memory and on region 0's array (through one host reshape).  So the two contents are named in that order,
  and the family the valuations are written over is read off them.

  Region 1 stages the normalised embeddings through two of its input windows (the row block and the column
  block of the similarity matrix): the two windows hold the two halves of the array's full share.
-/
import proofs.«421925_j36627481101076_1_alg».proof.Proof.Gen.Kernel.Regions
import proofs.«421925_j36627481101076_1_alg».proof.Proof.BitsRegionA
import proofs.«421925_j36627481101076_1_alg».proof.Proof.BitsRegionB

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

variable (m : (ℓ : Loc nD τ sig) → Buf (Elt F) ℓ)

/-! ## The shares region 1's input windows hold -/

/-- Windows 5 and 6 read one array, a half of its full share each; every other input window holds its own
    array whole. -/
def q1K : Fin cfg1.W → PosShare TreeShare
  | ⟨5, _⟩ => fullShare.left
  | ⟨6, _⟩ => fullShare.right
  | _ => fullShare

theorem q1K_5 : q1K 5 = fullShare.left := rfl
theorem q1K_6 : q1K 6 = fullShare.right := rfl
theorem q1K_of (w : Fin cfg1.W) (h5 : w ≠ 5) (h6 : w ≠ 6) : q1K w = fullShare := by
  revert w; decide

/-! ## Region 0's array -/

/-- The buffers as region 0 finds them: the launch memory after the first host stretch. -/
abbrev VA : (c : Dev nD) → (b : Ref sig .tc) → Buf (Elt F) ((c : Thread nD τ).loc b) := fun c b => Gen.V1 m c b

/-- What region 0's write-backs leave in the row sums' array. -/
def o2 (c : Dev nD) : Buf (Elt F) ((c : Thread nD τ).loc main_v22) := (dat0 (VA m) c).arrAt 4 cfg0.N

/-- The buffers after region 0. -/
def W2 (c : Dev nD) : Valuation τ sig (Elt F) := Function.update (Gen.V1 m c) main_v22 (o2 m c)

/-! ## Region 1's array -/

/-- The buffers as region 1 finds them: those after region 0, after the second host stretch. -/
abbrev VB : (c : Dev nD) → (b : Ref sig .tc) → Buf (Elt F) ((c : Thread nD τ).loc b) :=
  fun c b => StableHlo.after hostOps1 (W2 m c) b

/-- What region 1's write-backs leave in the row losses' array. -/
def o4 (c : Dev nD) : Buf (Elt F) ((c : Thread nD τ).loc main_v24) := (dat1 (VB m) q1K c).arrAt 7 cfg1.N

/-- The buffers after region 1. -/
def W4 (c : Dev nD) : Valuation τ sig (Elt F) := Function.update (StableHlo.after hostOps1 (W2 m c)) main_v24 (o4 m c)

/-! ## The family the valuations are written over -/

/-- After item 1 every buffer as region 0 leaves it; after item 3 every buffer as region 1 leaves it. -/
def outsK : Gen.Outs (F := F) := fun J r c => if J = 2 then W2 m c r else W4 m c r

theorem outsK_2 (r : Ref sig .tc) (c : Dev nD) : outsK m 2 r c = W2 m c r := if_pos rfl
theorem outsK_4 (r : Ref sig .tc) (c : Dev nD) : outsK m 4 r c = W4 m c r := if_neg (by decide)

/-- Region 0's array after item 1 is what its write-backs leave. -/
theorem outsK_22' (c : Dev nD) : outsK m 2 main_v22 c = o2 m c := by
  rw [outsK_2]; unfold W2; exact Function.update_self ..

/-- The second valuation at this family is the buffers after region 0. -/
theorem V2_outsK (c : Dev nD) : Gen.V2 m (outsK m) c = W2 m c := by
  show Function.update (Gen.V1 m c) main_v22 (outsK m 2 main_v22 c) = W2 m c
  rw [outsK_22']; rfl

/-- The third is the buffers region 1 finds. -/
theorem V3_outsK (c : Dev nD) : Gen.V3 m (outsK m) c = StableHlo.after hostOps1 (W2 m c) := by
  show StableHlo.after hostOps1 (Gen.V2 m (outsK m) c) = _
  rw [V2_outsK]

theorem VB_eq : VB m = fun (c : Dev nD) (b : Ref sig .tc) => Gen.V3 m (outsK m) c b := by
  funext c b; rw [V3_outsK]

/-- Region 1's array after item 3 is what its write-backs leave. -/
theorem outsK_24' (c : Dev nD) : outsK m 4 main_v24 c = o4 m c := by
  rw [outsK_4]; unfold W4; exact Function.update_self ..

/-- The fourth valuation at this family is the buffers after region 1. -/
theorem V4_outsK (c : Dev nD) : Gen.V4 m (outsK m) c = W4 m c := by
  show Function.update (Gen.V3 m (outsK m) c) main_v24 (outsK m 4 main_v24 c) = W4 m c
  rw [outsK_24', V3_outsK]; rfl

/-! ## The two arrays, by the regions' proof data -/

theorem outsK_22 (c : Dev nD) : outsK m 2 main_v22 c = (dat0 (fun c b => Gen.V1 m c b) c).arrAt 4 cfg0.N :=
  outsK_22' m c

theorem outsK_24 (c : Dev nD) :
    outsK m 4 main_v24 c = (dat1 (fun c b => Gen.V3 m (outsK m) c b) q1K c).arrAt 7 cfg1.N := by
  rw [outsK_24', ← VB_eq]; rfl

end Cert.Kernel.Hand

end
-- ==== Proof.BitsRun.lean ====
/-
  The run of the two-region program, with every unscoped buffer named at the end.

  A core's thread state between two items is: every unscoped buffer whole at the valuation of that boundary,
  the generator register at some state, nothing owed.  A host stretch moves the valuation by its operations.
  A kernel region takes its windows' arrays out of the unscoped buffers, runs its pipeline, and puts them
  back with the one array it writes replaced by what the write-backs leave.  Region 1 reads one array through
  two windows: the array's buffer is split in two halves of the full share at the entry, one per window, and
  the halves are joined again at the exit, both windows having left the array as they found it.
-/
import proofs.«421925_j36627481101076_1_alg».proof.Proof.BitsFold
import Idealize.ShloMosaic.Lib.Pipeline.RegionsLoop

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The buffers as region 1 finds them, read at the TensorCore's references. -/
abbrev VC : (c : Dev nD) → (b : Ref sig .tc) → Buf (Elt F) ((c : Thread nD τ).loc b) :=
  fun c b => Gen.V3 m (outsK m) c b

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VC m) q1K c

abbrev 𝒱K : Variants := Variants.none
/-- No core owes another anything. -/
abbrev LK : GSem nD τ sig → Finset Unit := fun _ => ∅
abbrev lvK : GSem nD τ sig → Unit → ℕ := fun _ _ => 0

/-- What rides beside the buffers through every item: the generator register at some state and the core's
    dues, at nothing. -/
abbrev RK (c : Dev nD) : sProp 𝕄 :=
  iprop((∃ r, prngReg c r) ∗ ∃ W, owes (c : Thread nD τ) (0 : CellTallies nD τ sig Unit) W)

abbrev EK : Fin 3 → Dev nD → sProp 𝕄 := fun _ c => RK (F := F) c

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-! ## Region 0: its arrays are distinct buffers -/

/-- At region 0's exit each of its arrays holds what the pipeline leaves: the inputs as entered, the row sums'
    array at the write-backs' result. -/
theorem hF0 (c : Dev nD) (w : Fin cfg0.W) :
    (dat0 (VA m) c).arrAt w cfg0.N = Gen.V2 m (outsK m) c (Pipeline.arrRef spec0 w) := by
  by_cases hw : w = 4
  · subst hw
    exact (outsK_22 m c).symm.trans (by
      show outsK m 2 main_v22 c = Function.update (Gen.V1 m c) main_v22 (outsK m 2 main_v22 c) main_v22
      rw [Function.update_self])
  · refine (arrAt0_in (VA m) c w hw).trans ((A_eq0 (VA m) c w).trans ?_)
    exact (Gen.V2_of m (outsK m) c (Pipeline.arrRef spec0 w) (by revert w; decide)).symm

/-- Every other buffer holds what it held at the entry. -/
theorem hrest0 (c : Dev nD) (b : Ref sig .tc) (hb : b ∉ Finset.univ.image (Pipeline.arrRef spec0)) :
    Gen.V2 m (outsK m) c b = Gen.V1 m c b :=
  Gen.V2_of m (outsK m) c b fun h => by
    rw [List.mem_singleton] at h
    exact hb (Finset.mem_image.mpr ⟨4, Finset.mem_univ _, h.symm⟩)

set_option backward.isDefEq.respectTransparency.types false in
/-- Region 0 over the thread state: entered from every unscoped buffer at the first host stretch's result,
    left with the row sums' array at what the pipeline writes. -/
def reg0 : RegionSeg (pcfgs (F := F)) adm (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ LK lvK 0 fun _ _ => rfl
  pre c := iprop(StableHlo.held (c : Thread nD τ) (Pipeline.ucRefs τ sig) (Gen.V1 m c) ∗ RK c)
  post c := iprop(StableHlo.held (c : Thread nD τ) (Pipeline.ucRefs τ sig) (Gen.V2 m (outsK m) c) ∗ RK c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (VA m) c]; unfold Pipeline.ΦA
    iintro ⟨Hp, -, Hr⟩
    isplitl [Hr]; · iexact Hr
    iexact Hp
  hout c := by
    refine (show (pdats m 0 c).Φ (Fin.last _) ⊢ Pipeline.ΦA spec0 c from Phi0_last (VA m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => Gen.V2 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: two windows on one array -/

/-- The share each window of region 1 holds its array at: the output's is full by definition, an input's is
    the proof data's. -/
theorem share1K (V : (c : Dev nD) → (b : Ref sig .tc) → Buf (Elt F) ((c : Thread nD τ).loc b)) (c : Dev nD) :
    ∀ w : Fin cfg1.W, (dat1 V q1K c).share w = q1K w
  | 0 => rfl | 1 => rfl | 2 => rfl | 3 => rfl | 4 => rfl | 5 => rfl | 6 => rfl | 7 => rfl
  | ⟨_ + 8, h⟩ => absurd h (Nat.not_lt.2 (Nat.le_add_left _ _))

/-- The seven distinct buffers behind region 1's eight windows, as a chain. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v18) ↦{fullShare} V main_v18) ∗ (((c : Thread nD τ).loc main_v19) ↦{fullShare} V main_v19)
        ∗ (((c : Thread nD τ).loc main_v20) ↦{fullShare} V main_v20) ∗ (((c : Thread nD τ).loc main_v21) ↦{fullShare} V main_v21)
        ∗ (((c : Thread nD τ).loc main_v23) ↦{fullShare} V main_v23) ∗ (((c : Thread nD τ).loc main_v16) ↦{fullShare} V main_v16)
        ∗ (((c : Thread nD τ).loc main_v24) ↦{fullShare} V main_v24)) := by
  unfold Pipeline.arrBufs
  rw [bigSep_eq_bigSepL_of_eq [main_v18, main_v19, main_v20, main_v21, main_v23, main_v16, main_v24] (by decide) (by decide)]
  rfl

/-- One window's array: a whole buffer, at the window's share. -/
theorem arr1_pt (V' : (c : Dev nD) → (b : Ref sig .tc) → Buf (Elt F) ((c : Thread nD τ).loc b)) (c : Dev nD)
    (G : (w : Fin cfg1.W) → Buf (Elt F) ((cfg1.win w).arr.view.loc (c : Thread nD τ))) (w : Fin cfg1.W) :
    (((cfg1.win w).arr.view.loc (c : Thread nD τ)) ↦[(cfg1.win w).arr.view.set]{(dat1 V' q1K c).share w} G w : sProp 𝕄)
      = (((c : Thread nD τ).loc (Pipeline.arrRef spec1 w)) ↦{q1K w} G w) := by
  rw [(arr_whole1 w).set_eq_univ, share1K]

/-- Region 1's arrays at contents read off a valuation, window by window: the array two windows read is held
    twice, a half of the full share each. -/
theorem arrays1_eq (V' : (c : Dev nD) → (b : Ref sig .tc) → Buf (Elt F) ((c : Thread nD τ).loc b)) (c : Dev nD)
    (V : (b : Ref sig .tc) → Buf (Elt F) ((c : Thread nD τ).loc b)) :
    ((dat1 V' q1K c).arrays (fun w => V (Pipeline.arrRef spec1 w)) : sProp 𝕄)
      = iprop((((c : Thread nD τ).loc main_v18) ↦{fullShare} V main_v18) ∗ (((c : Thread nD τ).loc main_v19) ↦{fullShare} V main_v19)
        ∗ (((c : Thread nD τ).loc main_v20) ↦{fullShare} V main_v20) ∗ (((c : Thread nD τ).loc main_v21) ↦{fullShare} V main_v21)
        ∗ (((c : Thread nD τ).loc main_v23) ↦{fullShare} V main_v23) ∗ (((c : Thread nD τ).loc main_v16) ↦{fullShare.left} V main_v16)
        ∗ (((c : Thread nD τ).loc main_v16) ↦{fullShare.right} V main_v16) ∗ (((c : Thread nD τ).loc main_v24) ↦{fullShare} V main_v24)) := by
  unfold Pipeline.Dat.arrays
  rw [bigSep_congr fun w _ => arr1_pt V' c (fun w => V (Pipeline.arrRef spec1 w)) w, bigSep_W1]
  rfl

/-- ENTRY: the buffers behind the arrays, each whole, make the arrays: the shared one is split in two halves. -/
theorem split1 (V' : (c : Dev nD) → (b : Ref sig .tc) → Buf (Elt F) ((c : Thread nD τ).loc b)) (c : Dev nD)
    (V : (b : Ref sig .tc) → Buf (Elt F) ((c : Thread nD τ).loc b)) :
    (Pipeline.arrBufs (Ix := Unit) (Name := ℕ) (U := UR sig nD τ) (Lvl := ℕ) spec1 c V : sProp 𝕄)
      ⊢ (dat1 V' q1K c).arrays (fun w => V (Pipeline.arrRef spec1 w)) := by
  rw [arrBufs1_eq, arrays1_eq]
  iintro ⟨H18, H19, H20, H21, H23, H16, H24⟩
  ihave H16' := (pointsTo_share (PosShare.mem_left_op_right fullShare)).1 $$ H16
  icases H16' with ⟨H16a, H16b⟩
  isplitl [H18]; · iexact H18
  isplitl [H19]; · iexact H19
  isplitl [H20]; · iexact H20
  isplitl [H21]; · iexact H21
  isplitl [H23]; · iexact H23
  isplitl [H16a]; · iexact H16a
  isplitl [H16b]; · iexact H16b
  iexact H24

/-- EXIT: the arrays make the buffers behind them, each whole: the two halves of the shared one are joined. -/
theorem join1 (V' : (c : Dev nD) → (b : Ref sig .tc) → Buf (Elt F) ((c : Thread nD τ).loc b)) (c : Dev nD)
    (V : (b : Ref sig .tc) → Buf (Elt F) ((c : Thread nD τ).loc b)) :
    ((dat1 V' q1K c).arrays (fun w => V (Pipeline.arrRef spec1 w)) : sProp 𝕄)
      ⊢ Pipeline.arrBufs (Ix := Unit) (Name := ℕ) (U := UR sig nD τ) (Lvl := ℕ) spec1 c V := by
  rw [arrBufs1_eq, arrays1_eq]
  iintro ⟨H18, H19, H20, H21, H23, H16a, H16b, H24⟩
  ihave H16 := (pointsTo_share (PosShare.mem_left_op_right fullShare)).2 $$ [H16a H16b]
  · isplitl [H16a]; · iexact H16a
    iexact H16b
  isplitl [H18]; · iexact H18
  isplitl [H19]; · iexact H19
  isplitl [H20]; · iexact H20
  isplitl [H21]; · iexact H21
  isplitl [H23]; · iexact H23
  isplitl [H16]; · iexact H16
  iexact H24

/-- At region 1's entry each window's array holds what the buffers hold. -/
theorem hA1 (c : Dev nD) :
    (fun w => (dat1 (VC m) q1K c).arrAt w 0) = fun w => VC m c (Pipeline.arrRef spec1 w) :=
  funext fun w => (show (dat1 (VC m) q1K c).arrAt w 0 = (dat1 (VC m) q1K c).A w from rfl).trans (A_eq1 (VC m) q1K c w)

/-- At region 1's exit each of its arrays holds what the pipeline leaves: the inputs as entered (the shared one
    by both its windows), the row losses' array at the write-backs' result. -/
theorem hF1 (c : Dev nD) (w : Fin cfg1.W) :
    (dat1 (VC m) q1K c).arrAt w cfg1.N = Gen.V4 m (outsK m) c (Pipeline.arrRef spec1 w) := by
  by_cases hw : w = 7
  · subst hw
    exact (outsK_24 m c).symm.trans (by
      show outsK m 4 main_v24 c = Function.update (Gen.V3 m (outsK m) c) main_v24 (outsK m 4 main_v24 c) main_v24
      rw [Function.update_self])
  · refine (arrAt1_in (VC m) q1K c w hw).trans ((A_eq1 (VC m) q1K c w).trans ?_)
    exact (Gen.V4_of m (outsK m) c (Pipeline.arrRef spec1 w) (by revert w; decide)).symm

/-- Every other buffer holds what it held at the entry. -/
theorem hrest1 (c : Dev nD) (b : Ref sig .tc) (hb : b ∉ Finset.univ.image (Pipeline.arrRef spec1)) :
    Gen.V4 m (outsK m) c b = Gen.V3 m (outsK m) c b :=
  Gen.V4_of m (outsK m) c b fun h => by
    rw [List.mem_singleton] at h
    exact hb (Finset.mem_image.mpr ⟨7, Finset.mem_univ _, h.symm⟩)

/-- ENTRY, the buffers' part: every unscoped buffer at the entry contents is region 1's arrays, the shared one
    split between its two windows, and the unscoped rest. -/
theorem entry1 (c : Dev nD) :
    (StableHlo.held (c : Thread nD τ) (Pipeline.ucRefs τ sig) (Gen.V3 m (outsK m) c) : sProp 𝕄)
      ⊢ iprop((dat1 (VC m) q1K c).arrays ((dat1 (VC m) q1K c).arrAt · 0)
          ∗ Pipeline.unscopedRest (Ix := Unit) (Name := ℕ) (U := UR sig nD τ) (Lvl := ℕ) spec1 c (VC m c)) := by
  have h1 : (StableHlo.held (c : Thread nD τ) (Pipeline.ucRefs τ sig) (Gen.V3 m (outsK m) c) : sProp 𝕄)
      = unscopedBufs (Ix := Unit) (Name := ℕ) (U := UR sig nD τ) (Lvl := ℕ) c (VC m c) :=
    (Pipeline.unscopedBufs_held c (Gen.V3 m (outsK m) c)).symm
  have h2 := Pipeline.unscopedBufs_split₀ (Ix := Unit) (Name := ℕ) (U := UR sig nD τ) (Lvl := ℕ) (Val := Elt F) cfgs 1
    winFacts₀1.arr_unscoped c (VC m c)
  rw [h1, h2]
  exact sep_mono ((split1 (VC m) c (VC m c)).trans (Entails.of_eq (congrArg _ (hA1 m c).symm))) .rfl

/-- EXIT, the buffers' part: region 1's arrays as the pipeline leaves them, the two halves of the shared one
    joined, and the unscoped rest are every unscoped buffer at the exit contents. -/
theorem exit1 (c : Dev nD) :
    iprop((dat1 (VC m) q1K c).arrays ((dat1 (VC m) q1K c).arrAt · cfg1.N)
        ∗ Pipeline.unscopedRest (Ix := Unit) (Name := ℕ) (U := UR sig nD τ) (Lvl := ℕ) spec1 c (VC m c))
      ⊢ (StableHlo.held (c : Thread nD τ) (Pipeline.ucRefs τ sig) (Gen.V4 m (outsK m) c) : sProp 𝕄) := by
  have h1 : (StableHlo.held (c : Thread nD τ) (Pipeline.ucRefs τ sig) (Gen.V4 m (outsK m) c) : sProp 𝕄)
      = unscopedBufs (Ix := Unit) (Name := ℕ) (U := UR sig nD τ) (Lvl := ℕ) c (fun b => Gen.V4 m (outsK m) c b) :=
    (Pipeline.unscopedBufs_held c (Gen.V4 m (outsK m) c)).symm
  have h2 := Pipeline.unscopedBufs_split₀ (Ix := Unit) (Name := ℕ) (U := UR sig nD τ) (Lvl := ℕ) (Val := Elt F) cfgs 1
    winFacts₀1.arr_unscoped c (fun b => Gen.V4 m (outsK m) c b)
  rw [h1, h2]
  refine sep_mono ?_ (Entails.of_eq ?_)
  · exact (Entails.of_eq (congrArg _ (funext (hF1 m c)))).trans (join1 (VC m) c (fun b => Gen.V4 m (outsK m) c b))
  · unfold Pipeline.unscopedRest
    exact bigSep_congr fun b hb =>
      congrArg (fun f => (((c : Thread nD τ).loc b) ↦{fullShare} f : sProp 𝕄)) (hrest1 m c b (Finset.mem_sdiff.mp hb).2).symm

set_option backward.isDefEq.respectTransparency.types false in
/-- Region 1 over the thread state: entered from every unscoped buffer at the second host stretch's result,
    left with the row losses' array at what the pipeline writes. -/
def reg1 : RegionSeg (pcfgs (F := F)) adm (pdats m) () defs₀ 𝒱K LK lvK 1 where
  win := winFacts₀1
  block_pos := block_pos1
  stage_whole := stage_whole1
  K := PEmpty
  osem k := k.elim
  ho := Pipeline.OwnSemFacts.none _
  hbody c := (body_obligation1 (VC m) q1K c).loose
  hwaits := Pipeline.hwaits_of_owed_zero _ _ _ _ LK lvK 1 fun _ _ => rfl
  pre c := iprop(StableHlo.held (c : Thread nD τ) (Pipeline.ucRefs τ sig) (Gen.V3 m (outsK m) c) ∗ RK c)
  post c := iprop(StableHlo.held (c : Thread nD τ) (Pipeline.ucRefs τ sig) (Gen.V4 m (outsK m) c) ∗ RK c)
  X c := iprop(∃ r, prngReg c r)
  Y c := iprop(∃ r, prngReg c r)
  Z c := Pipeline.unscopedRest (Ix := Unit) (Name := ℕ) (U := UR sig nD τ) (Lvl := ℕ) spec1 c (VC m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (VC m) q1K c]; unfold Pipeline.ΦA
    iintro ⟨Hp, -, Hr⟩
    isplitl [Hr]; · iexact Hr
    iexact Hp
  hout c := by
    refine (show (pdats m 1 c).Φ (Fin.last _) ⊢ Pipeline.ΦA spec1 c from Phi1_last (VC m) q1K c).trans ?_
    rw [Pipeline.ownSems0_none]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit1 m c)
      isplitl [Ha]; · iexact Ha
      iexact Hrest
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory m with zero counters terminates, and any property
    of the final memory that follows from every unscoped buffer holding the last valuation holds of it. -/
theorem run_of {Q : PUnit × MemSt nD τ sig (Elt F) → Prop}
    (hQ : ∀ s : MemSt nD τ sig (Elt F),
      (∀ c : Dev nD, ∀ b ∈ Pipeline.ucRefs τ sig, s.mem (((c : Thread nD τ)).1, b) = Gen.V5 m (outsK m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱K LK lvK m ρ main
    (segs m (outsK m) 𝒱K LK lvK EK () (pdats m) (reg0 m) (reg1 m))
    (fun c Q => by
      rewrite [main_chain c, Seg.run_eq_chain,
        show (segs m (outsK m) 𝒱K LK lvK EK () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ EK 0 c))
    (Tₙ := fun c => StableHlo.held (c : Thread nD τ) (Pipeline.ucRefs τ sig) (Gen.V5 m (outsK m) c))
    (hch := fun c => ⟨.rfl, .rfl, .rfl, .rfl, .rfl, sep_mono .rfl (by iintro ⟨-, HO⟩; iexact HO)⟩)
    (hinit := ?_)
    (QY := fun c s => ∀ b ∈ Pipeline.ucRefs τ sig, s.mem (((c : Thread nD τ)).1, b) = Gen.V5 m (outsK m) c b)
    (hfin := fun c s' => ?_) (hQ := hQ)
  · refine Pipeline.initEach LK lvK fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (Gen.V5 m (outsK m) c) s')
    isplitl [Hh] <;> iassumption

/-- THE RUN, every unscoped buffer named at the end. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outsK m) c b) :=
  run_of m ρ fun _ h => h

/-- THE RUN, the result and the arguments named at the end: the result's buffer holds the last valuation's
    contents, and every argument holds its launch contents (no item writes one). -/
theorem run_result : θ_run defs (onTc (τ := τ) (main (F := F))) ⟨m, fun _ => 0, ρ⟩ (fun r => ∀ c : Dev nD,
      r.2.mem ((c.tc : Thread nD τ).loc main_v26) = Gen.V5 m (outsK m) c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_of m ρ fun s h c =>
    ⟨h c (Proc.devRef .tc main_v26) (mem_uc main_v26 (by decide)),
      (h c (Proc.devRef .tc main_arg0) (mem_uc main_arg0 (by decide))).trans (Gen.V5_main_arg0 m (outsK m) c),
      (h c (Proc.devRef .tc main_arg1) (mem_uc main_arg1 (by decide))).trans (Gen.V5_main_arg1 m (outsK m) c),
      (h c (Proc.devRef .tc main_arg2) (mem_uc main_arg2 (by decide))).trans (Gen.V5_main_arg2 m (outsK m) c),
      (h c (Proc.devRef .tc main_arg3) (mem_uc main_arg3 (by decide))).trans (Gen.V5_main_arg3 m (outsK m) c)⟩

end Cert.Kernel.Hand

end
-- ==== Proof.Spec.lean ====
/-
  The two programs' results written as plain functions on index types over the extended reals.

  Rows and columns of the augmented batch are `Fin 4096` (the first 2048 the first view, the last 2048 the
  second); a column `c` in column block `j` at offset `q` is `512 * j + q`.  The kernel side is written the way
  the two kernels accumulate (a carried value per row, updated once per column block); the reference side the
  way the dense program computes (whole-row sums and maxima).  Literal words are kept as words.
-/
import Idealize.ShloMosaic.PureOps.Ideal

noncomputable section

namespace Cert.Spec

open Idealize.ShloMosaic

/-! ## The literal words both programs carry, read at the extended reals -/

def cZero : EReal := Ideal.ofBits .f32 0x00000000#32
def cOne : EReal := Ideal.ofBits .f32 0x3F800000#32
def cTwo : EReal := Ideal.ofBits .f32 0x40000000#32
def cNegHalf : EReal := Ideal.ofBits .f32 0xBF000000#32
def cBig : EReal := Ideal.ofBits .f32 0x4CBEBC20#32
def cTemp : EReal := Ideal.ofBits .f32 0x3DCCCCCD#32
def cEps : EReal := Ideal.ofBits .f32 0x2B8CBCCC#32
def cNegInf : EReal := Ideal.ofBits .f32 0xFF800000#32
def cScale : EReal := Ideal.ofBits .f32 0xBA000000#32
/-- The kernel's reciprocal temperature: the exact reciprocal of the reference's temperature word. -/
def cInvT : EReal := ((134217728 / 13421773 : ℝ) : EReal)

/-! ## Index bookkeeping -/

/-- Column (or row) number `512 * j + q`, kept inside `Fin 4096` by a remainder that never bites for `j < 8`. -/
def atN (j : ℕ) (q : Fin 512) : Fin 4096 := ⟨(512 * j + q.val) % 4096, Nat.mod_lt _ (by norm_num)⟩

/-- A length-2048 family laid out twice. -/
def cat {α : Type} (a : Fin 2048 → α) (r : Fin 4096) : α :=
  if h : r.val < 2048 then a ⟨r.val, h⟩ else a ⟨r.val - 2048, by omega⟩

/-- Two 2048-row families stacked. -/
def catRows {α : Type} (a b : Fin 2048 → α) (r : Fin 4096) : α :=
  if h : r.val < 2048 then a ⟨r.val, h⟩ else b ⟨r.val - 2048, by omega⟩

/-- Row-wise l2 normalisation as both programs compute it: `x / max (sqrt (0 + Σ x²)) eps`. -/
def normalize (z : Fin 2048 → Fin 512 → EReal) (a : Fin 2048) (k : Fin 512) : EReal :=
  Ideal.div (z a k) (max (Ideal.sqrt (cZero + ∑ k' : Fin 512, z a k' * z a k')) cEps)

/-! ## The kernel side -/

section Kernel

variable (Z : Fin 4096 → Fin 512 → EReal) (lab : Fin 4096 → BitVec 32) (pos : Fin 4096 → EReal)

/-- The positional weight, zeroed on the diagonal by a select. -/
def kW (r c : Fin 4096) : EReal :=
  if r = c then cZero else Ideal.exp (cNegHalf * ((pos r - pos c) * (pos r - pos c)))

/-- The label-agreement mask off the diagonal, as the number 0 or 1. -/
def kMaskF (r c : Fin 4096) : EReal := if lab r = lab c ∧ r ≠ c then 1 else 0

def kM (r c : Fin 4096) : EReal := kMaskF lab r c * kW pos r c

/-- The first kernel's carried row sum after the first `n` column blocks. -/
def kMsumAcc (r : Fin 4096) : ℕ → EReal
  | 0 => cZero
  | n + 1 => kMsumAcc r n + ∑ q : Fin 512, kM lab pos r (atN n q)

def kMsum (r : Fin 4096) : EReal := kMsumAcc lab pos r 8

def kDot (r c : Fin 4096) : EReal := ∑ k : Fin 512, Z r k * Z c k

/-- The scaled similarity with the large constant taken off the diagonal by a select. -/
def kS (r c : Fin 4096) : EReal :=
  if r = c then kDot Z r c * cInvT - cBig else kDot Z r c * cInvT

/-- The normalised weight: column `c` divided by the row sum of row `c`. -/
def kFw (r c : Fin 4096) : EReal := Ideal.div (kM lab pos r c) (kMsum lab pos c)

/-- The second kernel's four carried values of row `r` after the first `n` column blocks:
    running maximum, rescaled sum of exponentials, Σ fw·S, Σ fw. -/
def kState (r : Fin 4096) : ℕ → EReal × EReal × EReal × EReal
  | 0 => (cNegInf, cZero, cZero, cZero)
  | n + 1 =>
    let st := kState r n
    let m' := max st.1 ((Finset.univ : Finset (Fin 512)).fold max cNegInf (fun q => kS Z r (atN n q)))
    (m',
     Ideal.exp (st.1 - m') * st.2.1 + ∑ q : Fin 512, Ideal.exp (kS Z r (atN n q) - m'),
     st.2.2.1 + ∑ q : Fin 512, kFw lab pos r (atN n q) * kS Z r (atN n q),
     st.2.2.2 + ∑ q : Fin 512, kFw lab pos r (atN n q))

def kRowLoss (r : Fin 4096) : EReal :=
  let st := kState Z lab pos r 8
  st.2.2.1 - (st.1 + Ideal.log st.2.1) * st.2.2.2

def kLoss : EReal := cScale * (cZero + ∑ r : Fin 4096, kRowLoss Z lab pos r)

end Kernel

/-! ## The reference side -/

section Reference

variable (zi zj : Fin 2048 → Fin 512 → EReal) (labels : Fin 2048 → BitVec 32) (p : Fin 2048 → EReal)

def rEyeN (a b : Fin 2048) : EReal := if a = b then 1 else 0
def rEye (r c : Fin 4096) : EReal := if r = c then 1 else 0

def rSimII (a b : Fin 2048) : EReal := Ideal.div (∑ k : Fin 512, zi a k * zi b k) cTemp - cBig * rEyeN a b
def rSimJJ (a b : Fin 2048) : EReal := Ideal.div (∑ k : Fin 512, zj a k * zj b k) cTemp - cBig * rEyeN a b
def rSimIJ (a b : Fin 2048) : EReal := Ideal.div (∑ k : Fin 512, zi a k * zj b k) cTemp

/-- The 4096 × 4096 similarity: [[ii, ij], [ijᵀ, jj]]. -/
def rSim (r c : Fin 4096) : EReal :=
  if hr : r.val < 2048 then
    if hc : c.val < 2048 then rSimII zi ⟨r.val, hr⟩ ⟨c.val, hc⟩ else rSimIJ zi zj ⟨r.val, hr⟩ ⟨c.val - 2048, by omega⟩
  else
    if hc : c.val < 2048 then rSimIJ zi zj ⟨c.val, hc⟩ ⟨r.val - 2048, by omega⟩
    else rSimJJ zj ⟨r.val - 2048, by omega⟩ ⟨c.val - 2048, by omega⟩

def rOneHot (a : Fin 2048) (k : Fin 4) : EReal := if labels a = BitVec.ofNat 32 k.val then 1 else 0
def rL (r : Fin 4096) (k : Fin 4) : EReal := cat (fun a => rOneHot labels a k) r
def rMask (r c : Fin 4096) : EReal := (∑ k : Fin 4, rL labels r k * rL labels c k) * (cOne - rEye r c)

def rPos (r : Fin 4096) : EReal := cat p r
def rSq (r : Fin 4096) : EReal := cZero + ∑ _u : Fin 1, rPos p r * rPos p r
def rD2 (r c : Fin 4096) : EReal :=
  max ((rSq p r + rSq p c) - cTwo * (∑ _u : Fin 1, rPos p r * rPos p c)) cZero
def rWeights (r c : Fin 4096) : EReal := Ideal.exp (cNegHalf * rD2 p r c) * (cOne - rEye r c)

def rFw0 (r c : Fin 4096) : EReal := rWeights p r c * rMask labels r c
def rRowSum (r : Fin 4096) : EReal := cZero + ∑ c : Fin 4096, rFw0 labels p r c
def rFw (r c : Fin 4096) : EReal := Ideal.div (rFw0 labels p r c) (rRowSum labels p c)

def rMax (r : Fin 4096) : EReal :=
  max cNegInf ((Finset.univ : Finset (Fin 4096)).fold max cNegInf (fun c => rSim zi zj r c))
def rShift (r c : Fin 4096) : EReal := rSim zi zj r c - rMax zi zj r
def rLse (r : Fin 4096) : EReal := Ideal.log (cZero + ∑ c : Fin 4096, Ideal.exp (rShift zi zj r c))
def rLogSm (r c : Fin 4096) : EReal := rShift zi zj r c - rLse zi zj r

def rLoss : EReal :=
  cScale * (cZero + ∑ r : Fin 4096, ∑ c : Fin 4096, rLogSm zi zj r c * rFw labels p r c)

end Reference

end Cert.Spec

end
-- ==== Proof.HostK.lean ====
/-
  The host operations of the kernel program, read at an index over the extended reals.

  Before the first region: each of the two 2048 × 512 views is normalised row by row,
  x / max (sqrt (0 + Σ x²)) eps, and the two are stacked into the 4096 × 512 array Z; the labels are laid out
  twice and reshaped to a column and to a row; the positions are laid out twice as a column and reshaped to a
  row.  Between the regions the row sums' column is reshaped to a row, and nothing else the regions read
  changes.  After the second region the 4096 row losses are summed from the zero word and multiplied by the
  scale word.

  Each buffer's contents is first written as a term of the launch contents (one equation per buffer, the
  valuations before it kept folded), and that term is then read at a symbolic index: a broadcast reads its
  operand at the kept coordinates, a shape cast at the same row-major position, a two-piece join at the row
  itself below 2048 and at the row less 2048 above, a sum over one axis as a finite sum.
-/
import proofs.«421925_j36627481101076_1_alg».proof.Proof.Gen.KernelIdeal.Regions
import proofs.«421925_j36627481101076_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (c : Dev nD)

/-! ## One view's row-wise l2 normalisation, as the host operations compose it -/

section AnyF
variable {F : FTy → Type} [FloatOps F]

/-- The row's sum of squares, from the zero word. -/
def sumSq (x : (⟨S2048x512, .f32⟩ : BufTy).Contents (Elt F)) : (⟨S2048, .f32⟩ : BufTy).Contents (Elt F) :=
  Host.reduceAdd (mulf x x) (constant S_ .f32 0x00000000#32) reducesTo_S2048x512_S2048_d1 h_S_

/-- The row's norm floored at the small word, as a column. -/
def nrmDen (x : (⟨S2048x512, .f32⟩ : BufTy).Contents (Elt F)) : (⟨S2048x1, .f32⟩ : BufTy).Contents (Elt F) :=
  maximumf (Host.sqrt (broadcastInDim S2048x1 ![0] bcast_S2048_S2048x1_0 (sumSq x)))
    (broadcastInDim S2048x1 ![] bcast_S_S2048x1 (constant S_ .f32 0x2B8CBCCC#32))

/-- Each element over its row's floored norm. -/
def nrm (x : (⟨S2048x512, .f32⟩ : BufTy).Contents (Elt F)) : (⟨S2048x512, .f32⟩ : BufTy).Contents (Elt F) :=
  Host.divf x (broadcastInDim S2048x512 ![0, 1] bcast_S2048x1_S2048x512_0_1 (nrmDen x))

end AnyF

/-! ## The normalisation read at an index, over the extended reals -/

section AtIdeal

/-- The row's sum of squares at row `a`: the zero word plus the sum over the row. -/
theorem sumSq_apply (x : (⟨S2048x512, .f32⟩ : BufTy).Contents (Elt Ideal)) (a : Fin 2048) :
    sumSq (F := Ideal) x (ix1 a) = Spec.cZero + ∑ k : Fin 512, x (ix2 a k) * x (ix2 a k) := by
  unfold sumSq
  simp only [Host.reduceAdd, Ideal.hostReduceAdd_def]
  rw [Ideal.hostReduceAdd_single reducesTo_S2048x512_S2048_d1 (by decide)]
  refine congrArg₂ (· + ·) rfl (Finset.sum_congr rfl fun k _ => ?_)
  rw [mulf_apply]
  refine congrArg (fun i => x i * x i) (funext fun b => Fin.ext ?_)
  match b with
  | ⟨0, _⟩ => rfl
  | ⟨1, _⟩ => rfl

/-- The floored norm of row `a`. -/
theorem nrmDen_apply (x : (⟨S2048x512, .f32⟩ : BufTy).Contents (Elt Ideal)) (a : Fin 2048) (u : Fin 1) :
    nrmDen (F := Ideal) x (ix2 a u)
      = max (Ideal.sqrt (Spec.cZero + ∑ k : Fin 512, x (ix2 a k) * x (ix2 a k))) Spec.cEps := by
  unfold nrmDen
  rw [maximumf_apply]
  refine congrArg₂ max ?_ ?_
  · show Ideal.sqrt (broadcastInDim S2048x1 ![0] bcast_S2048_S2048x1_0 (sumSq (F := Ideal) x) (ix2 a u)) = _
    rw [broadcastInDim_apply _ bcast_S2048_S2048x1_0 (sumSq (F := Ideal) x) (ix2 a u) (ix1 a) (fun b => match b with
      | ⟨0, _⟩ => by show a.val = if (2048 : Nat) = 1 then 0 else a.val; rw [if_neg (by decide)]), sumSq_apply]
  · rw [broadcastInDim_apply _ bcast_S_S2048x1 (constant (F := Ideal) S_ .f32 0x2B8CBCCC#32) (ix2 a u) ix0 (fun b => b.elim0)]
    rfl

/-- Element `(a, k)` of the normalised view. -/
theorem nrm_apply (x : (⟨S2048x512, .f32⟩ : BufTy).Contents (Elt Ideal)) (a : Fin 2048) (k : Fin 512) :
    nrm (F := Ideal) x (ix2 a k) = Spec.normalize (fun a k => x (ix2 a k)) a k := by
  unfold nrm Spec.normalize
  show Ideal.div (x (ix2 a k)) (broadcastInDim S2048x512 ![0, 1] bcast_S2048x1_S2048x512_0_1 (nrmDen (F := Ideal) x) (ix2 a k)) = _
  rw [broadcastInDim_apply _ bcast_S2048x1_S2048x512_0_1 (nrmDen (F := Ideal) x) (ix2 a k) (ix2 a (0 : Fin 1)) (fun b => match b with
    | ⟨0, _⟩ => by show a.val = if (2048 : Nat) = 1 then 0 else a.val; rw [if_neg (by decide)]
    | ⟨1, _⟩ => by show 0 = if (1 : Nat) = 1 then 0 else k.val; rw [if_pos rfl]), nrmDen_apply]

end AtIdeal

/-! ## Two pieces joined along the rows, read at a row -/

section Joined
variable {α : Type}

/-- Two 2048-row matrices stacked: row `r` comes from the first below 2048, from the second above. -/
theorem cat2_apply {n : Nat} (x y : (⟨2, ![2048, n]⟩ : Shape).Idx → α)
    (h : Shape.Concatenates [(⟨2, ![2048, n]⟩ : Shape), ⟨2, ![2048, n]⟩] ⟨2, ![4096, n]⟩ 0) (r : Fin 4096) (k : Fin n) :
    concatenate ⟨2, ![4096, n]⟩ 0 [⟨⟨2, ![2048, n]⟩, x⟩, ⟨⟨2, ![2048, n]⟩, y⟩] h (ix2 r k)
      = Spec.catRows (fun a => x (ix2 a k)) (fun a => y (ix2 a k)) r := by
  unfold Spec.catRows
  by_cases hr : r.val < 2048
  · rw [dif_pos hr]
    exact concatenate_pair_apply_left 0 x y h (ix2 r k) rfl (ix2 ⟨r.val, hr⟩ k) (fun b => match b with
      | ⟨0, _⟩ => rfl
      | ⟨1, _⟩ => rfl)
  · rw [dif_neg hr]
    exact concatenate_pair_apply_right 0 x y h (ix2 r k) rfl rfl (ix2 ⟨r.val - 2048, by omega⟩ k) (fun b => match b with
      | ⟨0, _⟩ => fun hne => absurd rfl hne
      | ⟨1, _⟩ => fun _ => rfl) (by show r.val - 2048 + 2048 = r.val; omega)

/-- Two length-2048 vectors joined. -/
theorem cat1_apply (x y : (⟨1, ![2048]⟩ : Shape).Idx → α)
    (h : Shape.Concatenates [(⟨1, ![2048]⟩ : Shape), ⟨1, ![2048]⟩] ⟨1, ![4096]⟩ 0) (r : Fin 4096) :
    concatenate ⟨1, ![4096]⟩ 0 [⟨⟨1, ![2048]⟩, x⟩, ⟨⟨1, ![2048]⟩, y⟩] h (ix1 r)
      = Spec.catRows (fun a => x (ix1 a)) (fun a => y (ix1 a)) r := by
  unfold Spec.catRows
  by_cases hr : r.val < 2048
  · rw [dif_pos hr]
    exact concatenate_pair_apply_left 0 x y h (ix1 r) rfl (ix1 ⟨r.val, hr⟩) (fun b => match b with
      | ⟨0, _⟩ => rfl)
  · rw [dif_neg hr]
    exact concatenate_pair_apply_right 0 x y h (ix1 r) rfl rfl (ix1 ⟨r.val - 2048, by omega⟩) (fun b => match b with
      | ⟨0, _⟩ => fun hne => absurd rfl hne) (by show r.val - 2048 + 2048 = r.val; omega)

/-- A family laid out twice is the stacking of the family with itself. -/
theorem catRows_self (a : Fin 2048 → α) (r : Fin 4096) : Spec.catRows a a r = Spec.cat a r := rfl

end Joined

/-! ## What the first host stretch leaves, as terms of the launch contents -/

section Terms

theorem V1_Z_term : (Gen.V1 m c main_v16 : S4096x512.Idx → EReal)
    = concatenate S4096x512 0 [⟨S2048x512, nrm (F := Ideal) (m ((c : Thread nD τ).loc main_arg0))⟩,
        ⟨S2048x512, nrm (F := Ideal) (m ((c : Thread nD τ).loc main_arg1))⟩] concatenates_S2048x512_S2048x512_S4096x512_d0 := by
  dsimp only [Gen.V1, Gen.hostOps0]
  after_results
  rfl

/-- The labels joined with themselves. -/
abbrev labCat : S4096.Idx → BitVec 32 :=
  concatenate S4096 0 [⟨S2048, (m ((c : Thread nD τ).loc main_arg2) : S2048.Idx → BitVec 32)⟩,
    ⟨S2048, (m ((c : Thread nD τ).loc main_arg2) : S2048.Idx → BitVec 32)⟩] concatenates_S2048_S2048_S4096_d0

/-- The positions joined with themselves. -/
abbrev posCat : S4096x1.Idx → EReal :=
  concatenate S4096x1 0 [⟨S2048x1, (m ((c : Thread nD τ).loc main_arg3) : S2048x1.Idx → EReal)⟩,
    ⟨S2048x1, (m ((c : Thread nD τ).loc main_arg3) : S2048x1.Idx → EReal)⟩] concatenates_S2048x1_S2048x1_S4096x1_d0

theorem V1_labcol_term : (Gen.V1 m c main_v18 : S4096x1.Idx → BitVec 32)
    = shapeCast S4096x1 (labCat m c) shapeCasts_S4096_S4096x1 := by
  dsimp only [Gen.V1, Gen.hostOps0]
  after_results
  rfl

theorem V1_labrow_term : (Gen.V1 m c main_v19 : S1x4096.Idx → BitVec 32)
    = shapeCast S1x4096 (labCat m c) shapeCasts_S4096_S1x4096 := by
  dsimp only [Gen.V1, Gen.hostOps0]
  after_results
  rfl

theorem V1_poscol_term : (Gen.V1 m c main_v20 : S4096x1.Idx → EReal) = posCat m c := by
  dsimp only [Gen.V1, Gen.hostOps0]
  after_results

theorem V1_posrow_term : (Gen.V1 m c main_v21 : S1x4096.Idx → EReal)
    = shapeCast S1x4096 (posCat m c) shapeCasts_S4096x1_S1x4096 := by
  dsimp only [Gen.V1, Gen.hostOps0]
  after_results
  rfl

end Terms

/-! ## Shape casts between a vector, a column and a row, read at an index -/

section Casts
variable {α : Type}

/-- A length-4096 vector as a column. -/
theorem cast_vec_col (x : S4096.Idx → α) (r : Fin 4096) (u : Fin 1) :
    shapeCast S4096x1 x shapeCasts_S4096_S4096x1 (ix2 r u) = x (ix1 r) :=
  shapeCast_apply x _ _ _ (by
    have hu : u.val = 0 := by omega
    rw [Shape.rowMajor_val_two, Shape.rowMajor_val_one]
    show r.val = r.val * 1 + u.val
    omega)

/-- A length-4096 vector as a row. -/
theorem cast_vec_row (x : S4096.Idx → α) (r : Fin 4096) (u : Fin 1) :
    shapeCast S1x4096 x shapeCasts_S4096_S1x4096 (ix2 u r) = x (ix1 r) :=
  shapeCast_a_1a_apply x _ u r

/-- A 4096-column as a row. -/
theorem cast_col_row (x : S4096x1.Idx → α) (r : Fin 4096) (u v : Fin 1) :
    shapeCast S1x4096 x shapeCasts_S4096x1_S1x4096 (ix2 u r) = x (ix2 r v) :=
  shapeCast_apply x _ _ _ (by
    have hu : u.val = 0 := by omega
    have hv : v.val = 0 := by omega
    rw [Shape.rowMajor_val_two, Shape.rowMajor_val_two]
    show r.val * 1 + v.val = u.val * 4096 + r.val
    omega)

end Casts

/-! ## The deliverables: each buffer the regions read, at an index -/

section Reads

/-- The first view's rows, the second view's rows, the labels and the positions as launched. -/
abbrev zi0 (a : Fin 2048) (k : Fin 512) : EReal := m ((c : Thread nD τ).loc main_arg0) (ix2 a k)
abbrev zj0 (a : Fin 2048) (k : Fin 512) : EReal := m ((c : Thread nD τ).loc main_arg1) (ix2 a k)
abbrev lab0 (a : Fin 2048) : BitVec 32 := m ((c : Thread nD τ).loc main_arg2) (ix1 a)
abbrev p0 (a : Fin 2048) : EReal := m ((c : Thread nD τ).loc main_arg3) (ix2 a (0 : Fin 1))

theorem V1_Z (r : Fin 4096) (k : Fin 512) :
    Gen.V1 m c main_v16 (ix2 r k) = Spec.catRows (Spec.normalize (zi0 m c)) (Spec.normalize (zj0 m c)) r k := by
  refine (congrFun (V1_Z_term m c) (ix2 r k)).trans ?_
  rw [cat2_apply]
  unfold Spec.catRows
  by_cases hr : r.val < 2048
  · rw [dif_pos hr, dif_pos hr]; exact nrm_apply _ _ _
  · rw [dif_neg hr, dif_neg hr]; exact nrm_apply _ _ _

theorem labCat_apply (r : Fin 4096) : labCat m c (ix1 r) = Spec.cat (lab0 m c) r :=
  (cat1_apply _ _ _ r).trans (catRows_self _ r)

theorem posCat_apply (r : Fin 4096) (u : Fin 1) : posCat m c (ix2 r u) = Spec.cat (p0 m c) r := by
  obtain rfl : u = 0 := Subsingleton.elim _ _
  exact (cat2_apply _ _ _ r 0).trans (catRows_self _ r)

theorem V1_labcol (r : Fin 4096) : Gen.V1 m c main_v18 (ix2 r (0 : Fin 1)) = Spec.cat (lab0 m c) r :=
  (congrFun (V1_labcol_term m c) _).trans ((cast_vec_col _ r 0).trans (labCat_apply m c r))

theorem V1_labrow (r : Fin 4096) : Gen.V1 m c main_v19 (ix2 (0 : Fin 1) r) = Spec.cat (lab0 m c) r :=
  (congrFun (V1_labrow_term m c) _).trans ((cast_vec_row _ r 0).trans (labCat_apply m c r))

theorem V1_poscol (r : Fin 4096) : Gen.V1 m c main_v20 (ix2 r (0 : Fin 1)) = Spec.cat (p0 m c) r :=
  (congrFun (V1_poscol_term m c) _).trans (posCat_apply m c r 0)

theorem V1_posrow (r : Fin 4096) : Gen.V1 m c main_v21 (ix2 (0 : Fin 1) r) = Spec.cat (p0 m c) r :=
  (congrFun (V1_posrow_term m c) _).trans ((cast_col_row _ r 0 0).trans (posCat_apply m c r 0))

end Reads

/-! ## After the regions: what the later host stretches keep, reshape and sum -/

section AfterRegions
variable (outs : Gen.Outs (F := Ideal))

/-- Neither the first region nor the reshape after it touches what the first stretch wrote for the regions. -/
theorem V3_keeps (b : Ref sig .tc) (hb : b ∈ [main_v16, main_v18, main_v19, main_v20, main_v21]) :
    Gen.V3 m outs c b = Gen.V1 m c b := by
  simp only [List.mem_cons, List.mem_singleton, List.not_mem_nil, or_false] at hb
  rcases hb with rfl | rfl | rfl | rfl | rfl <;>
    exact (Gen.V3_of m outs c _ (by decide)).trans (Gen.V2_of m outs c _ (by decide))

theorem V3_msumrow_term : (Gen.V3 m outs c main_v23 : S1x4096.Idx → EReal)
    = shapeCast S1x4096 (outs 2 main_v22 c : S4096x1.Idx → EReal) shapeCasts_S4096x1_S1x4096 := by
  dsimp only [Gen.V3, Gen.V2, Gen.hostOps1]
  generalize Gen.V1 m c = W
  after_results
  rw [Function.update_self]
  rfl

/-- The row sums' column read as a row. -/
theorem V3_msumrow (r : Fin 4096) :
    Gen.V3 m outs c main_v23 (ix2 (0 : Fin 1) r) = outs 2 main_v22 c (ix2 r (0 : Fin 1)) :=
  (congrFun (V3_msumrow_term m c outs) _).trans (cast_col_row _ r 0 0)

theorem V5_loss_term : (Gen.V5 m outs c main_v26 : S_.Idx → EReal)
    = mulf (constant (F := Ideal) S_ .f32 0xBA000000#32)
        (Host.reduceAdd (outs 4 main_v24 c : S4096x1.Idx → EReal) (constant (F := Ideal) S_ .f32 0x00000000#32)
          reducesTo_S4096x1_S_d0_1 h_S_) := by
  dsimp only [Gen.V5, Gen.V4, Gen.hostOps2]
  generalize Gen.V3 m outs c = W
  after_results
  rw [Function.update_self]

/-- Row `r`'s loss as the second region leaves it. -/
abbrev lossAt (r : Fin 4096) : EReal := outs 4 main_v24 c (ix2 r (0 : Fin 1))

/-- The result: the scale word times the zero word plus the sum of the 4096 row losses. -/
theorem V5_loss :
    Gen.V5 m outs c main_v26 ix0 = Spec.cScale * (Spec.cZero + ∑ r : Fin 4096, lossAt c outs r) := by
  refine (congrFun (V5_loss_term m c outs) ix0).trans ?_
  rw [mulf_apply]
  refine congrArg₂ (· * ·) rfl ?_
  simp only [Host.reduceAdd, Ideal.hostReduceAdd_def]
  rw [Ideal.hostReduceAdd_total reducesTo_S4096x1_S_d0_1 (fun b => b.elim0)]
  refine congrArg₂ (· + ·) rfl ?_
  rw [sum_idx2]
  exact Finset.sum_congr rfl fun r _ => Fin.sum_univ_one _

end AfterRegions

end Cert.KernelIdeal.Hand

end
-- ==== Proof.ValueA1.lean ====
/-
  The first kernel's four input blocks at a grid point, read off their arrays.

  Point t of the 8 × 8 grid is row block t / 8 and column block t % 8.  The two column windows (labels
  [4096,1], positions [4096,1]) move with the row block; the two row windows (labels [1,4096], positions
  [1,4096]) move with the column block.  A block's coordinate in its array is (block index) × 512 + (the
  coordinate inside the block) on the long axis and 0 on the unit axis.
-/
import proofs.«421925_j36627481101076_1_alg».proof.Proof.Steps
import Idealize.ShloMosaic.Lib.ValueIdx

noncomputable section

namespace Cert.KernelIdeal.Hand.RowSums

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-- The four windows' block indices at every grid point, decided over the 64 points. -/
theorem blockIndex0 : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- The grid coordinates of point t: (t / 8, t % 8). -/
theorem coords0 : ∀ t : Fin cfg0.N, ((grid0.coords t) 0).val = t.val / 8 ∧ ((grid0.coords t) 1).val = t.val % 8 :=
  (by decide +kernel : ∀ t : Fin grid0.N, _)

/-- The label column's block: rows 512 · (t / 8) + p. -/
theorem iblk0_labCol (c : Dev nD) (t : Fin cfg0.N) (p : Fin 512) (hp : t.val / 8 * 512 + p.val < 4096) :
    iblk0 V c 0 t (ix2 p (0 : Fin 1)) = V c main_v18 (ix2 (⟨t.val / 8 * 512 + p.val, hp⟩ : Fin 4096) (0 : Fin 1)) := by
  obtain ⟨e0, e1, -⟩ := blockIndex0 t
  show V c main_v18 (((cfg0.win 0).blk t).view.emb (ix2 p (0 : Fin 1))) = _
  congr 1
  funext a; apply Fin.ext
  match a with
  | ⟨0, _⟩ => show win0_0.index t (0 : Fin 2) * 512 + 1 * p.val = t.val / 8 * 512 + p.val; omega
  | ⟨1, _⟩ => show win0_0.index t (1 : Fin 2) * 1 + 1 * 0 = 0; omega

/-- The label row's block: columns 512 · (t % 8) + q. -/
theorem iblk0_labRow (c : Dev nD) (t : Fin cfg0.N) (q : Fin 512) (hq : t.val % 8 * 512 + q.val < 4096) :
    iblk0 V c 1 t (ix2 (0 : Fin 1) q) = V c main_v19 (ix2 (0 : Fin 1) (⟨t.val % 8 * 512 + q.val, hq⟩ : Fin 4096)) := by
  obtain ⟨-, -, e0, e1, -⟩ := blockIndex0 t
  show V c main_v19 (((cfg0.win 1).blk t).view.emb (ix2 (0 : Fin 1) q)) = _
  congr 1
  funext a; apply Fin.ext
  match a with
  | ⟨0, _⟩ => show win0_1.index t (0 : Fin 2) * 1 + 1 * 0 = 0; omega
  | ⟨1, _⟩ => show win0_1.index t (1 : Fin 2) * 512 + 1 * q.val = t.val % 8 * 512 + q.val; omega

/-- The position column's block: rows 512 · (t / 8) + p. -/
theorem iblk0_posCol (c : Dev nD) (t : Fin cfg0.N) (p : Fin 512) (hp : t.val / 8 * 512 + p.val < 4096) :
    iblk0 V c 2 t (ix2 p (0 : Fin 1)) = V c main_v20 (ix2 (⟨t.val / 8 * 512 + p.val, hp⟩ : Fin 4096) (0 : Fin 1)) := by
  obtain ⟨-, -, -, -, e0, e1, -⟩ := blockIndex0 t
  show V c main_v20 (((cfg0.win 2).blk t).view.emb (ix2 p (0 : Fin 1))) = _
  congr 1
  funext a; apply Fin.ext
  match a with
  | ⟨0, _⟩ => show win0_2.index t (0 : Fin 2) * 512 + 1 * p.val = t.val / 8 * 512 + p.val; omega
  | ⟨1, _⟩ => show win0_2.index t (1 : Fin 2) * 1 + 1 * 0 = 0; omega

/-- The position row's block: columns 512 · (t % 8) + q. -/
theorem iblk0_posRow (c : Dev nD) (t : Fin cfg0.N) (q : Fin 512) (hq : t.val % 8 * 512 + q.val < 4096) :
    iblk0 V c 3 t (ix2 (0 : Fin 1) q) = V c main_v21 (ix2 (0 : Fin 1) (⟨t.val % 8 * 512 + q.val, hq⟩ : Fin 4096)) := by
  obtain ⟨-, -, -, -, -, -, e0, e1⟩ := blockIndex0 t
  show V c main_v21 (((cfg0.win 3).blk t).view.emb (ix2 (0 : Fin 1) q)) = _
  congr 1
  funext a; apply Fin.ext
  match a with
  | ⟨0, _⟩ => show win0_3.index t (0 : Fin 2) * 1 + 1 * 0 = 0; omega
  | ⟨1, _⟩ => show win0_3.index t (1 : Fin 2) * 512 + 1 * q.val = t.val % 8 * 512 + q.val; omega

end Cert.KernelIdeal.Hand.RowSums

end
-- ==== Proof.ValueA2.lean ====
/-
  The first kernel's payload terms read at an index, over the extended reals.

  The block's 512 × 512 table is (the 0/1 mask "labels agree and row ≠ column") · (0 on the diagonal, else
  exp (−½ (pos_r − pos_c)²)); its lane sum at row p is the plain sum over the block's 512 columns.  Row and
  column numbers are the 32-bit words 512 · (block index) + (coordinate in the block), which are below 2^32 and
  so compare equal exactly when the numbers do.  The carried column adds that sum to what it held; the reset
  column is the zero word.
-/
import proofs.«421925_j36627481101076_1_alg».proof.Proof.Steps
import proofs.«421925_j36627481101076_1_alg».proof.Proof.Spec
import Idealize.ShloMosaic.Lib.ValueIdx
import Idealize.ShloMosaic.Lib.ValueLayout
import Idealize.ShloMosaic.PureOps.Ideal.Laws

noncomputable section

namespace Cert.KernelIdeal.Hand.RowSums

open Idealize.ShloMosaic Idealize.ShloMosaic.TcCoe Idealize.SL.Sem Idealize.ShloMosaic.ValueIdx
open Cert.KernelIdeal Cert.KernelIdeal.Gen

open Cert.Spec

/-! ## Words -/

/-- The equality comparison's bit is set exactly when the words are equal. -/
theorem cmpi_eq_one_iff {w : ℕ} (x y : BitVec w) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (show ¬ BitVec.ofBool false = 1#1 by decide), fun h' => absurd h' h⟩

/-- Row number 512·a + p and column number 512·b + q, as 32-bit words, are equal exactly when the numbers are:
    below 2^32 nothing wraps. -/
theorem rowcol_word_eq_iff (a b : ℕ) (ha : a < 8) (hb : b < 8) (p q : Fin 512) :
    IntOp.addi (Scalar.muli (BitVec.ofNat 32 a) 512#32) (BitVec.ofNat 32 p.val)
      = IntOp.addi (Scalar.muli (BitVec.ofNat 32 b) 512#32) (BitVec.ofNat 32 q.val) ↔ a * 512 + p.val = b * 512 + q.val := by
  unfold IntOp.addi Scalar.muli IntOp.muli
  rw [← BitVec.toNat_inj]
  simp only [BitVec.toNat_add, BitVec.toNat_mul, BitVec.toNat_ofNat, Nat.reducePow, Nat.reduceMod]
  have := p.isLt; have := q.isLt
  omega

/-- "labels agree and not on the diagonal" as one bit. -/
theorem mask_bit_iff (a b : BitVec 1) : IntOp.andi a (IntOp.xori b 1#1) = 1#1 ↔ (a = 1#1 ∧ ¬ b = 1#1) := by
  revert a b; decide

/-- A bit widened to 32 bits and converted to a float is the number 1 or 0. -/
theorem bit_to_real (b : BitVec 1) : (((b.setWidth 32).toInt : ℝ) : EReal) = if b = 1#1 then 1 else 0 := by
  rcases BitVec.eq_zero_or_eq_one b with h | h
  · subst h; simp
  · subst h; simp

/-! ## Column forms of the layout operations -/

/-- A column [a,1] broadcast to [a,b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to the column [a,1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The [512,512] index over row p with lane coordinate q. -/
theorem lift_row (p q : Fin 512) : reduces_S512x512_S512.lift (ix1 p) q = ix2 p q := by
  funext c; apply Fin.ext
  match c with
  | ⟨0, _⟩ => rfl
  | ⟨1, _⟩ => rfl

/-! ## Integer and float vector operations at an index (all by definition) -/

theorem cmpi_apply {s : Shape} {w : ℕ} (pr : CmpIPredicate) (x y : IVec s w) (j : s.Idx) : cmpi pr x y j = IntOp.cmpi pr (x j) (y j) := rfl
theorem andi_apply {s : Shape} {w : ℕ} (x y : IVec s w) (j : s.Idx) : andi x y j = IntOp.andi (x j) (y j) := rfl
theorem xori_apply {s : Shape} {w : ℕ} (x y : IVec s w) (j : s.Idx) : xori x y j = IntOp.xori (x j) (y j) := rfl
theorem addi_apply {s : Shape} {w : ℕ} (x y : IVec s w) (j : s.Idx) : addi x y j = IntOp.addi (x j) (y j) := rfl
theorem exp_apply {s : Shape} {φ : FTy} (x : FVec Ideal s φ) (j : s.Idx) : exp x j = Ideal.exp (x j) := rfl
theorem sitofp_ideal {φ : FTy} {w : ℕ} (b : BitVec w) : FloatOps.sitofp (F := Ideal) φ b = ((b.toInt : ℝ) : EReal) := rfl

/-- The row-number iota at (p, q) is p … -/
theorem iota_row (p q : Fin 512) : iota .tc S512x512 32 [0] iota_S512x512_d0_w32 (ix2 p q) = BitVec.ofNat 32 p.val :=
  iota_single_apply _ _ _ 0 _ (ix2 p q)
/-- … and the column-number iota is q. -/
theorem iota_col (p q : Fin 512) : iota .tc S512x512 32 [1] iota_S512x512_d1_w32 (ix2 p q) = BitVec.ofNat 32 q.val :=
  iota_single_apply _ _ _ 1 _ (ix2 p q)

/-- The diagonal test of the block: row number 512·a + p against column number 512·b + q. -/
theorem diag_bit_iff (a b : ℕ) (ha : a < 8) (hb : b < 8) (p q : Fin 512) :
    IntOp.cmpi .eq (IntOp.addi (Scalar.muli (BitVec.ofNat 32 a) 512#32) (iota .tc S512x512 32 [0] iota_S512x512_d0_w32 (ix2 p q)))
      (IntOp.addi (Scalar.muli (BitVec.ofNat 32 b) 512#32) (iota .tc S512x512 32 [1] iota_S512x512_d1_w32 (ix2 p q))) = 1#1
      ↔ atN a p = atN b q := by
  rw [iota_row, iota_col, cmpi_eq_one_iff, rowcol_word_eq_iff _ _ ha hb]
  unfold atN
  rw [Fin.mk.injEq]
  have := p.isLt; have := q.isLt
  omega

/-! ## The payload terms at an index -/

/-- The block's row sums: at row p, the sum over the 512 columns q of the block of
    (labels agree off the diagonal, as 0 or 1) · (0 on the diagonal, else exp (−½ (pos_r − pos_c)²)),
    the row being 512 · (row block) + p and the column 512 · (column block) + q. -/
theorem k0_pay3_apply (i : grid0.Coords) (x0 : Vec Ideal S512x1 .i32) (x1 : Vec Ideal S1x512 .i32)
    (x2 : Vec Ideal S512x1 .f32) (x3 : Vec Ideal S1x512 .f32) (lab : Fin 4096 → BitVec 32) (pos : Fin 4096 → EReal)
    (h0 : ∀ p : Fin 512, x0 (ix2 p (0 : Fin 1)) = lab (atN (i 0).val p))
    (h1 : ∀ q : Fin 512, x1 (ix2 (0 : Fin 1) q) = lab (atN (i 1).val q))
    (h2 : ∀ p : Fin 512, x2 (ix2 p (0 : Fin 1)) = pos (atN (i 0).val p))
    (h3 : ∀ q : Fin 512, x3 (ix2 (0 : Fin 1) q) = pos (atN (i 1).val q))
    (p : Fin 512) :
    k0_pay3 i x0 x1 x2 x3 (ix1 p) = ∑ q : Fin 512, kM lab pos (atN (i 0).val p) (atN (i 1).val q) := by
  unfold k0_pay3
  dsimp only
  refine (Ideal.multiReduction_add_single _ _ reduces_S512x512_S512 (.inl rfl) rfl (ix1 p)).trans ?_
  show ∑ q : Fin 512, _ = _
  refine Finset.sum_congr rfl (fun q _ => ?_)
  rw [lift_row]
  simp only [mulf_apply, sitofp_apply, sitofp_ideal, extui_apply, andi_apply, cmpi_apply, xori_apply, addi_apply, select_apply, exp_apply,
    subf_apply, broadcast_apply, constantI_apply, shapeCast_self, broadcastTo_a1_ab_apply, broadcastTo_1b_ab_apply]
  have hD := diag_bit_iff (i 0).val (i 1).val (i 0).isLt (i 1).isLt p q
  rw [bit_to_real, h0, h1, h2, h3]
  unfold kM kMaskF kW Scalar.select
  refine congrArg₂ (· * ·) (if_congr ?_ rfl rfl) (if_congr hD rfl rfl)
  rw [mask_bit_iff, cmpi_eq_one_iff]
  exact and_congr Iff.rfl (not_congr hD)

/-- The carried column plus the block's row sums, at row p. -/
theorem k0_pay1_apply (v37 : Vec Ideal S512x1 .f32) (v38 : FVec Ideal S512 .f32) (p : Fin 512) :
    k0_pay1 v37 v38 (ix2 p (0 : Fin 1)) = v37 (ix2 p (0 : Fin 1)) + v38 (ix1 p) := by
  unfold k0_pay1
  rw [shapeCast_self, addf_apply, shapeCast_a_a1_apply]

/-- The reset column is the zero word everywhere. -/
theorem k0_pay2_apply (j : S512x1.Idx) : k0_pay2 (F := Ideal) j = cZero := by
  unfold k0_pay2
  rw [shapeCast_self]
  rfl

end Cert.KernelIdeal.Hand.RowSums

end
-- ==== Proof.ValueA.lean ====
/-
  The value of the first kernel's carried column: the masked weights' row sums.

  Along row block i the column is reset at column block 0 and then, at column block j, gains row
  512 i + p's sum of (mask · weight) over the 512 columns of block j.  So after block j it holds the partial
  sum over blocks 0 … j, and after block 7, when it is stored, the whole row sum.
-/
import proofs.«421925_j36627481101076_1_alg».proof.Proof.ValueA1
import proofs.«421925_j36627481101076_1_alg».proof.Proof.ValueA2

noncomputable section

namespace Cert.KernelIdeal.Hand

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

open Cert.Spec

namespace RowSums

/-- The carried column does not depend on how the point's bound is proved. -/
theorem acc0_congr (c : Dev nD) {n m : ℕ} (e : n = m) (hn : n < cfg0.N) (hm : m < cfg0.N) : acc0 V c n hn = acc0 V c m hm := by
  subst e; rfl

/-! ## One grid point -/

section Point

variable (c : Dev nD) (lab : Fin 4096 → BitVec 32) (pos : Fin 4096 → EReal)
  (h18 : ∀ r : Fin 4096, V c main_v18 (ix2 r (0 : Fin 1)) = lab r) (h19 : ∀ r : Fin 4096, V c main_v19 (ix2 (0 : Fin 1) r) = lab r)
  (h20 : ∀ r : Fin 4096, V c main_v20 (ix2 r (0 : Fin 1)) = pos r) (h21 : ∀ r : Fin 4096, V c main_v21 (ix2 (0 : Fin 1) r) = pos r)

include h18 h19 h20 h21

/-- Point t adds, to the carried column (or to zero when the column is reset there), row 512 (t/8) + p's
    sum over column block t % 8. -/
theorem step0_value (t : Fin cfg0.N) (first : Bool) (sc : Vec Ideal S512x1 .f32) (p : Fin 512) :
    step0 first (grid0.coords t) (iblk0 V c 0 t) (iblk0 V c 1 t) (iblk0 V c 2 t) (iblk0 V c 3 t) sc (ix2 p (0 : Fin 1))
      = (if first = true then cZero else sc (ix2 p (0 : Fin 1))) + ∑ q : Fin 512, kM lab pos (atN (t.val / 8) p) (atN (t.val % 8) q) := by
  have ht : t.val < 64 := t.isLt
  obtain ⟨c0, c1⟩ := coords0 t
  have e0 : ∀ p : Fin 512, iblk0 V c 0 t (ix2 p (0 : Fin 1)) = lab (atN ((grid0.coords t) 0).val p) := fun p => by
    have := p.isLt
    rw [iblk0_labCol V c t p (by omega), h18, c0]
    exact congrArg lab (Fin.ext (by show t.val / 8 * 512 + p.val = (512 * (t.val / 8) + p.val) % 4096; omega))
  have e1 : ∀ q : Fin 512, iblk0 V c 1 t (ix2 (0 : Fin 1) q) = lab (atN ((grid0.coords t) 1).val q) := fun q => by
    have := q.isLt
    rw [iblk0_labRow V c t q (by omega), h19, c1]
    exact congrArg lab (Fin.ext (by show t.val % 8 * 512 + q.val = (512 * (t.val % 8) + q.val) % 4096; omega))
  have e2 : ∀ p : Fin 512, iblk0 V c 2 t (ix2 p (0 : Fin 1)) = pos (atN ((grid0.coords t) 0).val p) := fun p => by
    have := p.isLt
    rw [iblk0_posCol V c t p (by omega), h20, c0]
    exact congrArg pos (Fin.ext (by show t.val / 8 * 512 + p.val = (512 * (t.val / 8) + p.val) % 4096; omega))
  have e3 : ∀ q : Fin 512, iblk0 V c 3 t (ix2 (0 : Fin 1) q) = pos (atN ((grid0.coords t) 1).val q) := fun q => by
    have := q.isLt
    rw [iblk0_posRow V c t q (by omega), h21, c1]
    exact congrArg pos (Fin.ext (by show t.val % 8 * 512 + q.val = (512 * (t.val % 8) + q.val) % 4096; omega))
  unfold step0
  rw [k0_pay1_apply, k0_pay3_apply (grid0.coords t) _ _ _ _ lab pos e0 e1 e2 e3 p, c0, c1]
  cases first
  · rfl
  · show k0_pay2 (F := Ideal) (ix2 p (0 : Fin 1)) + _ = cZero + _
    rw [k0_pay2_apply]

/-! ## Along a row block -/

/-- At a point that opens a row block the column starts from zero. -/
theorem acc0_first (n : ℕ) (h : n < cfg0.N) (hn : n % 8 = 0) (p : Fin 512) :
    acc0 V c n h (ix2 p (0 : Fin 1)) = cZero + ∑ q : Fin 512, kM lab pos (atN (n / 8) p) (atN (n % 8) q) := by
  cases n with
  | zero =>
    rw [acc0]
    exact step0_value V c lab pos h18 h19 h20 h21 ⟨0, h⟩ true _ p
  | succ m =>
    rw [acc0, decide_eq_true hn]
    exact step0_value V c lab pos h18 h19 h20 h21 ⟨m + 1, h⟩ true _ p

/-- At any other point it continues from the point before. -/
theorem acc0_next (n : ℕ) (h : n + 1 < cfg0.N) (hn : (n + 1) % 8 ≠ 0) (p : Fin 512) :
    acc0 V c (n + 1) h (ix2 p (0 : Fin 1))
      = acc0 V c n (Nat.lt_of_succ_lt h) (ix2 p (0 : Fin 1)) + ∑ q : Fin 512, kM lab pos (atN ((n + 1) / 8) p) (atN ((n + 1) % 8) q) := by
  rw [acc0, decide_eq_false hn]
  exact step0_value V c lab pos h18 h19 h20 h21 ⟨n + 1, h⟩ false _ p

/-- After column block j of row block i the column holds the partial row sums over blocks 0 … j. -/
theorem acc0_partial (i : Fin 8) (j : ℕ) (hj : j ≤ 7) (p : Fin 512) :
    acc0 V c (8 * i.val + j) (by have := i.isLt; show 8 * i.val + j < 64; omega) (ix2 p (0 : Fin 1)) = kMsumAcc lab pos (atN i.val p) (j + 1) := by
  have hi := i.isLt
  induction j with
  | zero =>
    rw [acc0_first V c lab pos h18 h19 h20 h21 (8 * i.val + 0) _ (by omega) p]
    rw [show (8 * i.val + 0) / 8 = i.val by omega, show (8 * i.val + 0) % 8 = 0 by omega]
    rfl
  | succ k ih =>
    have e : acc0 V c (8 * i.val + (k + 1)) (by show 8 * i.val + (k + 1) < 64; omega)
        = acc0 V c ((8 * i.val + k) + 1) (by show 8 * i.val + k + 1 < 64; omega) := acc0_congr V c (by omega) _ _
    rw [e, acc0_next V c lab pos h18 h19 h20 h21 (8 * i.val + k) _ (by omega) p, ih (by omega)]
    rw [show (8 * i.val + k + 1) / 8 = i.val by omega, show (8 * i.val + k + 1) % 8 = k + 1 by omega]
    rfl

end Point

end RowSums

open RowSums

/-- THE FIRST KERNEL'S COLUMN when row block i's last point stores it: the masked weights' row sums of rows
    512 i + p, given that the four windows' arrays hold the labels and positions (each laid out as a column and as a row). -/
theorem acc0_value (c : Dev nD) (lab : Fin 4096 → BitVec 32) (pos : Fin 4096 → EReal)
    (h18 : ∀ r : Fin 4096, V c main_v18 (ix2 r (0 : Fin 1)) = lab r) (h19 : ∀ r : Fin 4096, V c main_v19 (ix2 (0 : Fin 1) r) = lab r)
    (h20 : ∀ r : Fin 4096, V c main_v20 (ix2 r (0 : Fin 1)) = pos r) (h21 : ∀ r : Fin 4096, V c main_v21 (ix2 (0 : Fin 1) r) = pos r)
    (i : Fin 8) (p : Fin 512) :
    acc0 V c (8 * i.val + 7) (by have := i.isLt; show 8 * i.val + 7 < 64; omega) (ix2 p (0 : Fin 1)) = kMsum lab pos (atN i.val p) :=
  acc0_partial V c lab pos h18 h19 h20 h21 i 7 (le_refl 7) p

end Cert.KernelIdeal.Hand

end
-- ==== Proof.ValueB1.lean ====
/-
  The second kernel's carried-column payloads read at one row, over the extended reals.

  Each of the small payloads (the running maximum, its rescaling factor, the rescaled sum of exponentials,
  the two weighted sums, the output and the four reset values) is a chain of pointwise operations, a lane
  reduction over the 512 columns of the block, and reshapes between a 512-vector and a 512 × 1 column.
  Read at row p the reshapes disappear, the lane sum is a sum over the column offset q and the lane maximum
  a fold of max over it.
-/
import proofs.«421925_j36627481101076_1_alg».proof.Proof.Steps
import proofs.«421925_j36627481101076_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

/-! ## Column reshapes at an index -/

/-- A length-`a` vector viewed as an `a × 1` column reads, at `(p, u)`, the vector at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a × 1` column broadcast along the lanes reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a lane reduction of a 512 × 512 block: row `p` with the column `q` put back. -/
theorem lift_row (p q : Fin 512) : (reduces_S512x512_S512 : S512x512.Reduces [1] S512).lift (ix1 p) q = ix2 p q := by
  funext c
  match c with
  | ⟨0, _⟩ => rfl
  | ⟨1, _⟩ => rfl

/-- A lane sum of a 512 × 512 block at row `p`: the sum over the column offset. -/
theorem laneSum_apply (src : FVec Ideal S512x512 .f32) (hφ : FKind.Formats .f32)
    (hacc : (0x00000000#32 : BitVec 32) = 0x00000000#32) (p : Fin 512) :
    multiReduction .add [1] S512 src 0x00000000#32 reduces_S512x512_S512 hφ hacc (ix1 p) = ∑ q : Fin 512, src (ix2 p q) :=
  (Ideal.multiReduction_add_single src 0x00000000#32 reduces_S512x512_S512 hφ hacc (ix1 p)).trans
    (Finset.sum_congr rfl fun q _ => congrArg src (lift_row p q))

/-- A lane maximum of a 512 × 512 block at row `p`: the fold of `max` from `-∞` over the column offset. -/
theorem laneMax_apply (src : FVec Ideal S512x512 .f32) (hφ : FKind.Formats .f32)
    (hacc : (0xFF800000#32 : BitVec 32) = 0xFF800000#32) (p : Fin 512) :
    multiReduction .maximumf [1] S512 src 0xFF800000#32 reduces_S512x512_S512 hφ hacc (ix1 p)
      = (Finset.univ : Finset (Fin 512)).fold max Cert.Spec.cNegInf (fun q => src (ix2 p q)) :=
  (Ideal.multiReduction_maximumf_single src 0xFF800000#32 reduces_S512x512_S512 hφ hacc (ix1 p)).trans
    (congrArg (fun f => (Finset.univ : Finset (Fin 512)).fold max Cert.Spec.cNegInf f) (funext fun q => congrArg src (lift_row p q)))

/-! ## The payloads at row `p` -/

section
variable (v24 : FVec Ideal S512x512 .f32) (p : Fin 512)

/-- The running maximum: the carried one against the block's row maximum. -/
theorem pay15_apply (m : Vec Ideal S512x1 .f32) :
    k1_pay15 v24 m (ix2 p 0) = max (m (ix2 p 0)) ((Finset.univ : Finset (Fin 512)).fold max Cert.Spec.cNegInf (fun q => v24 (ix2 p q))) := by
  unfold k1_pay15
  rw [maximumf_apply, shapeCast_a_a1_apply]
  exact congrArg (max (m (ix2 p 0))) (laneMax_apply v24 _ _ p)

/-- The rescaling factor `exp (m' - m_new)`. -/
theorem pay16_apply (m m' : Vec Ideal S512x1 .f32) :
    k1_pay16 v24 m m' (ix2 p 0) = Ideal.exp (m' (ix2 p 0) - k1_pay15 v24 m (ix2 p 0)) := by
  unfold k1_pay16
  rfl

/-- The rescaled sum of exponentials. -/
theorem pay1_apply (v72 v75 : FVec Ideal S512x1 .f32) (l : Vec Ideal S512x1 .f32) :
    k1_pay1 v24 v72 v75 l (ix2 p 0) = v75 (ix2 p 0) * l (ix2 p 0) + ∑ q : Fin 512, Ideal.exp (v24 (ix2 p q) - v72 (ix2 p 0)) := by
  unfold k1_pay1
  rw [shapeCast_self, addf_apply, mulf_apply, shapeCast_a_a1_apply]
  refine congrArg (v75 (ix2 p 0) * l (ix2 p 0) + ·) ((laneSum_apply _ _ _ p).trans (Finset.sum_congr rfl fun q _ => ?_))
  show Ideal.exp (v24 (ix2 p q) - broadcastTo S512x512 v72 broadcasts_S512x1_S512x512 (ix2 p q)) = _
  rw [broadcastTo_a1_ab_apply]

theorem pay2_eq (v72 : FVec Ideal S512x1 .f32) : k1_pay2 v72 = v72 := by
  unfold k1_pay2
  rw [shapeCast_self]

theorem pay11_eq (x2 : Vec Ideal S512x1 .f32) : k1_pay11 x2 = x2 := by
  unfold k1_pay11
  rw [shapeCast_self]

/-- The output: `s1 - (m + log l) * s0`. -/
theorem pay3_apply (m l s1 s0 : Vec Ideal S512x1 .f32) :
    k1_pay3 m l s1 s0 (ix2 p 0) = s1 (ix2 p 0) - (m (ix2 p 0) + Ideal.log (l (ix2 p 0))) * s0 (ix2 p 0) := by
  unfold k1_pay3
  rfl

/-- The weighted sum of similarities: the carried one plus the block's. -/
theorem pay13_apply (v21 v33 : IVec S512x512 1) (v35 : FVec Ideal S512x1 .f32) (x3 x4 : Vec Ideal S1x512 .f32) (s1 : Vec Ideal S512x1 .f32) :
    k1_pay13 v21 v24 v33 v35 x3 x4 s1 (ix2 p 0)
      = s1 (ix2 p 0) + ∑ q : Fin 512, k1_pay12 v21 v33 v35 x3 x4 (ix2 p q) * v24 (ix2 p q) := by
  unfold k1_pay13
  rw [shapeCast_self, addf_apply, shapeCast_a_a1_apply]
  exact congrArg (s1 (ix2 p 0) + ·) (laneSum_apply _ _ _ p)

/-- The sum of weights: the carried one plus the block's. -/
theorem pay14_apply (v21 v33 : IVec S512x512 1) (v35 : FVec Ideal S512x1 .f32) (x3 x4 : Vec Ideal S1x512 .f32) (s0 : Vec Ideal S512x1 .f32) :
    k1_pay14 v21 v33 v35 x3 x4 s0 (ix2 p 0)
      = s0 (ix2 p 0) + ∑ q : Fin 512, k1_pay12 v21 v33 v35 x3 x4 (ix2 p q) := by
  unfold k1_pay14
  rw [shapeCast_self, addf_apply, shapeCast_a_a1_apply]
  exact congrArg (s0 (ix2 p 0) + ·) (laneSum_apply _ _ _ p)

/-- The reset values. -/
theorem pay4_apply : k1_pay4 (F := Ideal) (ix2 p 0) = Cert.Spec.cNegInf := by
  unfold k1_pay4
  rw [shapeCast_self]
  rfl

theorem pay5_apply : k1_pay5 (F := Ideal) (ix2 p 0) = Cert.Spec.cZero := by
  unfold k1_pay5
  rw [shapeCast_self]
  rfl

theorem pay6_apply : k1_pay6 (F := Ideal) (ix2 p 0) = Cert.Spec.cZero := by
  unfold k1_pay6
  rw [shapeCast_self]
  rfl

theorem pay7_apply : k1_pay7 (F := Ideal) (ix2 p 0) = Cert.Spec.cZero := by
  unfold k1_pay7
  rw [shapeCast_self]
  rfl

end

end Cert.KernelIdeal.Hand

end
-- ==== Proof.ValueB2.lean ====
/-
  The second kernel's masks and normalised weight at one entry of a block.

  The diagonal mask compares the row number 512 i + p with the column number 512 j + q as 32-bit words;
  both are below 4096, so the words agree exactly when the numbers do.  The label mask is the conjunction
  of label equality with the negated diagonal mask.  The weight is the mask, as the number 0 or 1, times
  the Gaussian of the position difference with the diagonal zeroed by a select, divided by the row sum
  of the column.
-/
import proofs.«421925_j36627481101076_1_alg».proof.Proof.Steps
import proofs.«421925_j36627481101076_1_alg».proof.Proof.Spec
import proofs.«421925_j36627481101076_1_alg».proof.Proof.ValueB1

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

open Cert.Spec (atN)

/-! ## One-bit words -/

theorem bit_cases (b : BitVec 1) : b = 0#1 ∨ b = 1#1 := by
  by_cases h : b = 1#1
  · exact .inr h
  · exact .inl (eq_zero_of_ne_one h)

theorem ofBool_eq_one_iff (c : Bool) : BitVec.ofBool c = 1#1 ↔ c = true := by
  cases c <;> decide

theorem andi_eq_one_iff (a b : BitVec 1) : IntOp.andi a b = 1#1 ↔ a = 1#1 ∧ b = 1#1 := by
  rcases bit_cases a with rfl | rfl <;> rcases bit_cases b with rfl | rfl <;> decide

theorem xori_one_eq_one_iff (a : BitVec 1) : IntOp.xori a 1#1 = 1#1 ↔ ¬ a = 1#1 := by
  rcases bit_cases a with rfl | rfl <;> decide

/-- A one-bit word widened and read as a signed number is `1` or `0`. -/
theorem sitofp_extui_bit (b : BitVec 1) :
    (FloatOps.sitofp (F := Ideal) .f32 (b.setWidth 32) : EReal) = if b = 1#1 then 1 else 0 := by
  rcases bit_cases b with rfl | rfl
  · show (((BitVec.setWidth 32 0#1).toInt : ℝ) : EReal) = _
    rw [if_neg (by decide)]
    norm_num
  · show (((BitVec.setWidth 32 1#1).toInt : ℝ) : EReal) = _
    rw [if_pos rfl]
    norm_num

/-! ## The diagonal mask -/

/-- The diagonal mask is set exactly where the row number equals the column number. -/
theorem pay8_eq_one_iff (i : grid1.Coords) (p q : Fin 512) :
    k1_pay8 i (ix2 p q) = 1#1 ↔ atN (i 0).val p = atN (i 1).val q := by
  have h0 : (i 0).val < 8 := (i 0).isLt
  have h1 : (i 1).val < 8 := (i 1).isLt
  unfold k1_pay8
  show IntOp.cmpi .eq
      (IntOp.addi (Scalar.muli (BitVec.ofNat 32 (i 0).val) 512#32) (iota .tc S512x512 32 [0] iota_S512x512_d0_w32 (ix2 p q)))
      (IntOp.addi (Scalar.muli (BitVec.ofNat 32 (i 1).val) 512#32) (iota .tc S512x512 32 [1] iota_S512x512_d1_w32 (ix2 p q))) = 1#1 ↔ _
  rw [iota_single_apply, iota_single_apply]
  show BitVec.ofBool (BitVec.ofNat 32 (i 0).val * 512#32 + BitVec.ofNat 32 p.val == BitVec.ofNat 32 (i 1).val * 512#32 + BitVec.ofNat 32 q.val) = 1#1 ↔ _
  rw [ofBool_eq_one_iff, beq_iff_eq, ← BitVec.toNat_inj, Fin.ext_iff]
  simp only [BitVec.toNat_add, BitVec.toNat_mul, BitVec.toNat_ofNat, atN]
  have hp := p.isLt
  have hq := q.isLt
  omega

/-! ## The label mask -/

/-- The label mask is set exactly where the labels agree off the diagonal. -/
theorem pay10_eq_one_iff (i : grid1.Coords) (x0 : Vec Ideal S512x1 .i32) (x1 : Vec Ideal S1x512 .i32) (p q : Fin 512) :
    k1_pay10 (F := Ideal) i x0 x1 (ix2 p q) = 1#1 ↔ x0 (ix2 p 0) = x1 (ix2 0 q) ∧ ¬ atN (i 0).val p = atN (i 1).val q := by
  unfold k1_pay10
  show IntOp.andi
      (IntOp.cmpi .eq (broadcastTo S512x512 (shapeCast S512x1 x0 shapeCasts_S512x1_S512x1) broadcasts_S512x1_S512x512 (ix2 p q))
        (broadcastTo S512x512 (shapeCast S1x512 x1 shapeCasts_S1x512_S1x512) broadcasts_S1x512_S512x512 (ix2 p q)))
      (IntOp.xori (k1_pay8 i (ix2 p q)) 1#1) = 1#1 ↔ _
  rw [andi_eq_one_iff, xori_one_eq_one_iff, pay8_eq_one_iff, broadcastTo_a1_ab_apply, broadcastTo_1b_ab_apply, shapeCast_self, shapeCast_self]
  show BitVec.ofBool (x0 (ix2 p 0) == x1 (ix2 0 q)) = 1#1 ∧ _ ↔ _
  rw [ofBool_eq_one_iff, beq_iff_eq]

/-! ## The normalised weight -/

/-- The normalised weight at entry `(p, q)`: the label mask as a number, times the Gaussian of the position
    difference zeroed on the diagonal, over the column's row sum. -/
theorem pay12_apply (v21 v33 : IVec S512x512 1) (v35 : FVec Ideal S512x1 .f32) (x3 x4 : Vec Ideal S1x512 .f32) (p q : Fin 512) :
    k1_pay12 v21 v33 v35 x3 x4 (ix2 p q)
      = Ideal.div ((if v33 (ix2 p q) = 1#1 then (1 : EReal) else 0)
          * (if v21 (ix2 p q) = 1#1 then Cert.Spec.cZero
             else Ideal.exp (Cert.Spec.cNegHalf * ((v35 (ix2 p 0) - x3 (ix2 0 q)) * (v35 (ix2 p 0) - x3 (ix2 0 q))))))
          (x4 (ix2 0 q)) := by
  unfold k1_pay12
  rw [divf_apply, mulf_apply, sitofp_apply, extui_apply, sitofp_extui_bit, select_apply, broadcastTo_1b_ab_apply, shapeCast_self]
  show Ideal.div (_ * (if v21 (ix2 p q) = 1#1 then _ else Ideal.exp (Cert.Spec.cNegHalf *
      ((broadcastTo S512x512 v35 broadcasts_S512x1_S512x512 (ix2 p q) - broadcastTo S512x512 x3 broadcasts_S1x512_S512x512 (ix2 p q))
        * (broadcastTo S512x512 v35 broadcasts_S512x1_S512x512 (ix2 p q) - broadcastTo S512x512 x3 broadcasts_S1x512_S512x512 (ix2 p q)))))) _ = _
  rw [broadcastTo_a1_ab_apply, broadcastTo_1b_ab_apply, shapeCast_self]
  rfl

end Cert.KernelIdeal.Hand

end
-- ==== Proof.ValueB3.lean ====
/-
  The scaled similarity block at one entry.

  The block product contracts the feature axis: entry (p, q) of (row block of Z) · (column block of Z)ᵀ is
  Σ_k Z[row p, k] · Z[column q, k]; the narrowing of the operands is the identity over the extended reals and
  the accumulator is zero.  The product is scaled by the reciprocal temperature and, on the diagonal, shifted
  down by the large constant through a select on the diagonal mask.
-/
import proofs.«421925_j36627481101076_1_alg».proof.Proof.Steps
import proofs.«421925_j36627481101076_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

/-! ## The contraction's operand indices, axis by axis -/

theorem lhs_blockdot_0 (j : S512x512.Idx) (k : dot_S512x512_S512x512_S512x512_1_0_0_1_n_n.contr.Idx) :
    (dot_S512x512_S512x512_S512x512_1_0_0_1_n_n.lhsIdx j k 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_blockdot_1 (j : S512x512.Idx) (k : dot_S512x512_S512x512_S512x512_1_0_0_1_n_n.contr.Idx) :
    (dot_S512x512_S512x512_S512x512_1_0_0_1_n_n.lhsIdx j k 1).val = (k ⟨0, by decide⟩).val :=
  dot_S512x512_S512x512_S512x512_1_0_0_1_n_n.lhsIdx_val_of_single rfl j k
theorem rhs_blockdot_0 (j : S512x512.Idx) (k : dot_S512x512_S512x512_S512x512_1_0_0_1_n_n.contr.Idx) :
    (dot_S512x512_S512x512_S512x512_1_0_0_1_n_n.rhsIdx j k 0).val = (k ⟨0, by decide⟩).val :=
  dot_S512x512_S512x512_S512x512_1_0_0_1_n_n.rhsIdx_val_of_single rfl j k
theorem rhs_blockdot_1 (j : S512x512.Idx) (k : dot_S512x512_S512x512_S512x512_1_0_0_1_n_n.contr.Idx) :
    (dot_S512x512_S512x512_S512x512_1_0_0_1_n_n.rhsIdx j k 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The block product into a zero accumulator at entry `(p, q)`: the sum over the contracted axis. -/
theorem blockdot_apply (A B : FVec Ideal S512x512 .bf16) (p q : Fin 512) :
    matmul dot_S512x512_S512x512_S512x512_1_0_0_1_n_n none A B (constant S512x512 .f32 0x00000000#32) (ix2 p q)
      = ∑ k : Fin 512, A (ix2 p k) * B (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_blockdot_0 _ _
    | ⟨1, _⟩ => exact (lhs_blockdot_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_blockdot_0 _ _).trans hk
    | ⟨1, _⟩ => exact rhs_blockdot_1 _ _)
  rw [el, er]

/-- The reciprocal temperature the kernel multiplies by is the exact rational the certificate names. -/
theorem inv_temperature : Named.named (F := Ideal) Cert.KernelIdeal.κ "inv_temperature" (φ := .f32) 0x41200000#32 = Cert.Spec.cInvT :=
  IdealRules.named_const.ideal_named_scalar _ _ _ _ rfl

/-- The scaled similarity at entry `(p, q)`, the diagonal shifted by a select on the diagonal mask. -/
theorem pay9_apply (i : grid1.Coords) (x5 x6 : Vec Ideal S512x512 .f32) (p q : Fin 512) :
    k1_pay9 i x5 x6 (ix2 p q)
      = Scalar.select (k1_pay8 i (ix2 p q))
          ((∑ k : Fin 512, x5 (ix2 p k) * x6 (ix2 q k)) * Cert.Spec.cInvT - Cert.Spec.cBig)
          ((∑ k : Fin 512, x5 (ix2 p k) * x6 (ix2 q k)) * Cert.Spec.cInvT) := by
  unfold k1_pay9
  rw [select_apply, subf_apply, mulf_apply, broadcast_apply, broadcast_apply, blockdot_apply, inv_temperature]
  have hs : (∑ k : Fin 512, truncf .bf16 (shapeCast S512x512 x5 shapeCasts_S512x512_S512x512) bitsLt_bf16_f32 (ix2 p k)
        * transpose S512x512 [1, 0] (truncf .bf16 (shapeCast S512x512 x6 shapeCasts_S512x512_S512x512) bitsLt_bf16_f32) transposes_S512x512_p1_0_S512x512 (ix2 k q))
      = ∑ k : Fin 512, x5 (ix2 p k) * x6 (ix2 q k) :=
    Finset.sum_congr rfl fun k _ => by
      rw [transpose_ix2_apply, truncf_apply, truncf_apply, shapeCast_self, shapeCast_self]
  rw [hs]
  rfl

end Cert.KernelIdeal.Hand

end
-- ==== Proof.ValueB4.lean ====
/-
  The seven input blocks of the second kernel at a grid point, read off the arrays.

  Point t of the 8 × 8 grid is row block t / 8, column block t % 8.  The label column, position column and the
  row block of Z are indexed by the row block; the label row, position row, row-sum row and the column block
  of Z by the column block.  A block's coordinate is its index times its size plus the coordinate inside it.
-/
import proofs.«421925_j36627481101076_1_alg».proof.Proof.Steps
import proofs.«421925_j36627481101076_1_alg».proof.Proof.Spec
import Idealize.ShloMosaic.Lib.ValueIdx

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

open Cert.Spec (atN)

variable (V : (c : Dev nD) → (b : Ref sig .tc) → Buf (Elt Ideal) ((c : Thread nD τ).loc b))

/-- The printed index maps over the grid: which block each window stages at point `t`. -/
theorem win1_idx : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = 0 ∧ win1_4.index t (1 : Fin 2) = t.val % 8
    ∧ win1_5.index t (0 : Fin 2) = t.val / 8 ∧ win1_5.index t (1 : Fin 2) = 0
    ∧ win1_6.index t (0 : Fin 2) = t.val % 8 ∧ win1_6.index t (1 : Fin 2) = 0 :=
  (by decide +kernel : ∀ t : Fin grid1.N, _)

/-- The grid coordinates of point `t`. -/
theorem coords1 : ∀ t : Fin cfg1.N, (grid1.coords t 0).val = t.val / 8 ∧ (grid1.coords t 1).val = t.val % 8 :=
  (by decide +kernel : ∀ t : Fin grid1.N, _)

section
variable (c : Dev nD) (t : Fin cfg1.N)

theorem iblk1_0_apply (p : Fin 512) : iblk1 V c 0 t (ix2 p 0) = V c main_v18 (ix2 (atN (t.val / 8) p) 0) := by
  have ht : t.val < 64 := t.isLt
  obtain ⟨e0, e1, -⟩ := win1_idx t
  show V c main_v18 (((cfg1.win 0).blk t).view.emb (ix2 p 0)) = V c main_v18 _
  refine congrArg (V c main_v18) (funext fun a => Fin.ext ?_)
  match a with
  | ⟨0, _⟩ => show win1_0.index t (0 : Fin 2) * 512 + 1 * p.val = (512 * (t.val / 8) + p.val) % 4096; have := p.isLt; omega
  | ⟨1, _⟩ => show win1_0.index t (1 : Fin 2) * 1 + 1 * 0 = 0; omega

theorem iblk1_1_apply (q : Fin 512) : iblk1 V c 1 t (ix2 0 q) = V c main_v19 (ix2 0 (atN (t.val % 8) q)) := by
  have ht : t.val < 64 := t.isLt
  obtain ⟨-, -, e0, e1, -⟩ := win1_idx t
  show V c main_v19 (((cfg1.win 1).blk t).view.emb (ix2 0 q)) = V c main_v19 _
  refine congrArg (V c main_v19) (funext fun a => Fin.ext ?_)
  match a with
  | ⟨0, _⟩ => show win1_1.index t (0 : Fin 2) * 1 + 1 * 0 = 0; omega
  | ⟨1, _⟩ => show win1_1.index t (1 : Fin 2) * 512 + 1 * q.val = (512 * (t.val % 8) + q.val) % 4096; have := q.isLt; omega

theorem iblk1_2_apply (p : Fin 512) : iblk1 V c 2 t (ix2 p 0) = V c main_v20 (ix2 (atN (t.val / 8) p) 0) := by
  have ht : t.val < 64 := t.isLt
  obtain ⟨-, -, -, -, e0, e1, -⟩ := win1_idx t
  show V c main_v20 (((cfg1.win 2).blk t).view.emb (ix2 p 0)) = V c main_v20 _
  refine congrArg (V c main_v20) (funext fun a => Fin.ext ?_)
  match a with
  | ⟨0, _⟩ => show win1_2.index t (0 : Fin 2) * 512 + 1 * p.val = (512 * (t.val / 8) + p.val) % 4096; have := p.isLt; omega
  | ⟨1, _⟩ => show win1_2.index t (1 : Fin 2) * 1 + 1 * 0 = 0; omega

theorem iblk1_3_apply (q : Fin 512) : iblk1 V c 3 t (ix2 0 q) = V c main_v21 (ix2 0 (atN (t.val % 8) q)) := by
  have ht : t.val < 64 := t.isLt
  obtain ⟨-, -, -, -, -, -, e0, e1, -⟩ := win1_idx t
  show V c main_v21 (((cfg1.win 3).blk t).view.emb (ix2 0 q)) = V c main_v21 _
  refine congrArg (V c main_v21) (funext fun a => Fin.ext ?_)
  match a with
  | ⟨0, _⟩ => show win1_3.index t (0 : Fin 2) * 1 + 1 * 0 = 0; omega
  | ⟨1, _⟩ => show win1_3.index t (1 : Fin 2) * 512 + 1 * q.val = (512 * (t.val % 8) + q.val) % 4096; have := q.isLt; omega

theorem iblk1_4_apply (q : Fin 512) : iblk1 V c 4 t (ix2 0 q) = V c main_v23 (ix2 0 (atN (t.val % 8) q)) := by
  have ht : t.val < 64 := t.isLt
  obtain ⟨-, -, -, -, -, -, -, -, e0, e1, -⟩ := win1_idx t
  show V c main_v23 (((cfg1.win 4).blk t).view.emb (ix2 0 q)) = V c main_v23 _
  refine congrArg (V c main_v23) (funext fun a => Fin.ext ?_)
  match a with
  | ⟨0, _⟩ => show win1_4.index t (0 : Fin 2) * 1 + 1 * 0 = 0; omega
  | ⟨1, _⟩ => show win1_4.index t (1 : Fin 2) * 512 + 1 * q.val = (512 * (t.val % 8) + q.val) % 4096; have := q.isLt; omega

theorem iblk1_5_apply (p k : Fin 512) : iblk1 V c 5 t (ix2 p k) = V c main_v16 (ix2 (atN (t.val / 8) p) k) := by
  have ht : t.val < 64 := t.isLt
  obtain ⟨-, -, -, -, -, -, -, -, -, -, e0, e1, -⟩ := win1_idx t
  show V c main_v16 (((cfg1.win 5).blk t).view.emb (ix2 p k)) = V c main_v16 _
  refine congrArg (V c main_v16) (funext fun a => Fin.ext ?_)
  match a with
  | ⟨0, _⟩ => show win1_5.index t (0 : Fin 2) * 512 + 1 * p.val = (512 * (t.val / 8) + p.val) % 4096; have := p.isLt; omega
  | ⟨1, _⟩ => show win1_5.index t (1 : Fin 2) * 512 + 1 * k.val = k.val; omega

theorem iblk1_6_apply (q k : Fin 512) : iblk1 V c 6 t (ix2 q k) = V c main_v16 (ix2 (atN (t.val % 8) q) k) := by
  have ht : t.val < 64 := t.isLt
  obtain ⟨-, -, -, -, -, -, -, -, -, -, -, -, e0, e1⟩ := win1_idx t
  show V c main_v16 (((cfg1.win 6).blk t).view.emb (ix2 q k)) = V c main_v16 _
  refine congrArg (V c main_v16) (funext fun a => Fin.ext ?_)
  match a with
  | ⟨0, _⟩ => show win1_6.index t (0 : Fin 2) * 512 + 1 * q.val = (512 * (t.val % 8) + q.val) % 4096; have := q.isLt; omega
  | ⟨1, _⟩ => show win1_6.index t (1 : Fin 2) * 512 + 1 * k.val = k.val; omega

end

end Cert.KernelIdeal.Hand

end
-- ==== Proof.ValueB.lean ====
/-
  The value of the second kernel's four carried columns and of its output block.

  Row r = 512 i + p of the augmented batch is handled at the eight grid points 8 i + j, j = 0 … 7.  After the
  point with column block j the four carried columns hold, at row p, the running maximum, the rescaled sum of
  exponentials, the weighted sum of similarities and the sum of weights over the columns 0 … 512 (j + 1) - 1:
  the four values the specification carries after j + 1 column blocks.  The proof is one step lemma (a point's
  update at row p, from the blocks' entries) and an induction over the points, the reset at column block 0
  starting each row block afresh.  The output block written at column block 7 is then the row loss.
-/
import proofs.«421925_j36627481101076_1_alg».proof.Proof.Steps
import proofs.«421925_j36627481101076_1_alg».proof.Proof.Spec
import proofs.«421925_j36627481101076_1_alg».proof.Proof.ValueB1
import proofs.«421925_j36627481101076_1_alg».proof.Proof.ValueB2
import proofs.«421925_j36627481101076_1_alg».proof.Proof.ValueB3
import proofs.«421925_j36627481101076_1_alg».proof.Proof.ValueB4

noncomputable section

namespace Cert.KernelIdeal.Hand

open Idealize.ShloMosaic Idealize.ShloMosaic.TcCoe Idealize.SL.Sem
open Idealize.ShloMosaic.ValueIdx
open Cert.KernelIdeal Cert.KernelIdeal.Gen
open scoped BigOperators

open Cert.Spec

/-- Row `p` of the four carried columns holds the four values `st`. -/
def RowIs (s : St1 Ideal) (p : Fin 512) (st : EReal × EReal × EReal × EReal) : Prop :=
  s.m (ix2 p 0) = st.1 ∧ s.l (ix2 p 0) = st.2.1 ∧ s.s1 (ix2 p 0) = st.2.2.1 ∧ s.s0 (ix2 p 0) = st.2.2.2

section
variable (Z : Fin 4096 → Fin 512 → EReal) (lab : Fin 4096 → BitVec 32) (pos : Fin 4096 → EReal)

/-- The reset stores the specification's starting values. -/
theorem reset_row (p : Fin 512) (r : Fin 4096) : RowIs st1Reset p (kState Z lab pos r 0) :=
  ⟨pay4_apply p, pay5_apply p, pay6_apply p, pay7_apply p⟩

/-- A point whose reset fires updates the reset values. -/
theorem step1_true (ii : grid1.Coords) (x0 : Vec Ideal S512x1 .i32) (x1 : Vec Ideal S1x512 .i32) (x2 : Vec Ideal S512x1 .f32)
    (x3 x4 : Vec Ideal S1x512 .f32) (x5 x6 : Vec Ideal S512x512 .f32) (s : St1 Ideal) :
    step1 true ii x0 x1 x2 x3 x4 x5 x6 s = step1 false ii x0 x1 x2 x3 x4 x5 x6 st1Reset := rfl

/-- One grid point at row `p`: from the blocks' entries and the carried values after `j` column blocks, the
    carried values after `j + 1`. -/
theorem step1_row (ii : grid1.Coords) (i j : ℕ) (hi0 : (ii 0).val = i) (hi1 : (ii 1).val = j)
    (x0 : Vec Ideal S512x1 .i32) (x1 : Vec Ideal S1x512 .i32) (x2 : Vec Ideal S512x1 .f32)
    (x3 x4 : Vec Ideal S1x512 .f32) (x5 x6 : Vec Ideal S512x512 .f32) (s : St1 Ideal) (p : Fin 512)
    (hx0 : x0 (ix2 p 0) = lab (atN i p)) (hx1 : ∀ q, x1 (ix2 0 q) = lab (atN j q))
    (hx2 : x2 (ix2 p 0) = pos (atN i p)) (hx3 : ∀ q, x3 (ix2 0 q) = pos (atN j q))
    (hx4 : ∀ q, x4 (ix2 0 q) = kMsum lab pos (atN j q))
    (hx5 : ∀ k, x5 (ix2 p k) = Z (atN i p) k) (hx6 : ∀ q k, x6 (ix2 q k) = Z (atN j q) k)
    (hs : RowIs s p (kState Z lab pos (atN i p) j)) :
    RowIs (step1 false ii x0 x1 x2 x3 x4 x5 x6 s) p (kState Z lab pos (atN i p) (j + 1)) := by
  obtain ⟨hm, hl, hs1, hs0⟩ := hs
  have e8 : ∀ q, k1_pay8 ii (ix2 p q) = 1#1 ↔ atN i p = atN j q := fun q => by rw [pay8_eq_one_iff, hi0, hi1]
  have hS : ∀ q, k1_pay9 ii x5 x6 (ix2 p q) = kS Z (atN i p) (atN j q) := fun q => by
    rw [pay9_apply]
    unfold kS kDot
    simp only [hx5, hx6]
    by_cases h : atN i p = atN j q
    · rw [if_pos h, (e8 q).mpr h, select_one]
    · rw [if_neg h, eq_zero_of_ne_one (mt (e8 q).mp h), select_zero]
  have hF : ∀ q, k1_pay12 (k1_pay8 ii) (k1_pay10 ii x0 x1) (k1_pay11 x2) x3 x4 (ix2 p q) = kFw lab pos (atN i p) (atN j q) := fun q => by
    have e10 : k1_pay10 ii x0 x1 (ix2 p q) = 1#1 ↔ lab (atN i p) = lab (atN j q) ∧ atN i p ≠ atN j q := by
      rw [pay10_eq_one_iff, hi0, hi1, hx0, hx1]
    rw [pay12_apply, pay11_eq, hx2, hx3, hx4]
    unfold kFw kM kMaskF kW
    simp only [e8, e10]
  refine ⟨?_, ?_, ?_, ?_⟩
  · show k1_pay2 (k1_pay15 (k1_pay9 ii x5 x6) s.m) (ix2 p 0) = _
    rw [pay2_eq, pay15_apply, hm]
    simp only [hS]
    rfl
  · show k1_pay1 (k1_pay9 ii x5 x6) (k1_pay15 (k1_pay9 ii x5 x6) s.m) (k1_pay16 (k1_pay9 ii x5 x6) s.m s.m) s.l (ix2 p 0) = _
    rw [pay1_apply, pay16_apply, pay15_apply, hm, hl]
    simp only [hS]
    rfl
  · show k1_pay13 (k1_pay8 ii) (k1_pay9 ii x5 x6) (k1_pay10 ii x0 x1) (k1_pay11 x2) x3 x4 s.s1 (ix2 p 0) = _
    rw [pay13_apply, hs1]
    simp only [hS, hF]
    rfl
  · show k1_pay14 (k1_pay8 ii) (k1_pay10 ii x0 x1) (k1_pay11 x2) x3 x4 s.s0 (ix2 p 0) = _
    rw [pay14_apply, hs0]
    simp only [hF]
    rfl

end

section
variable (V : (c : Dev nD) → (b : Ref sig .tc) → Buf (Elt Ideal) ((c : Thread nD τ).loc b)) (c : Dev nD)
variable (Z : Fin 4096 → Fin 512 → EReal) (lab : Fin 4096 → BitVec 32) (pos : Fin 4096 → EReal)
variable (h16 : ∀ (r : Fin 4096) (k : Fin 512), V c main_v16 (ix2 r k) = Z r k)
variable (h18 : ∀ r : Fin 4096, V c main_v18 (ix2 r 0) = lab r) (h19 : ∀ r : Fin 4096, V c main_v19 (ix2 0 r) = lab r)
variable (h20 : ∀ r : Fin 4096, V c main_v20 (ix2 r 0) = pos r) (h21 : ∀ r : Fin 4096, V c main_v21 (ix2 0 r) = pos r)
variable (h23 : ∀ r : Fin 4096, V c main_v23 (ix2 0 r) = kMsum lab pos r)

include h16 h18 h19 h20 h21 h23

/-- The step lemma at grid point `t`, its blocks read off the arrays. -/
theorem point_row (t : Fin cfg1.N) (i j : ℕ) (hi : t.val / 8 = i) (hj : t.val % 8 = j) (s : St1 Ideal) (p : Fin 512)
    (hs : RowIs s p (kState Z lab pos (atN i p) j)) :
    RowIs (step1 false (grid1.coords t) (iblk1 V c 0 t) (iblk1 V c 1 t) (iblk1 V c 2 t) (iblk1 V c 3 t) (iblk1 V c 4 t)
      (iblk1 V c 5 t) (iblk1 V c 6 t) s) p (kState Z lab pos (atN i p) (j + 1)) := by
  subst hi hj
  exact step1_row Z lab pos (grid1.coords t) (t.val / 8) (t.val % 8) (coords1 t).1 (coords1 t).2 _ _ _ _ _ _ _ s p
    (by rw [iblk1_0_apply, h18]) (fun q => by rw [iblk1_1_apply, h19]) (by rw [iblk1_2_apply, h20])
    (fun q => by rw [iblk1_3_apply, h21]) (fun q => by rw [iblk1_4_apply, h23])
    (fun k => by rw [iblk1_5_apply, h16]) (fun q k => by rw [iblk1_6_apply, h16]) hs

/-- After point `n` the carried columns hold, at row `p`, the specification's values of row `512 (n / 8) + p`
    after `n % 8 + 1` column blocks. -/
theorem st1_row : ∀ (n : ℕ) (h : n < cfg1.N) (p : Fin 512),
    RowIs (st1 V c n h) p (kState Z lab pos (atN (n / 8) p) (n % 8 + 1)) := by
  intro n
  induction n with
  | zero =>
    intro h p
    show RowIs (step1 true (grid1.coords ⟨0, h⟩) (iblk1 V c 0 ⟨0, h⟩) (iblk1 V c 1 ⟨0, h⟩) (iblk1 V c 2 ⟨0, h⟩) (iblk1 V c 3 ⟨0, h⟩)
      (iblk1 V c 4 ⟨0, h⟩) (iblk1 V c 5 ⟨0, h⟩) (iblk1 V c 6 ⟨0, h⟩) st1Reset) p _
    rw [step1_true]
    exact point_row V c Z lab pos h16 h18 h19 h20 h21 h23 ⟨0, h⟩ 0 0 (Nat.zero_div 8) (Nat.zero_mod 8) st1Reset p (reset_row Z lab pos p _)
  | succ n ih =>
    intro h p
    show RowIs (step1 (decide ((n + 1) % 8 = 0)) (grid1.coords ⟨n + 1, h⟩) (iblk1 V c 0 ⟨n + 1, h⟩) (iblk1 V c 1 ⟨n + 1, h⟩)
      (iblk1 V c 2 ⟨n + 1, h⟩) (iblk1 V c 3 ⟨n + 1, h⟩) (iblk1 V c 4 ⟨n + 1, h⟩) (iblk1 V c 5 ⟨n + 1, h⟩) (iblk1 V c 6 ⟨n + 1, h⟩)
      (st1 V c n (Nat.lt_of_succ_lt h))) p _
    by_cases hz : (n + 1) % 8 = 0
    · rw [decide_eq_true hz, step1_true, hz]
      exact point_row V c Z lab pos h16 h18 h19 h20 h21 h23 ⟨n + 1, h⟩ ((n + 1) / 8) 0 rfl hz st1Reset p (reset_row Z lab pos p _)
    · have e1 : (n + 1) / 8 = n / 8 := by omega
      have e2 : (n + 1) % 8 = n % 8 + 1 := by omega
      rw [decide_eq_false hz, e1, e2]
      exact point_row V c Z lab pos h16 h18 h19 h20 h21 h23 ⟨n + 1, h⟩ (n / 8) (n % 8 + 1) e1 e2 _ p (ih (Nat.lt_of_succ_lt h) p)

/-- The output block written at column block 7 of row block `i` holds, at row `p`, the row loss of row `512 i + p`. -/
theorem out1_value (i : Fin 8) (p : Fin 512) :
    out1 (st1 V c (8 * i.val + 7) (by show 8 * i.val + 7 < grid1.N; rw [N_1]; omega)) (ix2 p 0)
      = kRowLoss Z lab pos (atN i.val p) := by
  obtain ⟨hm, hl, hs1, hs0⟩ := st1_row V c Z lab pos h16 h18 h19 h20 h21 h23 (8 * i.val + 7)
    (by show 8 * i.val + 7 < grid1.N; rw [N_1]; omega) p
  have e1 : (8 * i.val + 7) / 8 = i.val := by omega
  have e2 : (8 * i.val + 7) % 8 + 1 = 8 := by omega
  rw [e1, e2] at hm hl hs1 hs0
  show k1_pay3 _ _ _ _ (ix2 p 0) = _
  rw [pay3_apply, hm, hl, hs1, hs0]
  rfl

end

end Cert.KernelIdeal.Hand

end
-- ==== Proof.KernelValue.lean ====
/-
  The kernel program's result as the blockwise loss of Spec.lean, and the five claims.

  The run names every unscoped buffer at the end; the result buffer is the host tail applied to the second
  region's output array, whose row block i was written once, at column block 7, from the four carried columns;
  those are the online log-softmax state of the rows of that block, computed from Z, the labels, the positions
  and the first region's row sums, which in turn are the first region's carried column at column block 7.
-/
import proofs.«421925_j36627481101076_1_alg».proof.Defs
import proofs.«421925_j36627481101076_1_alg».proof.Proof.Spec
import proofs.«421925_j36627481101076_1_alg».proof.Proof.Steps
import proofs.«421925_j36627481101076_1_alg».proof.Proof.RegionA
import proofs.«421925_j36627481101076_1_alg».proof.Proof.RegionB
import proofs.«421925_j36627481101076_1_alg».proof.Proof.HostK
import proofs.«421925_j36627481101076_1_alg».proof.Proof.ValueA
import proofs.«421925_j36627481101076_1_alg».proof.Proof.ValueB

noncomputable section

namespace Cert.KernelIdeal.Hand

open Idealize.ShloMosaic Idealize.ShloMosaic.TcCoe Idealize.SL.Sem
open Idealize.SL Idealize.SL.RA
open Cert.KernelIdeal Cert.KernelIdeal.Gen Cert.Spec

variable (m : (ℓ : Loc nD τ sig) → Buf (Elt Ideal) ℓ) (c : Dev nD)

theorem atN_div_mod (r : Fin 4096) : atN (r.val / 512) ⟨r.val % 512, Nat.mod_lt _ (by norm_num)⟩ = r := by
  apply Fin.ext
  have := r.isLt
  simp only [atN]
  omega

/-- The first region's output array holds the whole-row sums' blockwise form. -/
theorem msum_array (r : Fin 4096) :
    (dat0 (fun c b => Gen.V1 m c b) c).arrAt 4 cfg0.N (ValueIdx.ix2 r (0 : Fin 1)) = kMsum (cat (lab0 m c)) (cat (p0 m c)) r := by
  rw [arrAt0_out]
  have h := acc0_value (fun c b => Gen.V1 m c b) c (cat (lab0 m c)) (cat (p0 m c))
    (fun r => V1_labcol m c r) (fun r => V1_labrow m c r) (fun r => V1_poscol m c r) (fun r => V1_posrow m c r)
    ⟨r.val / 512, by have := r.isLt; omega⟩ ⟨r.val % 512, Nat.mod_lt _ (by norm_num)⟩
  rw [atN_div_mod] at h
  exact h

/-- The program's result, for any contents the regions leave that agree with the two proof data's output arrays. -/
theorem kernel_value (outs : Gen.Outs (F := Ideal)) (q1 : Fin cfg1.W → PosShare TreeShare)
    (h22 : outs 2 main_v22 c = (dat0 (fun c b => Gen.V1 m c b) c).arrAt 4 cfg0.N)
    (h24 : outs 4 main_v24 c = (dat1 (fun c b => Gen.V3 m outs c b) q1 c).arrAt 7 cfg1.N) :
    Gen.V5 m outs c main_v26 ValueIdx.ix0
      = kLoss (catRows (normalize (zi0 m c)) (normalize (zj0 m c))) (cat (lab0 m c)) (cat (p0 m c)) := by
  rw [V5_loss]
  unfold kLoss
  congr 2
  refine Finset.sum_congr rfl fun r _ => ?_
  show outs 4 main_v24 c (ValueIdx.ix2 r (0 : Fin 1)) = _
  rw [h24, arrAt1_out]
  have h := out1_value (fun c b => Gen.V3 m outs c b) c (catRows (normalize (zi0 m c)) (normalize (zj0 m c))) (cat (lab0 m c)) (cat (p0 m c))
    (fun r k => by rw [V3_keeps m c outs main_v16 (by decide)]; exact V1_Z m c r k)
    (fun r => by rw [V3_keeps m c outs main_v18 (by decide)]; exact V1_labcol m c r)
    (fun r => by rw [V3_keeps m c outs main_v19 (by decide)]; exact V1_labrow m c r)
    (fun r => by rw [V3_keeps m c outs main_v20 (by decide)]; exact V1_poscol m c r)
    (fun r => by rw [V3_keeps m c outs main_v21 (by decide)]; exact V1_posrow m c r)
    (fun r => by rw [V3_msumrow, h22]; exact msum_array m c r)
    ⟨r.val / 512, by have := r.isLt; omega⟩ ⟨r.val % 512, Nat.mod_lt _ (by norm_num)⟩
  rw [atN_div_mod] at h
  exact h

end Cert.KernelIdeal.Hand

end
-- ==== Proof.RefValueA.lean ====
/-
  The dense program's similarity matrix, read at an index.

  Each stage of the dense program is read at one index from its operands at an index; composing the readings,
  the row-normalised inputs are `Spec.normalize` of the two arguments, the three 2048 × 2048 blocks are the scaled
  inner products of normalised rows (the two symmetric ones with the large constant taken off the diagonal), and the
  4096 × 4096 matrix assembled from them is `Spec.rSim`: rows and columns below 2048 belong to the first view, the rest
  to the second, and the lower-left block is the transpose of the upper-right one.
-/
import proofs.«421925_j36627481101076_1_alg».proof.Proof.RefRead
import proofs.«421925_j36627481101076_1_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- Row-wise normalisation of the first argument, read at (a, k). -/
theorem v7_at (x0 : (⟨S2048x512, .f32⟩ : BufTy).Contents (Elt Ideal)) (a : Fin 2048) (k : Fin 512) :
    val_main_v7 (F := Ideal) x0 (ix2 a k) = Cert.Spec.normalize (fun a k => x0 (ix2 a k)) a k := by
  have e : ∀ k' : Fin 512, idx_main_v1 (idx_main_v2 (idx_main_v6 (ix2 a k))) k' = ix2 a k' := fun k' => by
    funext d; match d with | ⟨0, _⟩ => rfl | ⟨1, _⟩ => rfl
  rw [val_main_v7_apply, val_main_v6_apply, val_main_v5_apply, val_main_v3_apply, val_main_v2_apply, val_main_v1_apply,
    val_main_v4_apply, val_main_cst_0_apply, val_main_cst_apply]
  simp only [val_main_v0_apply, e, Ideal.hostDivf_def, Ideal.maximumf_def, Ideal.hostUnary_sqrt_def, Ideal.mulf_def, Ideal.ofBits_def]
  rfl

/-- Row-wise normalisation of the second argument, read at (a, k). -/
theorem v15_at (x1 : (⟨S2048x512, .f32⟩ : BufTy).Contents (Elt Ideal)) (a : Fin 2048) (k : Fin 512) :
    val_main_v15 (F := Ideal) x1 (ix2 a k) = Cert.Spec.normalize (fun a k => x1 (ix2 a k)) a k := by
  have e : ∀ k' : Fin 512, idx_main_v9 (idx_main_v10 (idx_main_v14 (ix2 a k))) k' = ix2 a k' := fun k' => by
    funext d; match d with | ⟨0, _⟩ => rfl | ⟨1, _⟩ => rfl
  rw [val_main_v15_apply, val_main_v14_apply, val_main_v13_apply, val_main_v11_apply, val_main_v10_apply, val_main_v9_apply,
    val_main_v12_apply, val_main_cst_2_apply, val_main_cst_1_apply]
  simp only [val_main_v8_apply, e, Ideal.hostDivf_def, Ideal.maximumf_def, Ideal.hostUnary_sqrt_def, Ideal.mulf_def, Ideal.ofBits_def]
  rfl

/-- Two words below 2^32 built from naturals below 2048 agree only when the naturals do. -/
theorem ofNat_inj_2048 {a b : Fin 2048} (e : BitVec.ofNat 32 a.val = BitVec.ofNat 32 b.val) : a = b := by
  apply Fin.ext
  have := congrArg BitVec.toNat e
  simp only [BitVec.toNat_ofNat] at this
  have ha := a.isLt; have hb := b.isLt
  omega

/-- The 2048 × 2048 identity (an iota compared with an iota, converted), read at (a, b). -/
theorem v21_at (a b : Fin 2048) : val_main_v21 (F := Ideal) (ix2 a b) = Cert.Spec.rEyeN a b := by
  rw [val_main_v21_apply, val_main_v20_apply, val_main_v19_apply, val_main_v18_apply, val_main_c_apply, val_main_v16_apply,
    val_main_v17_apply]
  show FloatOps.uitofp (F := Ideal) .f32 (IntOp.cmpi .eq (IntOp.addi (BitVec.ofNat 32 a.val) 0#32) (BitVec.ofNat 32 b.val)) = _
  have hadd : IntOp.addi (BitVec.ofNat 32 a.val) 0#32 = BitVec.ofNat 32 a.val := by
    unfold IntOp.addi; exact BitVec.add_zero _
  rw [hadd]
  unfold Cert.Spec.rEyeN
  by_cases h : a = b
  · subst h
    rw [if_pos rfl, (IntOp.cmpi_eq).2 rfl]
    show (((1#1 : BitVec 1).toNat : ℝ) : EReal) = 1
    simp
  · rw [if_neg h]
    have hne : ¬ IntOp.cmpi .eq (BitVec.ofNat 32 a.val) (BitVec.ofNat 32 b.val) = 1#1 := by
      rw [IntOp.cmpi_eq]; exact fun e => h (ofNat_inj_2048 e)
    rw [eq_zero_of_ne_one hne]
    show (((0#1 : BitVec 1).toNat : ℝ) : EReal) = 0
    simp

/-- The first view against itself: scaled similarity with the large constant taken off the diagonal. -/
theorem v28_at (x0 : (⟨S2048x512, .f32⟩ : BufTy).Contents (Elt Ideal)) (a b : Fin 2048) :
    val_main_v28 (F := Ideal) x0 (ix2 a b)
      = Cert.Spec.rSimII (Cert.Spec.normalize fun a k => x0 (ix2 a k)) a b := by
  have el : ∀ k : Fin 512, lidx_main_v23 (ix2 a b) k = ix2 a k := fun k => by
    funext d; match d with | ⟨0, _⟩ => rfl | ⟨1, _⟩ => rfl
  have er : ∀ k : Fin 512, idx_main_v22 (ridx_main_v23 (ix2 a b) k) = ix2 b k := fun k => by
    funext d; match d with | ⟨0, _⟩ => rfl | ⟨1, _⟩ => rfl
  rw [val_main_v28_apply, val_main_v25_apply, val_main_v23_apply, val_main_v24_apply, val_main_cst_3_apply, val_main_v27_apply,
    val_main_v26_apply, val_main_cst_4_apply, v21_at]
  simp only [val_main_v22_apply, el, er, v7_at, Ideal.hostDivf_def, Ideal.subf_def, Ideal.mulf_def, Ideal.ofBits_def]
  rfl

/-- The second view against itself. -/
theorem v35_at (x1 : (⟨S2048x512, .f32⟩ : BufTy).Contents (Elt Ideal)) (a b : Fin 2048) :
    val_main_v35 (F := Ideal) x1 (ix2 a b)
      = Cert.Spec.rSimJJ (Cert.Spec.normalize fun a k => x1 (ix2 a k)) a b := by
  have el : ∀ k : Fin 512, lidx_main_v30 (ix2 a b) k = ix2 a k := fun k => by
    funext d; match d with | ⟨0, _⟩ => rfl | ⟨1, _⟩ => rfl
  have er : ∀ k : Fin 512, idx_main_v29 (ridx_main_v30 (ix2 a b) k) = ix2 b k := fun k => by
    funext d; match d with | ⟨0, _⟩ => rfl | ⟨1, _⟩ => rfl
  rw [val_main_v35_apply, val_main_v32_apply, val_main_v30_apply, val_main_v31_apply, val_main_cst_5_apply, val_main_v34_apply,
    val_main_v33_apply, val_main_cst_6_apply, v21_at]
  simp only [val_main_v29_apply, el, er, v15_at, Ideal.hostDivf_def, Ideal.subf_def, Ideal.mulf_def, Ideal.ofBits_def]
  rfl

/-- The first view against the second. -/
theorem v39_at (x0 x1 : (⟨S2048x512, .f32⟩ : BufTy).Contents (Elt Ideal)) (a b : Fin 2048) :
    val_main_v39 (F := Ideal) x0 x1 (ix2 a b)
      = Cert.Spec.rSimIJ (Cert.Spec.normalize fun a k => x0 (ix2 a k)) (Cert.Spec.normalize fun a k => x1 (ix2 a k)) a b := by
  have el : ∀ k : Fin 512, lidx_main_v37 (ix2 a b) k = ix2 a k := fun k => by
    funext d; match d with | ⟨0, _⟩ => rfl | ⟨1, _⟩ => rfl
  have er : ∀ k : Fin 512, idx_main_v36 (ridx_main_v37 (ix2 a b) k) = ix2 b k := fun k => by
    funext d; match d with | ⟨0, _⟩ => rfl | ⟨1, _⟩ => rfl
  rw [val_main_v39_apply, val_main_v37_apply, val_main_v38_apply, val_main_cst_7_apply]
  simp only [val_main_v36_apply, el, er, v7_at, v15_at, Ideal.hostDivf_def, Ideal.ofBits_def]
  rfl

/-- The 4096 × 4096 similarity [[ii, ij], [ijᵀ, jj]], read at (r, c): which block the index falls in. -/
theorem v84_at (x0 x1 : (⟨S2048x512, .f32⟩ : BufTy).Contents (Elt Ideal)) (r c : Fin 4096) :
    val_main_v84 (F := Ideal) x0 x1 (ix2 r c)
      = Cert.Spec.rSim (Cert.Spec.normalize fun a k => x0 (ix2 a k)) (Cert.Spec.normalize fun a k => x1 (ix2 a k)) r c := by
  unfold Cert.Spec.rSim
  by_cases hr : r.val < 2048
  · rw [dif_pos hr]
    have h84 : val_main_v84 (F := Ideal) x0 x1 (ix2 r c)
        = val_main_v81 (F := Ideal) x0 x1 (ix2 (⟨r.val, hr⟩ : Fin 2048) c) := by
      unfold val_main_v84
      exact concatenate_pair_apply_left _ _ _ concatenates_S2048x4096_S2048x4096_S4096x4096_d0 (ix2 r c) rfl
        (ix2 (⟨r.val, hr⟩ : Fin 2048) c) (fun b => by match b with | ⟨0, _⟩ => rfl | ⟨1, _⟩ => rfl)
    rw [h84]
    by_cases hc : c.val < 2048
    · rw [dif_pos hc]
      have h81 : val_main_v81 (F := Ideal) x0 x1 (ix2 (⟨r.val, hr⟩ : Fin 2048) c)
          = val_main_v28 (F := Ideal) x0 (ix2 (⟨r.val, hr⟩ : Fin 2048) (⟨c.val, hc⟩ : Fin 2048)) := by
        unfold val_main_v81
        exact concatenate_pair_apply_left _ _ _ concatenates_S2048x2048_S2048x2048_S2048x4096_d1
          (ix2 (⟨r.val, hr⟩ : Fin 2048) c) rfl (ix2 (⟨r.val, hr⟩ : Fin 2048) (⟨c.val, hc⟩ : Fin 2048))
          (fun b => by match b with | ⟨0, _⟩ => rfl | ⟨1, _⟩ => rfl)
      rw [h81, v28_at]
    · rw [dif_neg hc]
      have h81 : val_main_v81 (F := Ideal) x0 x1 (ix2 (⟨r.val, hr⟩ : Fin 2048) c)
          = val_main_v39 (F := Ideal) x0 x1 (ix2 (⟨r.val, hr⟩ : Fin 2048) (⟨c.val - 2048, by omega⟩ : Fin 2048)) := by
        unfold val_main_v81
        exact concatenate_pair_apply_right _ _ _ concatenates_S2048x2048_S2048x2048_S2048x4096_d1
          (ix2 (⟨r.val, hr⟩ : Fin 2048) c) rfl rfl (ix2 (⟨r.val, hr⟩ : Fin 2048) (⟨c.val - 2048, by omega⟩ : Fin 2048))
          (fun b hb => by match b with | ⟨0, _⟩ => rfl | ⟨1, _⟩ => exact absurd rfl hb)
          (by show c.val - 2048 + 2048 = c.val; omega)
      rw [h81, v39_at]
  · rw [dif_neg hr]
    have h84 : val_main_v84 (F := Ideal) x0 x1 (ix2 r c)
        = val_main_v83 (F := Ideal) x0 x1 (ix2 (⟨r.val - 2048, by omega⟩ : Fin 2048) c) := by
      unfold val_main_v84
      exact concatenate_pair_apply_right _ _ _ concatenates_S2048x4096_S2048x4096_S4096x4096_d0 (ix2 r c) rfl rfl
        (ix2 (⟨r.val - 2048, by omega⟩ : Fin 2048) c)
        (fun b hb => by match b with | ⟨0, _⟩ => exact absurd rfl hb | ⟨1, _⟩ => rfl)
        (by show r.val - 2048 + 2048 = r.val; omega)
    rw [h84]
    by_cases hc : c.val < 2048
    · rw [dif_pos hc]
      have h83 : val_main_v83 (F := Ideal) x0 x1 (ix2 (⟨r.val - 2048, by omega⟩ : Fin 2048) c)
          = val_main_v82 (F := Ideal) x0 x1 (ix2 (⟨r.val - 2048, by omega⟩ : Fin 2048) (⟨c.val, hc⟩ : Fin 2048)) := by
        unfold val_main_v83
        exact concatenate_pair_apply_left _ _ _ concatenates_S2048x2048_S2048x2048_S2048x4096_d1
          (ix2 (⟨r.val - 2048, by omega⟩ : Fin 2048) c) rfl
          (ix2 (⟨r.val - 2048, by omega⟩ : Fin 2048) (⟨c.val, hc⟩ : Fin 2048))
          (fun b => by match b with | ⟨0, _⟩ => rfl | ⟨1, _⟩ => rfl)
      have et : idx_main_v82 (ix2 (⟨r.val - 2048, by omega⟩ : Fin 2048) (⟨c.val, hc⟩ : Fin 2048))
          = ix2 (⟨c.val, hc⟩ : Fin 2048) (⟨r.val - 2048, by omega⟩ : Fin 2048) := by
        funext d; match d with | ⟨0, _⟩ => rfl | ⟨1, _⟩ => rfl
      rw [h83, val_main_v82_apply, et, v39_at]
    · rw [dif_neg hc]
      have h83 : val_main_v83 (F := Ideal) x0 x1 (ix2 (⟨r.val - 2048, by omega⟩ : Fin 2048) c)
          = val_main_v35 (F := Ideal) x1 (ix2 (⟨r.val - 2048, by omega⟩ : Fin 2048) (⟨c.val - 2048, by omega⟩ : Fin 2048)) := by
        unfold val_main_v83
        exact concatenate_pair_apply_right _ _ _ concatenates_S2048x2048_S2048x2048_S2048x4096_d1
          (ix2 (⟨r.val - 2048, by omega⟩ : Fin 2048) c) rfl rfl
          (ix2 (⟨r.val - 2048, by omega⟩ : Fin 2048) (⟨c.val - 2048, by omega⟩ : Fin 2048))
          (fun b hb => by match b with | ⟨0, _⟩ => rfl | ⟨1, _⟩ => exact absurd rfl hb)
          (by show c.val - 2048 + 2048 = c.val; omega)
      rw [h83, v35_at]

end Cert.ReferenceIdeal.RefValue

end
-- ==== Proof.RefValueB.lean ====
/-
  The dense program's log-softmax of the similarity matrix, read at an index.

  The row maximum is a fold of max from −∞ over the 4096 columns (the order of a maximum does not matter), the value
  subtracted is the maximum of −∞ and that fold, the shifted matrix is exponentiated and summed along each row from
  zero, and the logarithm of the sum is subtracted from the shifted entry: stage by stage these are `Spec.rMax`,
  `Spec.rShift`, `Spec.rLse` and `Spec.rLogSm`.
-/
import proofs.«421925_j36627481101076_1_alg».proof.Proof.RefValueA

noncomputable section

namespace Cert.ReferenceIdeal.RefValue

open Cert.ReferenceIdeal Cert.ReferenceIdeal.Gen Cert.ReferenceIdeal.ReadP Idealize.ShloMosaic Idealize.ShloMosaic.ValueIdx

/-- The row maximum as the reduce computes it: the fold of max from −∞ over the columns. -/
theorem call1_v0_at (x0 x1 : (⟨S2048x512, .f32⟩ : BufTy).Contents (Elt Ideal)) (r : Fin 4096) :
    val_main_call1_v0 (F := Ideal) x0 x1 (ix1 r)
      = (Finset.univ : Finset (Fin 4096)).fold max Cert.Spec.cNegInf
          (fun c => val_main_v84 (F := Ideal) x0 x1 (ix2 r c)) := by
  have hR : S4096x4096.Reduces [1] S4096 := by decide
  have key := Host.reduce_eq_fold_single (FloatOps.maximumf (F := Ideal) (φ := .f32)) (val_main_v84 (F := Ideal) x0 x1)
    (val_main_call1_cst (F := Ideal)) reducesTo_S4096x4096_S4096_d1 hR h_S_ (ix1 r)
  unfold val_main_call1_v0
  refine key.trans ?_
  exact Finset.fold_congr (fun c _ => congrArg (val_main_v84 (F := Ideal) x0 x1)
    (funext fun d => Fin.ext (by match d with | ⟨0, _⟩ => rfl | ⟨1, _⟩ => rfl)))
/-- The maximum the shift subtracts: max(−∞, row maximum). -/
theorem call1_v2_at (x0 x1 : (⟨S2048x512, .f32⟩ : BufTy).Contents (Elt Ideal)) (r : Fin 4096) :
    val_main_call1_v2 (F := Ideal) x0 x1 (ix1 r)
      = Cert.Spec.rMax (Cert.Spec.normalize fun a k => x0 (ix2 a k)) (Cert.Spec.normalize fun a k => x1 (ix2 a k)) r := by
  rw [val_main_call1_v2_apply, val_main_call1_v1_apply, val_main_call1_cst_0_apply, call1_v0_at]
  simp only [v84_at, Ideal.maximumf_def, Ideal.ofBits_def]
  rfl

/-- The shifted similarity. -/
theorem call1_v5_at (x0 x1 : (⟨S2048x512, .f32⟩ : BufTy).Contents (Elt Ideal)) (r c : Fin 4096) :
    val_main_call1_v5 (F := Ideal) x0 x1 (ix2 r c)
      = Cert.Spec.rShift (Cert.Spec.normalize fun a k => x0 (ix2 a k)) (Cert.Spec.normalize fun a k => x1 (ix2 a k)) r c := by
  have e : idx_main_call1_v3 (idx_main_call1_v4 (ix2 r c)) = ix1 r := by
    funext d; match d with | ⟨0, _⟩ => rfl
  rw [val_main_call1_v5_apply, val_main_call1_v4_apply, val_main_call1_v3_apply, e, call1_v2_at, v84_at]
  rfl

/-- The logarithm of the row's sum of exponentials. -/
theorem call1_v9_at (x0 x1 : (⟨S2048x512, .f32⟩ : BufTy).Contents (Elt Ideal)) (r : Fin 4096) :
    val_main_call1_v9 (F := Ideal) x0 x1 (ix2 r (0 : Fin 1))
      = Cert.Spec.rLse (Cert.Spec.normalize fun a k => x0 (ix2 a k)) (Cert.Spec.normalize fun a k => x1 (ix2 a k)) r := by
  have e8 : idx_main_call1_v8 (ix2 r (0 : Fin 1)) = ix1 r := by
    funext d; match d with | ⟨0, _⟩ => rfl
  have e7 : ∀ k : Fin 4096, idx_main_call1_v7 (ix1 r) k = ix2 r k := fun k => by
    funext d; match d with | ⟨0, _⟩ => rfl | ⟨1, _⟩ => rfl
  rw [val_main_call1_v9_apply, val_main_call1_v8_apply, e8, val_main_call1_v7_apply, val_main_call1_cst_1_apply]
  simp only [val_main_call1_v6_apply, e7, call1_v5_at, Ideal.hostUnary_log_def, Ideal.hostUnary_exp_def, Ideal.ofBits_def]
  rfl

/-- The log-softmax of the similarity along its rows. -/
theorem v85_at (x0 x1 : (⟨S2048x512, .f32⟩ : BufTy).Contents (Elt Ideal)) (r c : Fin 4096) :
    val_main_v85 (F := Ideal) x0 x1 (ix2 r c)
      = Cert.Spec.rLogSm (Cert.Spec.normalize fun a k => x0 (ix2 a k)) (Cert.Spec.normalize fun a k => x1 (ix2 a k)) r c := by
  have e : idx_main_call1_v10 (ix2 r c) = ix2 r (0 : Fin 1) := by
    funext d; match d with | ⟨0, _⟩ => rfl | ⟨1, _⟩ => rfl
  rw [val_main_v85_apply, val_main_call1_v10_apply, e, call1_v9_at, call1_v5_at]
  rfl

end Cert.ReferenceIdeal.RefValue

end
-- ==== Proof.RefStageW.lean ====
/-
  The weights side of the dense reference, read one element at a time.

  Every stage of the reference between the one-hot labels and the normalised weights is an array over the
  augmented batch (rows and columns in `Fin 4096`).  Each lemma below reads one stage at a symbolic index and
  identifies it with the plain function of `Spec` of the same name: the one-hot rows laid out twice, the identity
  matrix as the indicator of `r = c`, the label-agreement mask `(Σ_k L r k · L c k) · (1 − eye)`, the positions laid
  out twice, their squares, the clamped squared distance, the Gaussian weight off the diagonal, the product of
  weight and mask, its row sums, and the quotient by the row sum OF THE COLUMN.
-/
import proofs.«421925_j36627481101076_1_alg».proof.Proof.RefRead
import proofs.«421925_j36627481101076_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

/-! ## Words and layout -/

/-- A one-bit equality test converted to a number is the indicator of the equality. -/
theorem uitofp_cmpi_eq (x y : BitVec 32) :
    (FloatOps.uitofp (F := Ideal) .f32 (IntOp.cmpi .eq x y) : EReal) = if x = y then 1 else 0 := by
  show (((IntOp.cmpi .eq x y).toNat : ℝ) : EReal) = _
  unfold IntOp.cmpi
  by_cases h : x = y
  · subst h; simp
  · have : (x == y) = false := by simpa using h
    simp [this, h]

/-- Row numbers below 4096 are told apart by their 32-bit words. -/
theorem ofNat_inj (r c : Fin 4096) : BitVec.ofNat 32 r.val = BitVec.ofNat 32 c.val ↔ r = c := by
  constructor
  · intro h
    have h' := congrArg BitVec.toNat h
    simp only [BitVec.toNat_ofNat] at h'
    have hr := r.isLt; have hc := c.isLt
    exact Fin.ext (by omega)
  · rintro rfl; rfl

/-- Two copies of one 2048-row array stacked, read in the first copy. -/
theorem cat_apply_lt {α : Type} (y : S2048x4.Idx → α) (r : Fin 4096) (k : Fin 4) (h : r.val < 2048) :
    concatenate S4096x4 0 [⟨S2048x4, y⟩, ⟨S2048x4, y⟩] concatenates_S2048x4_S2048x4_S4096x4_d0 (ix2 r k)
      = y (ix2 ⟨r.val, h⟩ k) :=
  concatenate_pair_apply_left 0 y y concatenates_S2048x4_S2048x4_S4096x4_d0 (ix2 r k) rfl (ix2 ⟨r.val, h⟩ k)
    (fun b => by match b with | ⟨0, _⟩ => rfl | ⟨1, _⟩ => rfl)

/-- Two copies of one 2048-row array stacked, read in the second copy. -/
theorem cat_apply_ge {α : Type} (y : S2048x4.Idx → α) (r : Fin 4096) (k : Fin 4) (h : ¬ r.val < 2048) :
    concatenate S4096x4 0 [⟨S2048x4, y⟩, ⟨S2048x4, y⟩] concatenates_S2048x4_S2048x4_S4096x4_d0 (ix2 r k)
      = y (ix2 ⟨r.val - 2048, by have := r.isLt; omega⟩ k) :=
  concatenate_pair_apply_right 0 y y concatenates_S2048x4_S2048x4_S4096x4_d0 (ix2 r k) rfl rfl
    (ix2 ⟨r.val - 2048, by have := r.isLt; omega⟩ k)
    (fun b hb => by match b, hb with | ⟨0, _⟩, hb => exact absurd rfl hb | ⟨1, _⟩, _ => rfl)
    (by show r.val - 2048 + 2048 = r.val; omega)

/-! ## The label side -/

section Labels

variable (x2 : (⟨S2048, .i32⟩ : BufTy).Contents (Elt Ideal))

/-- The one-hot rows: entry `(a, k)` is 1 exactly when label `a` is the word `k`. -/
theorem stage_onehot (a : Fin 2048) (k : Fin 4) :
    val_main_v40 (F := Ideal) x2 (ix2 a k) = Cert.Spec.rOneHot (fun a => x2 (ix1 a)) a k := by
  rw [val_main_v40_apply, val_main_call0_v4_apply, val_main_call0_v2_apply, val_main_call0_v0_apply,
    val_main_call0_v3_apply, val_main_call0_v1_apply, uitofp_cmpi_eq]
  have e : idx_main_call0_v0 (idx_main_call0_v2 (ix2 a k)) = ix1 a :=
    funext fun d => Fin.ext (by match d with | ⟨0, _⟩ => rfl)
  rw [e]
  rfl

/-- The one-hot rows laid out twice. -/
theorem stage_L (r : Fin 4096) (k : Fin 4) :
    val_main_v41 (F := Ideal) x2 (ix2 r k) = Cert.Spec.rL (fun a => x2 (ix1 a)) r k := by
  unfold val_main_v41 Cert.Spec.rL Cert.Spec.cat
  by_cases h : r.val < 2048
  · rw [cat_apply_lt _ r k h, stage_onehot, dif_pos h]
  · rw [cat_apply_ge _ r k h, stage_onehot, dif_neg h]

/-- The identity matrix: the indicator of `r = c`. -/
theorem stage_eye (r c : Fin 4096) :
    val_main_v47 (F := Ideal) (ix2 r c) = Cert.Spec.rEye r c := by
  rw [val_main_v47_apply, val_main_v46_apply, val_main_v45_apply, val_main_v42_apply, val_main_v44_apply,
    val_main_c_8_apply, val_main_v43_apply, uitofp_cmpi_eq]
  unfold Cert.Spec.rEye
  have e : IntOp.addi (BitVec.ofNat 32 ((ix2 r c) 0).val) 0#32 = BitVec.ofNat 32 r.val := BitVec.add_zero _
  rw [e]
  show (if BitVec.ofNat 32 r.val = BitVec.ofNat 32 c.val then (1 : EReal) else 0) = _
  by_cases h : r = c
  · rw [if_pos h, if_pos ((ofNat_inj r c).2 h)]
  · rw [if_neg h, if_neg (fun h' => h ((ofNat_inj r c).1 h'))]

/-- The label-agreement mask off the diagonal. -/
theorem stage_mask (r c : Fin 4096) :
    val_main_v52 (F := Ideal) x2 (ix2 r c) = Cert.Spec.rMask (fun a => x2 (ix1 a)) r c := by
  rw [val_main_v52_apply, val_main_v49_apply, val_main_v51_apply, val_main_v50_apply, val_main_cst_9_apply, stage_eye]
  simp only [Ideal.mulf_def, Ideal.subf_def, Ideal.ofBits_def]
  unfold Cert.Spec.rMask Cert.Spec.cOne
  refine congrArg (· * _) (Finset.sum_congr rfl fun k _ => ?_)
  have el : lidx_main_v49 (ix2 r c) k = ix2 r k :=
    funext fun d => Fin.ext (by match d with | ⟨0, _⟩ => rfl | ⟨1, _⟩ => rfl)
  have er : idx_main_v48 (ridx_main_v49 (ix2 r c) k) = ix2 c k :=
    funext fun d => Fin.ext (by match d with | ⟨0, _⟩ => rfl | ⟨1, _⟩ => rfl)
  rw [val_main_v48_apply, el, er, stage_L, stage_L]

end Labels

/-! ## The position side -/

section Positions

variable (x3 : (⟨S2048x1, .f32⟩ : BufTy).Contents (Elt Ideal))

/-- The positions laid out twice: row `r` reads position `r` or `r − 2048`. -/
theorem stage_pos (r : Fin 4096) :
    val_main_v55 (F := Ideal) x3 (ix2 r 0) = Cert.Spec.rPos (fun a => x3 (ix2 a 0)) r := by
  rw [val_main_v55_apply, val_main_v54_apply, val_main_v53_apply]
  unfold Cert.Spec.rPos Cert.Spec.cat
  have hr := r.isLt
  by_cases h : r.val < 2048
  · rw [dif_pos h]
    refine congrArg x3 (funext fun d => Fin.ext ?_)
    match d with
    | ⟨0, _⟩ =>
      show ((((0 * 2048 + (r.val * 1 + 0) / 1 % 2048) * 1 + 0) * 1 + 0) / 1 : Nat) = r.val
      omega
    | ⟨1, _⟩ => rfl
  · rw [dif_neg h]
    refine congrArg x3 (funext fun d => Fin.ext ?_)
    match d with
    | ⟨0, _⟩ =>
      show ((((0 * 2048 + (r.val * 1 + 0) / 1 % 2048) * 1 + 0) * 1 + 0) / 1 : Nat) = r.val - 2048
      omega
    | ⟨1, _⟩ => rfl

/-- The squared position: the zero word plus a one-term sum. -/
theorem stage_sq (r : Fin 4096) :
    val_main_v57 (F := Ideal) x3 (ix1 r) = Cert.Spec.rSq (fun a => x3 (ix2 a 0)) r := by
  rw [val_main_v57_apply, val_main_cst_10_apply]
  unfold Cert.Spec.rSq Cert.Spec.cZero
  simp only [Ideal.ofBits_def]
  refine congrArg (_ + ·) (Finset.sum_congr rfl fun k _ => ?_)
  have e : idx_main_v57 (ix1 r) k = ix2 r 0 :=
    funext fun d => Fin.ext (by
      match d with
      | ⟨0, _⟩ => rfl
      | ⟨1, _⟩ => show k.val = 0; omega)
  rw [val_main_v56_apply, e, stage_pos, Ideal.mulf_def]

/-- The clamped squared distance `max ((sq r + sq c) − 2 · (p r · p c)) 0`. -/
theorem stage_d2 (r c : Fin 4096) :
    val_main_v69 (F := Ideal) x3 (ix2 r c) = Cert.Spec.rD2 (fun a => x3 (ix2 a 0)) r c := by
  rw [val_main_v69_apply, val_main_v67_apply, val_main_v68_apply, val_main_cst_12_apply, val_main_v62_apply,
    val_main_v60_apply, val_main_v58_apply, val_main_v61_apply, val_main_v59_apply,
    val_main_v66_apply, val_main_v65_apply, val_main_cst_11_apply, val_main_v64_apply]
  have e0 : idx_main_v58 (idx_main_v60 (ix2 r c)) = ix1 r :=
    funext fun d => Fin.ext (by match d with | ⟨0, _⟩ => rfl)
  have e1 : idx_main_v59 (idx_main_v61 (ix2 r c)) = ix1 c :=
    funext fun d => Fin.ext (by match d with | ⟨0, _⟩ => rfl)
  rw [e0, e1, stage_sq, stage_sq]
  simp only [Ideal.maximumf_def, Ideal.subf_def, Ideal.addf_def, Ideal.mulf_def, Ideal.ofBits_def]
  unfold Cert.Spec.rD2 Cert.Spec.cTwo Cert.Spec.cZero
  refine congrArg (max · _) (congrArg (_ - ·) (congrArg (_ * ·) (Finset.sum_congr rfl fun k _ => ?_)))
  have el : lidx_main_v64 (ix2 r c) k = ix2 r 0 :=
    funext fun d => Fin.ext (by
      match d with
      | ⟨0, _⟩ => rfl
      | ⟨1, _⟩ => show k.val = 0; omega)
  have er : idx_main_v63 (ridx_main_v64 (ix2 r c) k) = ix2 c 0 :=
    funext fun d => Fin.ext (by
      match d with
      | ⟨0, _⟩ => rfl
      | ⟨1, _⟩ => show k.val = 0; omega)
  rw [val_main_v63_apply, el, er, stage_pos, stage_pos]

/-- The Gaussian weight off the diagonal. -/
theorem stage_weights (r c : Fin 4096) :
    val_main_v75 (F := Ideal) x3 (ix2 r c) = Cert.Spec.rWeights (fun a => x3 (ix2 a 0)) r c := by
  rw [val_main_v75_apply, val_main_v72_apply, val_main_v71_apply, val_main_v70_apply, val_main_cst_13_apply,
    val_main_v74_apply, val_main_v73_apply, val_main_cst_14_apply, stage_d2, stage_eye]
  simp only [Ideal.mulf_def, Ideal.subf_def, Ideal.hostUnary_exp_def, Ideal.ofBits_def]
  rfl

end Positions

/-! ## Weight times mask, its row sums, and the quotient -/

section Both

variable (x2 : (⟨S2048, .i32⟩ : BufTy).Contents (Elt Ideal)) (x3 : (⟨S2048x1, .f32⟩ : BufTy).Contents (Elt Ideal))

theorem stage_fw0 (r c : Fin 4096) :
    val_main_v76 (F := Ideal) x2 x3 (ix2 r c)
      = Cert.Spec.rFw0 (fun a => x2 (ix1 a)) (fun a => x3 (ix2 a 0)) r c := by
  rw [val_main_v76_apply, stage_weights, stage_mask, Ideal.mulf_def]
  rfl

/-- The row sums: the zero word plus the sum over all 4096 columns. -/
theorem stage_rowsum (r : Fin 4096) :
    val_main_v77 (F := Ideal) x2 x3 (ix1 r)
      = Cert.Spec.rRowSum (fun a => x2 (ix1 a)) (fun a => x3 (ix2 a 0)) r := by
  rw [val_main_v77_apply, val_main_cst_15_apply]
  unfold Cert.Spec.rRowSum Cert.Spec.cZero
  simp only [Ideal.ofBits_def]
  refine congrArg (_ + ·) (Finset.sum_congr rfl fun k _ => ?_)
  have e : idx_main_v77 (ix1 r) k = ix2 r k :=
    funext fun d => Fin.ext (by match d with | ⟨0, _⟩ => rfl | ⟨1, _⟩ => rfl)
  rw [e, stage_fw0]

/-- The normalised weights: entry `(r, c)` divided by the row sum of row `c` (the sums are broadcast along columns). -/
theorem stage_fw (r c : Fin 4096) :
    val_main_v80 (F := Ideal) x2 x3 (ix2 r c)
      = Cert.Spec.rFw (fun a => x2 (ix1 a)) (fun a => x3 (ix2 a 0)) r c := by
  rw [val_main_v80_apply, val_main_v79_apply, val_main_v78_apply]
  have e : idx_main_v78 (idx_main_v79 (ix2 r c)) = ix1 c :=
    funext fun d => Fin.ext (by match d with | ⟨0, _⟩ => rfl)
  rw [e, stage_fw0, stage_rowsum, Ideal.hostDivf_def]
  rfl

end Both

end Cert.ReferenceIdeal.RefValue
-- ==== Proof.RefValue.lean ====
/-
  The dense program's result is `Spec.rLoss`.

  The last stages multiply the log-softmax by the normalised weights entry by entry, sum over both axes from zero
  (a sum over the index pairs is the double sum over rows and columns) and scale by the literal word; with the
  similarity side and the weights side read stage by stage, the returned scalar is `Spec.rLoss` of the two
  row-normalised arguments, the labels and the positions. The run of the program then ends with that value in the
  result and the four arguments as they were.
-/
import proofs.«421925_j36627481101076_1_alg».proof.Proof.RefValueB
import proofs.«421925_j36627481101076_1_alg».proof.Proof.RefStageW

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The loss: the scaled sum over every entry of log-softmax times normalised weight. -/
theorem v88_eq (x0 x1 : (⟨S2048x512, .f32⟩ : BufTy).Contents (Elt Ideal)) (x2 : (⟨S2048, .i32⟩ : BufTy).Contents (Elt Ideal))
    (x3 : (⟨S2048x1, .f32⟩ : BufTy).Contents (Elt Ideal)) :
    val_main_v88 (F := Ideal) x0 x1 x2 x3
      = fun _ => Cert.Spec.rLoss (Cert.Spec.normalize fun a k => x0 (ix2 a k)) (Cert.Spec.normalize fun a k => x1 (ix2 a k))
          (fun a => x2 (ix1 a)) (fun a => x3 (ix2 a (0 : Fin 1))) := by
  funext i
  rw [val_main_v88_apply, val_main_cst_17_apply, val_main_v87_apply, val_main_cst_16_apply, sum_idx2]
  simp only [val_main_v86_apply, v85_at, stage_fw, Ideal.mulf_def, Ideal.ofBits_def]
  rfl

/-- The dense program's run: every weakly fair execution ends with the result at `Spec.rLoss` of the normalised
    arguments, the labels and the positions, and the four arguments unchanged. -/
theorem ref_run (m' : (ℓ : Loc nD τ sig) → Buf (Elt Ideal) ℓ) (ρ' : Dev nD → PrngReg) :
    θ_run Cert.ReferenceIdeal.defs (onTc (τ := τ) (Cert.ReferenceIdeal.main (F := Ideal))) ⟨m', fun _ => 0, ρ'⟩ fun r => ∀ c : Dev nD,
      r.2.mem ((c.tc : Thread nD τ).loc main_v88)
        = (fun _ => Cert.Spec.rLoss
            (Cert.Spec.normalize fun a k => m' ((c.tc : Thread nD τ).loc main_arg0) (ix2 a k))
            (Cert.Spec.normalize fun a k => m' ((c.tc : Thread nD τ).loc main_arg1) (ix2 a k))
            (fun a => m' ((c.tc : Thread nD τ).loc main_arg2) (ix1 a))
            (fun a => m' ((c.tc : Thread nD τ).loc main_arg3) (ix2 a (0 : Fin 1))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  (θ_run Cert.ReferenceIdeal.defs _ _).mono
    (fun _ h c => ⟨(h c).1.trans ((val_main_v88_eq m' c).trans (v88_eq _ _ _ _)), (h c).2⟩)
    (Cert.ReferenceIdeal.ValueP.run (F := Ideal) m' ρ')

end Cert.ReferenceIdeal.RefValue

end
-- ==== Proof.LibFinite.lean ====
/- Finite extended reals. A value of the extended reals is FINITE when it is neither infinity, that is, when it is
   the image of a real number. The float operations read at the extended reals (sum, difference, product, quotient by a
   nonzero divisor, maximum, exponential, reciprocal square root of a positive argument, a choice between two values) keep
   finite values finite; this module states each closure fact once, together with the sign facts that go with them. -/
import Idealize.ShloMosaic.PureOps.Ideal
import Mathlib.Data.EReal.Operations
import Mathlib.Data.EReal.Inv
import Mathlib.Algebra.Order.BigOperators.Group.Finset

namespace Cert.LibFinite

open Idealize.ShloMosaic
open scoped BigOperators

/-- A finite extended real: neither `⊤` nor `⊥`. -/
def IsFin (x : EReal) : Prop := x ≠ ⊤ ∧ x ≠ ⊥

/-- The finite extended reals are exactly the real numbers. -/
theorem isFin_iff {x : EReal} : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

/-- A finite value is the coercion of its real part. -/
theorem IsFin.coe_toReal {x : EReal} (h : IsFin x) : ((x.toReal : ℝ) : EReal) = x :=
  EReal.coe_toReal h.1 h.2

theorem IsFin.ne_top {x : EReal} (h : IsFin x) : x ≠ ⊤ := h.1
theorem IsFin.ne_bot {x : EReal} (h : IsFin x) : x ≠ ⊥ := h.2

/-- A real number is finite. -/
theorem isFin_coe (r : ℝ) : IsFin (r : EReal) := ⟨EReal.coe_ne_top r, EReal.coe_ne_bot r⟩

theorem isFin_zero : IsFin (0 : EReal) := isFin_coe 0
theorem isFin_one : IsFin (1 : EReal) := isFin_coe 1

theorem IsFin.add {x y : EReal} (hx : IsFin x) (hy : IsFin y) : IsFin (x + y) := by
  obtain ⟨a, rfl⟩ := isFin_iff.mp hx
  obtain ⟨b, rfl⟩ := isFin_iff.mp hy
  rw [← EReal.coe_add]; exact isFin_coe _

theorem IsFin.neg {x : EReal} (hx : IsFin x) : IsFin (-x) := by
  obtain ⟨a, rfl⟩ := isFin_iff.mp hx
  rw [← EReal.coe_neg]; exact isFin_coe _

theorem IsFin.sub {x y : EReal} (hx : IsFin x) (hy : IsFin y) : IsFin (x - y) := by
  obtain ⟨a, rfl⟩ := isFin_iff.mp hx
  obtain ⟨b, rfl⟩ := isFin_iff.mp hy
  rw [← EReal.coe_sub]; exact isFin_coe _

theorem IsFin.mul {x y : EReal} (hx : IsFin x) (hy : IsFin y) : IsFin (x * y) := by
  obtain ⟨a, rfl⟩ := isFin_iff.mp hx
  obtain ⟨b, rfl⟩ := isFin_iff.mp hy
  rw [← EReal.coe_mul]; exact isFin_coe _

/-- A finite sum of finite values is finite. -/
theorem isFin_sum {ι : Type*} (s : Finset ι) (f : ι → EReal) (h : ∀ i ∈ s, IsFin (f i)) : IsFin (∑ i ∈ s, f i) :=
  Finset.sum_induction f IsFin (fun _ _ ha hb => ha.add hb) isFin_zero h

/-- The same over every index of `Fin n`. -/
theorem isFin_sum_univ {n : Nat} (f : Fin n → EReal) (h : ∀ i, IsFin (f i)) : IsFin (∑ i, f i) :=
  isFin_sum Finset.univ f fun i _ => h i

theorem IsFin.max {x y : EReal} (hx : IsFin x) (hy : IsFin y) : IsFin (max x y) := by
  rcases max_choice x y with h | h <;> rw [h] <;> assumption

theorem IsFin.min {x y : EReal} (hx : IsFin x) (hy : IsFin y) : IsFin (min x y) := by
  rcases min_choice x y with h | h <;> rw [h] <;> assumption

/-- A choice between two finite values is finite. -/
theorem IsFin.ite {c : Prop} [Decidable c] {x y : EReal} (hx : IsFin x) (hy : IsFin y) : IsFin (if c then x else y) := by
  split <;> assumption

/-- The same for a Boolean condition. -/
theorem IsFin.cond {c : Bool} {x y : EReal} (hx : IsFin x) (hy : IsFin y) : IsFin (bif c then x else y) := by
  cases c <;> assumption

/-- The exponential of a finite value is the real exponential. -/
theorem exp_coe (r : ℝ) : Ideal.exp (r : EReal) = ((Real.exp r : ℝ) : EReal) := rfl

theorem IsFin.exp {x : EReal} (hx : IsFin x) : IsFin (Ideal.exp x) := by
  obtain ⟨a, rfl⟩ := isFin_iff.mp hx
  rw [exp_coe]; exact isFin_coe _

/-- The exponential of a finite value is positive. -/
theorem IsFin.exp_pos {x : EReal} (hx : IsFin x) : 0 < Ideal.exp x := by
  obtain ⟨a, rfl⟩ := isFin_iff.mp hx
  rw [exp_coe]; exact EReal.coe_pos.mpr (Real.exp_pos a)

/-- The exponential is nonnegative at every extended real (`0` at `⊥`, `⊤` at `⊤`). -/
theorem exp_nonneg (x : EReal) : 0 ≤ Ideal.exp x := by
  induction x using EReal.rec with
  | bot => exact le_of_eq rfl
  | top => exact le_top
  | coe r => rw [exp_coe]; exact EReal.coe_nonneg.mpr (Real.exp_pos r).le

/-- The reciprocal square root of a positive real is the real reciprocal of its square root. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

theorem IsFin.rsqrt {x : EReal} (hx : IsFin x) (hpos : 0 < x) : IsFin (Ideal.rsqrt x) := by
  obtain ⟨a, rfl⟩ := isFin_iff.mp hx
  rw [rsqrt_coe_of_pos (EReal.coe_pos.mp hpos)]; exact isFin_coe _

/-- The reciprocal square root of a positive finite value is positive. -/
theorem IsFin.rsqrt_pos {x : EReal} (hx : IsFin x) (hpos : 0 < x) : 0 < Ideal.rsqrt x := by
  obtain ⟨a, rfl⟩ := isFin_iff.mp hx
  have ha : 0 < a := EReal.coe_pos.mp hpos
  rw [rsqrt_coe_of_pos ha]
  exact EReal.coe_pos.mpr (inv_pos.mpr (Real.sqrt_pos.mpr ha))

/-- A quotient of reals by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsFin.div {x y : EReal} (hx : IsFin x) (hy : IsFin y) (h0 : y ≠ 0) : IsFin (Ideal.div x y) := by
  obtain ⟨a, rfl⟩ := isFin_iff.mp hx
  obtain ⟨b, rfl⟩ := isFin_iff.mp hy
  have hb : b ≠ 0 := fun h => h0 (by rw [h, EReal.coe_zero])
  rw [div_coe_coe a hb]; exact isFin_coe _

/-- A square is nonnegative, at the infinities too (`⊥ * ⊥ = ⊤`). -/
theorem zero_le_mul_self (x : EReal) : 0 ≤ x * x := by
  induction x using EReal.rec with
  | bot => rw [EReal.bot_mul_bot]; exact le_top
  | top => rw [EReal.top_mul_top]; exact le_top
  | coe r => rw [← EReal.coe_mul]; exact EReal.coe_nonneg.mpr (mul_self_nonneg r)

/-- A finite sum of nonnegative values is nonnegative. -/
theorem zero_le_sum {ι : Type*} (s : Finset ι) (f : ι → EReal) (h : ∀ i ∈ s, 0 ≤ f i) : 0 ≤ ∑ i ∈ s, f i :=
  Finset.sum_nonneg h

theorem zero_le_sum_univ {n : Nat} (f : Fin n → EReal) (h : ∀ i, 0 ≤ f i) : 0 ≤ ∑ i, f i :=
  Finset.sum_nonneg fun i _ => h i

/-- The sum of real numbers, taken in the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative finite value plus a positive finite value is positive (a variance plus its epsilon). -/
theorem add_pos_of_nonneg_of_pos {x y : EReal} (hx : 0 ≤ x) (hy : 0 < y) : 0 < x + y :=
  lt_of_lt_of_le hy (le_add_of_nonneg_left hx)

end Cert.LibFinite
-- ==== Proof.LibConsts.lean ====
/- The float constants the two programs spell, as the extended reals their patterns denote. An f32 pattern with sign
   `s`, biased exponent `E` (neither `0` nor `255`) and fraction `T` denotes `(-1)^s (2^23 + T) 2^(E - 150)`. One module
   states them all, so that no other module unfolds the reading of a bit pattern. -/
import Idealize.ShloMosaic.PureOps.Ideal
import proofs.«421925_j36627481101076_1_alg».proof.Proof.LibFinite

namespace Cert.LibConsts

open Idealize.ShloMosaic
open Cert.LibFinite

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `1.0` as a real coercion. -/
theorem ofBits_one_coe : Ideal.ofBits .f32 0x3F800000#32 = ((1 : ℝ) : EReal) := by
  rw [ofBits_one, EReal.coe_one]

/-- `50000.0` (exponent `142`, fraction `0x435000`) denotes the real `50000`. -/
theorem ofBits_50000 : Ideal.ofBits .f32 0x47435000#32 = ((50000 : ℝ) : EReal) := by
  simp [Ideal.ofBits, Ideal.ieee, -EReal.coe_mul]; norm_num

/-- The batch-norm epsilon, the f32 nearest `1e-5` (exponent `110`, fraction `0x27C5AC`): `10995116 / 2^40`. -/
theorem ofBits_eps : Ideal.ofBits .f32 0x3727C5AC#32 = ((10995116 / 2 ^ 40 : ℝ) : EReal) := by
  simp [Ideal.ofBits, Ideal.ieee, -EReal.coe_mul]; norm_num

/-- The batch-norm bias, the f32 nearest `1e-4` (exponent `113`, fraction `0x51B717`): `13743895 / 2^37`. -/
theorem ofBits_bias : Ideal.ofBits .f32 0x38D1B717#32 = ((13743895 / 2 ^ 37 : ℝ) : EReal) := by
  simp [Ideal.ofBits, Ideal.ieee, -EReal.coe_mul]; norm_num

theorem isFin_zero_lit : IsFin (Ideal.ofBits .f32 0x00000000#32) := by rw [ofBits_zero]; exact isFin_zero
theorem isFin_one_lit : IsFin (Ideal.ofBits .f32 0x3F800000#32) := by rw [ofBits_one]; exact isFin_one
theorem isFin_50000 : IsFin (Ideal.ofBits .f32 0x47435000#32) := by rw [ofBits_50000]; exact isFin_coe _
theorem isFin_eps : IsFin (Ideal.ofBits .f32 0x3727C5AC#32) := by rw [ofBits_eps]; exact isFin_coe _
theorem isFin_bias : IsFin (Ideal.ofBits .f32 0x38D1B717#32) := by rw [ofBits_bias]; exact isFin_coe _

/-- The epsilon is positive. -/
theorem eps_pos : 0 < Ideal.ofBits .f32 0x3727C5AC#32 := by
  rw [ofBits_eps]; exact EReal.coe_pos.mpr (by norm_num)

/-- The divisor `50000.0` is not zero. -/
theorem ofBits_50000_ne_zero : Ideal.ofBits .f32 0x47435000#32 ≠ 0 := by
  rw [ofBits_50000]; exact fun h => by
    have : (50000 : ℝ) = 0 := by exact_mod_cast h
    norm_num at this

end Cert.LibConsts
-- ==== Proof.Consts.lean ====
/-
  The values of the literal words of this certificate as extended reals.
-/
import Idealize.ShloMosaic.PureOps.Ideal
import proofs.«421925_j36627481101076_1_alg».proof.Proof.Spec
import proofs.«421925_j36627481101076_1_alg».proof.Proof.LibFinite
import proofs.«421925_j36627481101076_1_alg».proof.Proof.LibConsts

noncomputable section

namespace Cert.Consts

open Idealize.ShloMosaic Cert.Spec Cert.LibFinite

/-- `+0.0`. -/
theorem cZero_eq : cZero = 0 := Cert.LibConsts.ofBits_zero

/-- `1.0`: exponent `127`, fraction `0`. -/
theorem cOne_eq : cOne = 1 := Cert.LibConsts.ofBits_one

/-- `2.0`: exponent `128`, fraction `0`, so `2^23 * 2^(-22)`. -/
theorem cTwo_eq : cTwo = ((2 : ℝ) : EReal) := by
  unfold cTwo
  simp [Ideal.ofBits, Ideal.ieee, -EReal.coe_mul]; norm_num

/-- `-0.5`: sign set, exponent `126`, fraction `0`, so `-(2^23 * 2^(-24))`. -/
theorem cNegHalf_eq : cNegHalf = ((-(1 / 2) : ℝ) : EReal) := by
  unfold cNegHalf
  simp [Ideal.ofBits, Ideal.ieee, -EReal.coe_mul]; norm_num

/-- `1e8`: exponent `153`, fraction `0x3EBC20`, so `12500000 * 2^3`. -/
theorem cBig_eq : cBig = ((100000000 : ℝ) : EReal) := by
  unfold cBig
  simp [Ideal.ofBits, Ideal.ieee, -EReal.coe_mul]; norm_num

/-- The f32 nearest `0.1`: exponent `123`, fraction `0x4CCCCD`, so `13421773 * 2^(-27)`. -/
theorem cTemp_eq : cTemp = ((13421773 / 134217728 : ℝ) : EReal) := by
  unfold cTemp
  simp [Ideal.ofBits, Ideal.ieee, -EReal.coe_mul]; norm_num

/-- Sign set, exponent all ones, fraction `0`: `-∞`. -/
theorem cNegInf_eq : cNegInf = ⊥ := by
  unfold cNegInf
  simp [Ideal.ofBits, Ideal.ieee]

/-- `-1/2048`: sign set, exponent `116`, fraction `0`, so `-(2^23 * 2^(-34))`. -/
theorem cScale_eq : cScale = ((-(1 / 2048) : ℝ) : EReal) := by
  unfold cScale
  simp [Ideal.ofBits, Ideal.ieee, -EReal.coe_mul]; norm_num

/-- The normalisation's floor is a positive real. -/
theorem cEps_pos : ∃ e : ℝ, 0 < e ∧ cEps = (e : EReal) := by
  refine ⟨(9223372 : ℝ) * (2 : ℝ) ^ (-63 : ℤ), by positivity, ?_⟩
  unfold cEps
  simp [Ideal.ofBits, Ideal.ieee, -EReal.coe_mul] <;> norm_num

theorem cInvT_eq : cInvT = ((134217728 / 13421773 : ℝ) : EReal) := rfl

end Cert.Consts

end
-- ==== Proof.MathFolds.lean ====
/-
  The carried values of the two kernels after all eight column blocks, as whole-row sums and maxima.
-/
import proofs.«421925_j36627481101076_1_alg».proof.Proof.Spec
import proofs.«421925_j36627481101076_1_alg».proof.Proof.LibFinite
import proofs.«421925_j36627481101076_1_alg».proof.Proof.Consts
import Mathlib.Data.Finset.Fold
import Mathlib.Data.Finset.Max
import Mathlib.Data.Fintype.BigOperators
import Mathlib.Algebra.BigOperators.Fin

noncomputable section

namespace Cert.MathFolds

open Idealize.ShloMosaic Cert.Spec Cert.LibFinite Cert.Consts

/-! ## Columns by blocks -/

/-- Column 512 * j + q for j < 8, with quotient and remainder by 512 as the way back. -/
def blockEquiv : Fin 8 × Fin 512 ≃ Fin 4096 where
  toFun p := atN p.1.val p.2
  invFun c := (⟨c.val / 512, by have := c.isLt; omega⟩, ⟨c.val % 512, Nat.mod_lt _ (by norm_num)⟩)
  left_inv := by
    rintro ⟨j, q⟩
    have hj := j.isLt
    have hq := q.isLt
    ext
    · show (512 * j.val + q.val) % 4096 / 512 = j.val
      omega
    · show (512 * j.val + q.val) % 4096 % 512 = q.val
      omega
  right_inv := by
    intro c
    have hc := c.isLt
    ext
    show (512 * (c.val / 512) + c.val % 512) % 4096 = c.val
    omega

/-- Eight blocks of 512 exhaust the 4096 columns. -/
theorem sum_blocks (f : Fin 4096 → EReal) :
    ∑ c : Fin 4096, f c = ∑ j : Fin 8, ∑ q : Fin 512, f (atN j.val q) := by
  rw [← Fintype.sum_prod_type' (fun (j : Fin 8) (q : Fin 512) => f (atN j.val q))]
  exact (Fintype.sum_equiv blockEquiv (fun p => f (atN p.1.val p.2)) f (fun _ => rfl)).symm

/-- The same with the block number running over the naturals below eight. -/
theorem sum_range_blocks (f : Fin 4096 → EReal) :
    ∑ j ∈ Finset.range 8, ∑ q : Fin 512, f (atN j q) = ∑ c : Fin 4096, f c := by
  rw [sum_blocks, Finset.sum_range]

/-- A property of every column is a property of every offset of every block. -/
theorem forall_blocks (P : Fin 4096 → Prop) :
    (∀ j, j < 8 → ∀ q : Fin 512, P (atN j q)) ↔ ∀ c, P c := by
  constructor
  · intro h c
    have hc := c.isLt
    have e : atN (c.val / 512) ⟨c.val % 512, Nat.mod_lt _ (by norm_num)⟩ = c := by
      ext
      show (512 * (c.val / 512) + c.val % 512) % 4096 = c.val
      omega
    have := h (c.val / 512) (by omega) ⟨c.val % 512, Nat.mod_lt _ (by norm_num)⟩
    rwa [e] at this
  · intro h j _ q
    exact h _

/-! ## The first kernel's row sum -/

theorem kMsumAcc_eq (lab : Fin 4096 → BitVec 32) (pos : Fin 4096 → EReal) (r : Fin 4096) (n : ℕ) :
    kMsumAcc lab pos r n = ∑ j ∈ Finset.range n, ∑ q : Fin 512, kM lab pos r (atN j q) := by
  induction n with
  | zero => simp [kMsumAcc, cZero_eq]
  | succ n ih => rw [kMsumAcc, ih, Finset.sum_range_succ]

/-- The first kernel's carried row sum after eight blocks is the whole row's sum. -/
theorem kMsum_eq (lab : Fin 4096 → BitVec 32) (pos : Fin 4096 → EReal) (r : Fin 4096) :
    kMsum lab pos r = ∑ c : Fin 4096, kM lab pos r c :=
  (kMsumAcc_eq lab pos r 8).trans (sum_range_blocks (fun c => kM lab pos r c))

variable (Z : Fin 4096 → Fin 512 → EReal) (lab : Fin 4096 → BitVec 32) (pos : Fin 4096 → EReal) (r : Fin 4096)

/-! ## The second kernel's two plain sums -/

theorem kState_s1_acc (n : ℕ) :
    (kState Z lab pos r n).2.2.1 = ∑ j ∈ Finset.range n, ∑ q : Fin 512, kFw lab pos r (atN j q) * kS Z r (atN j q) := by
  induction n with
  | zero => simp [kState, cZero_eq]
  | succ n ih =>
    rw [Finset.sum_range_succ, ← ih]
    rfl

theorem kState_s0_acc (n : ℕ) :
    (kState Z lab pos r n).2.2.2 = ∑ j ∈ Finset.range n, ∑ q : Fin 512, kFw lab pos r (atN j q) := by
  induction n with
  | zero => simp [kState, cZero_eq]
  | succ n ih =>
    rw [Finset.sum_range_succ, ← ih]
    rfl

/-- The two plain running sums. -/
theorem kState_s1 : (kState Z lab pos r 8).2.2.1 = ∑ c : Fin 4096, kFw lab pos r c * kS Z r c :=
  (kState_s1_acc Z lab pos r 8).trans (sum_range_blocks (fun c => kFw lab pos r c * kS Z r c))
theorem kState_s0 : (kState Z lab pos r 8).2.2.2 = ∑ c : Fin 4096, kFw lab pos r c :=
  (kState_s0_acc Z lab pos r 8).trans (sum_range_blocks (fun c => kFw lab pos r c))

/-! ## The running maximum -/

/-- After n blocks the running maximum is the least upper bound of the entries of those blocks. -/
theorem m_le_iff (n : ℕ) (x : EReal) :
    (kState Z lab pos r n).1 ≤ x ↔ ∀ j, j < n → ∀ q : Fin 512, kS Z r (atN j q) ≤ x := by
  induction n with
  | zero => simp [kState, cNegInf_eq]
  | succ n ih =>
    have hm : (kState Z lab pos r (n + 1)).1
        = max (kState Z lab pos r n).1
            ((Finset.univ : Finset (Fin 512)).fold max cNegInf (fun q => kS Z r (atN n q))) := rfl
    rw [hm, max_le_iff, ih, Finset.fold_max_le, cNegInf_eq]
    constructor
    · rintro ⟨h1, -, h2⟩ j hj q
      rcases Nat.lt_succ_iff_lt_or_eq.mp hj with h | rfl
      · exact h1 j h q
      · exact h2 q (Finset.mem_univ q)
    · intro h
      exact ⟨fun j hj q => h j (Nat.lt_succ_of_lt hj) q, bot_le, fun q _ => h n (Nat.lt_succ_self n) q⟩

/-- After at least one block of finite entries the running maximum is finite. -/
theorem m_fin (hS : ∀ c, IsFin (kS Z r c)) (n : ℕ) (hn : 0 < n) : IsFin (kState Z lab pos r n).1 := by
  have hle := (m_le_iff Z lab pos r n _).mp le_rfl
  obtain ⟨p0, -, hp0⟩ := Finset.exists_max_image (Finset.range n ×ˢ (Finset.univ : Finset (Fin 512)))
    (fun p => kS Z r (atN p.1 p.2)) ⟨(0, 0), by simp [hn]⟩
  have hge : (kState Z lab pos r n).1 ≤ kS Z r (atN p0.1 p0.2) :=
    (m_le_iff Z lab pos r n _).mpr (fun j hj q => hp0 (j, q) (by simp [hj]))
  exact ⟨ne_top_of_le_ne_top (hS _).1 hge, ne_bot_of_le_ne_bot (hS (atN 0 0)).2 (hle 0 hn 0)⟩

/-- The running maximum ends at the row's maximum; for a row of finite entries it is finite and attained. -/
theorem kState_m_fin (hS : ∀ c, IsFin (kS Z r c)) :
    IsFin (kState Z lab pos r 8).1 ∧ (∀ c, kS Z r c ≤ (kState Z lab pos r 8).1) ∧ ∃ c, kS Z r c = (kState Z lab pos r 8).1 := by
  have hle : ∀ c, kS Z r c ≤ (kState Z lab pos r 8).1 :=
    (forall_blocks (fun c => kS Z r c ≤ (kState Z lab pos r 8).1)).mp ((m_le_iff Z lab pos r 8 _).mp le_rfl)
  obtain ⟨c0, -, hc0⟩ := Finset.exists_max_image (Finset.univ : Finset (Fin 4096)) (fun c => kS Z r c)
    ⟨0, Finset.mem_univ _⟩
  have hge : (kState Z lab pos r 8).1 ≤ kS Z r c0 :=
    (m_le_iff Z lab pos r 8 _).mpr
      ((forall_blocks (fun c => kS Z r c ≤ kS Z r c0)).mpr (fun c => hc0 c (Finset.mem_univ c)))
  have heq : kS Z r c0 = (kState Z lab pos r 8).1 := le_antisymm (hle c0) hge
  exact ⟨heq ▸ hS c0, hle, c0, heq⟩

/-! ## The rescaled sum of exponentials -/

/-- Changing the shift of a sum of exponentials of finite values: one common factor. -/
theorem exp_shift_sum {ι : Type*} (s : Finset ι) (f : ι → EReal) (hf : ∀ i ∈ s, IsFin (f i))
    {a b : EReal} (ha : IsFin a) (hb : IsFin b) :
    Ideal.exp (a - b) * ∑ i ∈ s, Ideal.exp (f i - a) = ∑ i ∈ s, Ideal.exp (f i - b) := by
  obtain ⟨a, rfl⟩ := isFin_iff.mp ha
  obtain ⟨b, rfl⟩ := isFin_iff.mp hb
  have h1 : ∀ (t : ℝ), ∀ i ∈ s, Ideal.exp (f i - (t : EReal)) = ((Real.exp ((f i).toReal - t) : ℝ) : EReal) := by
    intro t i hi
    obtain ⟨x, hx⟩ := isFin_iff.mp (hf i hi)
    rw [hx, EReal.toReal_coe, ← EReal.coe_sub, exp_coe]
  rw [Finset.sum_congr rfl (h1 a), Finset.sum_congr rfl (h1 b), ← coe_sum, ← coe_sum, ← EReal.coe_sub, exp_coe,
    ← EReal.coe_mul, Finset.mul_sum]
  congr 1
  apply Finset.sum_congr rfl
  intro i _
  rw [← Real.exp_add]
  congr 1
  ring

/-- The same for a sum over blocks and offsets. -/
theorem exp_shift_sum_blocks (n : ℕ) (g : ℕ → Fin 512 → EReal) (hg : ∀ j q, IsFin (g j q))
    {a b : EReal} (ha : IsFin a) (hb : IsFin b) :
    Ideal.exp (a - b) * ∑ j ∈ Finset.range n, ∑ q : Fin 512, Ideal.exp (g j q - a)
      = ∑ j ∈ Finset.range n, ∑ q : Fin 512, Ideal.exp (g j q - b) := by
  have h := exp_shift_sum (Finset.range n ×ˢ (Finset.univ : Finset (Fin 512))) (fun p => g p.1 p.2)
    (fun p _ => hg _ _) ha hb
  rw [Finset.sum_product, Finset.sum_product] at h
  exact h

/-- After n blocks the rescaled sum is the sum of the exponentials of those blocks' entries shifted by the
    running maximum: each step multiplies the old sum by exp (old maximum - new maximum). -/
theorem kState_l_acc (hS : ∀ c, IsFin (kS Z r c)) (n : ℕ) :
    (kState Z lab pos r n).2.1
      = ∑ j ∈ Finset.range n, ∑ q : Fin 512, Ideal.exp (kS Z r (atN j q) - (kState Z lab pos r n).1) := by
  induction n with
  | zero => simp [kState, cZero_eq]
  | succ n ih =>
    have hl : (kState Z lab pos r (n + 1)).2.1
        = Ideal.exp ((kState Z lab pos r n).1 - (kState Z lab pos r (n + 1)).1) * (kState Z lab pos r n).2.1
          + ∑ q : Fin 512, Ideal.exp (kS Z r (atN n q) - (kState Z lab pos r (n + 1)).1) := rfl
    rw [hl, Finset.sum_range_succ, ih]
    congr 1
    rcases Nat.eq_zero_or_pos n with rfl | hn
    · simp
    · exact exp_shift_sum_blocks n (fun j q => kS Z r (atN j q)) (fun _ _ => hS _)
        (m_fin Z lab pos r hS n hn) (m_fin Z lab pos r hS (n + 1) (Nat.succ_pos n))

/-- The rescaled running sum of exponentials ends at the sum of exponentials shifted by the row's maximum. -/
theorem kState_l (hS : ∀ c, IsFin (kS Z r c)) :
    (kState Z lab pos r 8).2.1 = ∑ c : Fin 4096, Ideal.exp (kS Z r c - (kState Z lab pos r 8).1) :=
  (kState_l_acc Z lab pos r hS 8).trans
    (sum_range_blocks (fun c => Ideal.exp (kS Z r c - (kState Z lab pos r 8).1)))

/-- The dense program's row maximum is the same number. -/
theorem fold_max_eq (hS : ∀ c, IsFin (kS Z r c)) :
    max cNegInf ((Finset.univ : Finset (Fin 4096)).fold max cNegInf (fun c => kS Z r c)) = (kState Z lab pos r 8).1 := by
  have _ := hS
  apply eq_of_forall_ge_iff
  intro x
  rw [max_le_iff, Finset.fold_max_le, m_le_iff, forall_blocks (fun c => kS Z r c ≤ x), cNegInf_eq]
  constructor
  · rintro ⟨-, -, h⟩ c
    exact h c (Finset.mem_univ c)
  · intro h
    exact ⟨bot_le, bot_le, fun c _ => h c⟩

end Cert.MathFolds

end
-- ==== Proof.MathEntries.lean ====
/-
  Entry by entry, the kernel's mask, weight and similarity are the dense program's; and what is finite.
-/
import proofs.«421925_j36627481101076_1_alg».proof.Proof.Spec
import proofs.«421925_j36627481101076_1_alg».proof.Proof.LibFinite
import proofs.«421925_j36627481101076_1_alg».proof.Proof.Consts
import Mathlib.Algebra.BigOperators.Fin
import Mathlib.Tactic.Ring
import Mathlib.Tactic.NormNum

noncomputable section

namespace Cert.MathEntries

open Idealize.ShloMosaic Cert.Spec Cert.LibFinite Cert.Consts

/-! ## A family laid out twice, two families stacked -/

/-- Laying out twice commutes with applying a function entry by entry. -/
theorem cat_comp {α β : Type} (g : α → β) (f : Fin 2048 → α) (r : Fin 4096) :
    cat (fun a => g (f a)) r = g (cat f r) := by
  unfold cat; split <;> rfl

/-- What holds of every entry holds of every entry of the doubled family. -/
theorem cat_prop {α : Type} (P : α → Prop) (f : Fin 2048 → α) (h : ∀ a, P (f a)) (r : Fin 4096) :
    P (cat f r) := by
  unfold cat; split <;> exact h _

/-- What holds of every entry of both families holds of every entry of the stacked one. -/
theorem catRows_prop {α : Type} (P : α → Prop) (f g : Fin 2048 → α) (hf : ∀ a, P (f a)) (hg : ∀ a, P (g a))
    (r : Fin 4096) : P (catRows f g r) := by
  unfold catRows; split
  · exact hf _
  · exact hg _

/-! ## The normalisation -/

/-- The square root of a finite nonnegative value is finite. -/
theorem sqrt_fin {x : EReal} (hx : IsFin x) (h0 : 0 ≤ x) : IsFin (Ideal.sqrt x) := by
  obtain ⟨s, rfl⟩ := isFin_iff.mp hx
  have hs : ¬ s < 0 := not_lt.mpr (EReal.coe_nonneg.mp h0)
  rw [Ideal.sqrt_coe, if_neg hs]; exact isFin_coe _

/-- Normalised rows of finite entries are finite: the divisor is the larger of a finite square root and a positive
    real, so it is finite and not zero. -/
theorem normalize_fin (z : Fin 2048 → Fin 512 → EReal) (hz : ∀ a k, IsFin (z a k)) (a : Fin 2048) (k : Fin 512) :
    IsFin (normalize z a k) := by
  unfold Cert.Spec.normalize
  obtain ⟨e, he, hE⟩ := cEps_pos
  have hS : IsFin (∑ k' : Fin 512, z a k' * z a k') := isFin_sum_univ _ fun i => (hz a i).mul (hz a i)
  have hS0 : 0 ≤ ∑ k' : Fin 512, z a k' * z a k' := zero_le_sum_univ _ fun i => zero_le_mul_self _
  rw [cZero_eq, zero_add]
  have hsq := sqrt_fin hS hS0
  have hE' : IsFin cEps := by rw [hE]; exact isFin_coe _
  have hpos : (0 : EReal) < cEps := by rw [hE]; exact EReal.coe_pos.mpr he
  exact (hz a k).div (hsq.max hE') (lt_of_lt_of_le hpos (le_max_right _ _)).ne'

/-! ## The label mask -/

/-- The four label words are distinct. -/
theorem ofNat_inj4 : ∀ i k : Fin 4, (BitVec.ofNat 32 i.val = BitVec.ofNat 32 k.val) ↔ i = k := by decide

/-- Two one-hot rows over the four classes have inner product 1 when the labels agree and 0 otherwise. -/
theorem onehot_sum (x y : BitVec 32) (hx : x.toNat < 4) (hy : y.toNat < 4) :
    (∑ k : Fin 4, (if x = BitVec.ofNat 32 k.val then (1 : EReal) else 0)
        * (if y = BitVec.ofNat 32 k.val then (1 : EReal) else 0))
      = if x = y then 1 else 0 := by
  obtain ⟨i, rfl⟩ : ∃ i : Fin 4, x = BitVec.ofNat 32 i.val := ⟨⟨x.toNat, hx⟩, by simp⟩
  obtain ⟨j, rfl⟩ : ∃ j : Fin 4, y = BitVec.ofNat 32 j.val := ⟨⟨y.toNat, hy⟩, by simp⟩
  simp only [ofNat_inj4]
  rw [Finset.sum_eq_single i]
  · by_cases h : i = j
    · subst h; simp
    · have h' : ¬ j = i := fun e => h e.symm
      simp [h, h']
  · intro k _ hk
    have h' : ¬ i = k := fun e => hk e.symm
    simp [h']
  · intro h; exact absurd (Finset.mem_univ i) h

/-! ## The squared distance -/

/-- For finite positions a and b, the larger of a² + b² - 2ab and 0 is (a - b)². -/
theorem sq_form (a b : EReal) (ha : IsFin a) (hb : IsFin b) :
    max (((cZero + ∑ _u : Fin 1, a * a) + (cZero + ∑ _u : Fin 1, b * b)) - cTwo * (∑ _u : Fin 1, a * b)) cZero
      = (a - b) * (a - b) := by
  obtain ⟨x, rfl⟩ := isFin_iff.mp ha
  obtain ⟨y, rfl⟩ := isFin_iff.mp hb
  simp only [Finset.univ_unique, Finset.sum_singleton]
  rw [cZero_eq, cTwo_eq, zero_add, zero_add]
  have e1 : ((x : EReal) * x + (y : EReal) * y - ((2 : ℝ) : EReal) * ((x : EReal) * y))
      = (((x - y) * (x - y) : ℝ) : EReal) := by
    norm_cast; ring
  have e2 : ((x : EReal) - y) * ((x : EReal) - y) = (((x - y) * (x - y) : ℝ) : EReal) := by norm_cast
  rw [e1, e2]
  exact max_eq_left (EReal.coe_nonneg.mpr (mul_self_nonneg _))

theorem one_sub_one : (1 : EReal) - 1 = 0 := by
  rw [← EReal.coe_one, ← EReal.coe_sub, sub_self, EReal.coe_zero]

theorem exp_zero : Ideal.exp (0 : EReal) = 1 := by
  rw [← EReal.coe_zero, exp_coe, Real.exp_zero, EReal.coe_one]

section

variable (zi zj : Fin 2048 → Fin 512 → EReal) (labels : Fin 2048 → BitVec 32) (p : Fin 2048 → EReal)

/-- Mask times weight: the compare-and-select form against the one-hot product and the (1 - eye) factors;
    (a - b)² against the larger of a² + b² - 2ab and 0. -/
theorem kM_eq_rFw0 (hp : ∀ a, IsFin (p a)) (hlab : ∀ a, (labels a).toNat < 4) (r c : Fin 4096) :
    kM (cat labels) (cat p) r c = rFw0 labels p r c := by
  have h1 : ∀ (s : Fin 4096) (k : Fin 4),
      rL labels s k = if cat labels s = BitVec.ofNat 32 k.val then 1 else 0 := fun s k =>
    cat_comp (fun x => if x = BitVec.ofNat 32 k.val then (1 : EReal) else 0) labels s
  have hmask : (∑ k : Fin 4, rL labels r k * rL labels c k) = if cat labels r = cat labels c then 1 else 0 := by
    simp only [h1]
    exact onehot_sum _ _ (cat_prop (fun x => x.toNat < 4) labels hlab r) (cat_prop (fun x => x.toNat < 4) labels hlab c)
  have hd2 : rD2 p r c = (cat p r - cat p c) * (cat p r - cat p c) :=
    sq_form _ _ (cat_prop IsFin p hp r) (cat_prop IsFin p hp c)
  unfold kM rFw0 rWeights rMask kMaskF kW
  rw [hmask, hd2, cOne_eq]
  by_cases h : r = c
  · subst h
    have hE : rEye r r = 1 := if_pos rfl
    rw [hE, one_sub_one, mul_zero, mul_zero, mul_zero]
    simp
  · have hE : rEye r c = 0 := if_neg h
    rw [hE, sub_zero, mul_one, mul_one, if_neg h]
    have hc : (cat labels r = cat labels c ∧ r ≠ c) ↔ cat labels r = cat labels c := and_iff_left h
    simp only [hc]
    exact mul_comm _ _

/-- The mask-weight entries are reals in [0, 1], and each row has an entry equal to 1 (the same sample's other view). -/
theorem kM_fin (hp : ∀ a, IsFin (p a)) (r c : Fin 4096) :
    IsFin (kM (cat labels) (cat p) r c) ∧ 0 ≤ kM (cat labels) (cat p) r c := by
  have ha : IsFin (cat p r) := cat_prop IsFin p hp r
  have hb : IsFin (cat p c) := cat_prop IsFin p hp c
  have hNH : IsFin cNegHalf := by rw [cNegHalf_eq]; exact isFin_coe _
  have hW : IsFin (kW (cat p) r c) ∧ 0 ≤ kW (cat p) r c := by
    unfold kW
    split
    · rw [cZero_eq]; exact ⟨isFin_zero, le_refl _⟩
    · exact ⟨(hNH.mul ((ha.sub hb).mul (ha.sub hb))).exp, exp_nonneg _⟩
  unfold kM kMaskF
  split
  · rw [one_mul]; exact hW
  · rw [zero_mul]; exact ⟨isFin_zero, le_refl _⟩

theorem kM_partner (hp : ∀ a, IsFin (p a)) (r : Fin 4096) : ∃ c, kM (cat labels) (cat p) r c = 1 := by
  have key : ∀ c : Fin 4096, r ≠ c → cat labels r = cat labels c → cat p r = cat p c →
      kM (cat labels) (cat p) r c = 1 := by
    intro c hne hl hq
    obtain ⟨x, hx⟩ := isFin_iff.mp (cat_prop IsFin p hp c)
    unfold kM kMaskF kW
    rw [if_pos ⟨hl, hne⟩, if_neg hne, one_mul, hq, hx]
    have : ((x : EReal) - x) = 0 := by rw [← EReal.coe_sub, sub_self, EReal.coe_zero]
    rw [this, mul_zero, mul_zero, exp_zero]
  by_cases h : r.val < 2048
  · refine ⟨⟨r.val + 2048, by omega⟩, key _ ?_ ?_ ?_⟩
    · intro e; have := congrArg Fin.val e; simp at this
    · unfold cat; rw [dif_pos h, dif_neg (by simp)]; exact congrArg labels (Fin.ext (by simp))
    · unfold cat; rw [dif_pos h, dif_neg (by simp)]; exact congrArg p (Fin.ext (by simp))
  · refine ⟨⟨r.val - 2048, by omega⟩, key _ ?_ ?_ ?_⟩
    · intro e; have := congrArg Fin.val e; simp at this; omega
    · unfold cat; rw [dif_neg h, dif_pos (by simp; omega)]
    · unfold cat; rw [dif_neg h, dif_pos (by simp; omega)]

/-- Multiplying by the reciprocal of the temperature is dividing by the temperature, at every extended real. -/
theorem mul_cInvT (x : EReal) : x * cInvT = Ideal.div x cTemp := by
  have ht : (13421773 / 134217728 : ℝ) ≠ 0 := by norm_num
  rw [cTemp_eq, Ideal.div_coe ht, cInvT_eq]
  congr 2
  norm_num

/-- The similarity: the product with the exact reciprocal against the quotient; the select against big times eye. -/
theorem kS_eq_rSim (hzi : ∀ a k, IsFin (zi a k)) (hzj : ∀ a k, IsFin (zj a k)) (r c : Fin 4096) :
    kS (catRows zi zj) r c = rSim zi zj r c := by
  unfold kS kDot rSim
  by_cases hr : r.val < 2048 <;> by_cases hc : c.val < 2048
  · rw [dif_pos hr, dif_pos hc]
    unfold rSimII rEyeN catRows
    rw [dif_pos hr, dif_pos hc, mul_cInvT]
    by_cases h : r = c
    · have h' : (⟨r.val, hr⟩ : Fin 2048) = ⟨c.val, hc⟩ := by subst h; rfl
      rw [if_pos h, if_pos h', mul_one]
    · have h' : ¬ (⟨r.val, hr⟩ : Fin 2048) = ⟨c.val, hc⟩ := fun e => h (Fin.ext (by simpa using congrArg Fin.val e))
      rw [if_neg h, if_neg h', mul_zero, sub_zero]
  · rw [dif_pos hr, dif_neg hc]
    have h : r ≠ c := fun e => hc (e ▸ hr)
    unfold rSimIJ catRows
    rw [if_neg h, dif_pos hr, dif_neg hc, mul_cInvT]
  · rw [dif_neg hr, dif_pos hc]
    have h : r ≠ c := fun e => hr (e ▸ hc)
    unfold rSimIJ catRows
    rw [if_neg h, dif_neg hr, dif_pos hc, mul_cInvT]
    congr 1
    exact Finset.sum_congr rfl fun k _ => mul_comm _ _
  · rw [dif_neg hr, dif_neg hc]
    unfold rSimJJ rEyeN catRows
    rw [dif_neg hr, dif_neg hc, mul_cInvT]
    by_cases h : r = c
    · have h' : (⟨r.val - 2048, by omega⟩ : Fin 2048) = ⟨c.val - 2048, by omega⟩ := by subst h; rfl
      rw [if_pos h, if_pos h', mul_one]
    · have h' : ¬ (⟨r.val - 2048, by omega⟩ : Fin 2048) = ⟨c.val - 2048, by omega⟩ := fun e =>
        h (Fin.ext (by have := congrArg Fin.val e; simp at this; omega))
      rw [if_neg h, if_neg h', mul_zero, sub_zero]

theorem kS_fin (hzi : ∀ a k, IsFin (zi a k)) (hzj : ∀ a k, IsFin (zj a k)) (r c : Fin 4096) :
    IsFin (kS (catRows zi zj) r c) := by
  have hZ : ∀ s k, IsFin (catRows zi zj s k) := fun s k =>
    catRows_prop (fun row => IsFin (row k)) zi zj (fun a => hzi a k) (fun a => hzj a k) s
  have hD : IsFin (kDot (catRows zi zj) r c * cInvT) :=
    (isFin_sum_univ _ fun k => (hZ r k).mul (hZ c k)).mul (by rw [cInvT_eq]; exact isFin_coe _)
  have hB : IsFin cBig := by rw [cBig_eq]; exact isFin_coe _
  unfold kS
  exact (hD.sub hB).ite hD

end

end Cert.MathEntries

end
-- ==== Proof.MathFinal.lean ====
/-
  The two results are one number.
-/
import proofs.«421925_j36627481101076_1_alg».proof.Proof.Spec
import proofs.«421925_j36627481101076_1_alg».proof.Proof.LibFinite
import proofs.«421925_j36627481101076_1_alg».proof.Proof.Consts
import proofs.«421925_j36627481101076_1_alg».proof.Proof.MathFolds
import proofs.«421925_j36627481101076_1_alg».proof.Proof.MathEntries

noncomputable section

namespace Cert.MathFinal

open Idealize.ShloMosaic Cert.Spec Cert.LibFinite Cert.Consts Cert.MathFolds Cert.MathEntries

/-! ## Arithmetic of finite values -/

/-- A sum of nonnegative terms, one of which is 1, is at least 1. -/
theorem one_le_sum {ι : Type*} (s : Finset ι) (f : ι → EReal) (h0 : ∀ i ∈ s, 0 ≤ f i) {i0 : ι} (hi0 : i0 ∈ s)
    (h1 : f i0 = 1) : 1 ≤ ∑ i ∈ s, f i := by
  rw [← h1]; exact Finset.single_le_sum h0 hi0

/-- A value that is at least 1 is not 0. -/
theorem ne_zero_of_one_le {x : EReal} (h : 1 ≤ x) : x ≠ 0 := by
  intro hx
  rw [hx] at h
  exact absurd h (not_le.mpr (by exact_mod_cast (zero_lt_one : (0 : ℝ) < 1)))

/-- The logarithm of a finite value that is at least 1 is the real logarithm, a finite value. -/
theorem log_fin_of_one_le {x : EReal} (hx : IsFin x) (h1 : 1 ≤ x) : IsFin (Ideal.log x) := by
  obtain ⟨a, rfl⟩ := isFin_iff.mp hx
  have ha : (1 : ℝ) ≤ a := by exact_mod_cast h1
  rw [Ideal.log_coe, if_neg (by linarith)]
  exact isFin_coe _

/-- A finite value minus itself is 0, and the exponential there is 1. -/
theorem exp_sub_self {m : EReal} (hm : IsFin m) : Ideal.exp (m - m) = 1 := by
  obtain ⟨a, rfl⟩ := isFin_iff.mp hm
  rw [← EReal.coe_sub, sub_self, exp_coe, Real.exp_zero, EReal.coe_one]

/-- The row identity over finite values: Σ fw·S − (m + L)·Σ fw = Σ ((S − m) − L)·fw.  All terms are real
    numbers, so this is distributivity of the real product over a finite sum. -/
theorem row_identity {ι : Type*} (s : Finset ι) (S fw : ι → EReal) (m L : EReal)
    (hS : ∀ c, IsFin (S c)) (hfw : ∀ c, IsFin (fw c)) (hm : IsFin m) (hL : IsFin L) :
    (∑ c ∈ s, fw c * S c) - (m + L) * (∑ c ∈ s, fw c) = ∑ c ∈ s, ((S c - m) - L) * fw c := by
  choose sR hsR using fun c => isFin_iff.mp (hS c)
  choose fR hfR using fun c => isFin_iff.mp (hfw c)
  obtain ⟨mR, rfl⟩ := isFin_iff.mp hm
  obtain ⟨LR, rfl⟩ := isFin_iff.mp hL
  simp only [hsR, hfR, ← EReal.coe_mul, ← EReal.coe_sub, ← EReal.coe_add, ← coe_sum]
  rw [EReal.coe_eq_coe_iff, Finset.mul_sum, ← Finset.sum_sub_distrib]
  exact Finset.sum_congr rfl fun c _ => by ring

/-! ## The normalised weights of the two programs -/

section

variable (zi zj : Fin 2048 → Fin 512 → EReal) (labels : Fin 2048 → BitVec 32) (p : Fin 2048 → EReal)

/-- Every row sum of the mask-weight entries is a finite value at least 1: the entries are finite and
    nonnegative, and the same sample's other view contributes 1. -/
theorem kMsum_fin (hp : ∀ a, IsFin (p a)) (c : Fin 4096) :
    IsFin (kMsum (cat labels) (cat p) c) ∧ 1 ≤ kMsum (cat labels) (cat p) c := by
  rw [kMsum_eq]
  obtain ⟨c', hc'⟩ := kM_partner labels p hp c
  exact ⟨isFin_sum_univ _ fun d => (kM_fin labels p hp c d).1,
    one_le_sum _ _ (fun d _ => (kM_fin labels p hp c d).2) (Finset.mem_univ c') hc'⟩

/-- The dense program's row sum is the first kernel's carried row sum. -/
theorem rRowSum_eq (hp : ∀ a, IsFin (p a)) (hlab : ∀ a, (labels a).toNat < 4) (c : Fin 4096) :
    rRowSum labels p c = kMsum (cat labels) (cat p) c := by
  rw [kMsum_eq]
  unfold rRowSum
  rw [cZero_eq, zero_add]
  exact Finset.sum_congr rfl fun d _ => (kM_eq_rFw0 labels p hp hlab c d).symm

/-- Hence the normalised weights agree entry by entry. -/
theorem kFw_eq_rFw (hp : ∀ a, IsFin (p a)) (hlab : ∀ a, (labels a).toNat < 4) (r c : Fin 4096) :
    kFw (cat labels) (cat p) r c = rFw labels p r c := by
  unfold kFw rFw
  rw [rRowSum_eq labels p hp hlab c, kM_eq_rFw0 labels p hp hlab r c]

/-- A normalised weight is a finite value: a finite entry divided by a real number that is at least 1. -/
theorem kFw_fin (hp : ∀ a, IsFin (p a)) (r c : Fin 4096) : IsFin (kFw (cat labels) (cat p) r c) := by
  unfold kFw
  obtain ⟨hf, h1⟩ := kMsum_fin labels p hp c
  exact (kM_fin labels p hp r c).1.div hf (ne_zero_of_one_le h1)

/-! ## One row -/

/-- The dense program's row maximum is the second kernel's carried maximum. -/
theorem rMax_eq (hzi : ∀ a k, IsFin (zi a k)) (hzj : ∀ a k, IsFin (zj a k)) (r : Fin 4096) :
    rMax zi zj r = (kState (catRows zi zj) (cat labels) (cat p) r 8).1 := by
  have hfun : (fun c => rSim zi zj r c) = fun c => kS (catRows zi zj) r c :=
    funext fun c => (kS_eq_rSim zi zj hzi hzj r c).symm
  unfold rMax
  rw [hfun]
  exact fold_max_eq (catRows zi zj) (cat labels) (cat p) r (kS_fin zi zj hzi hzj r)

/-- The carried sum of exponentials is a finite value at least 1: every term is the exponential of a finite
    value, and a maximal entry contributes exp 0 = 1. -/
theorem kState_l_fin (hzi : ∀ a k, IsFin (zi a k)) (hzj : ∀ a k, IsFin (zj a k)) (r : Fin 4096) :
    IsFin (kState (catRows zi zj) (cat labels) (cat p) r 8).2.1 ∧
      1 ≤ (kState (catRows zi zj) (cat labels) (cat p) r 8).2.1 := by
  have hS : ∀ c, IsFin (kS (catRows zi zj) r c) := kS_fin zi zj hzi hzj r
  obtain ⟨hm, -, c0, hc0⟩ := kState_m_fin (catRows zi zj) (cat labels) (cat p) r hS
  rw [kState_l (catRows zi zj) (cat labels) (cat p) r hS]
  refine ⟨isFin_sum_univ _ fun c => ((hS c).sub hm).exp,
    one_le_sum _ _ (fun c _ => exp_nonneg _) (Finset.mem_univ c0) ?_⟩
  rw [hc0]
  exact exp_sub_self hm

/-- The dense program's log-sum-exp of the shifted row is the logarithm of the carried sum of exponentials. -/
theorem rLse_eq (hzi : ∀ a k, IsFin (zi a k)) (hzj : ∀ a k, IsFin (zj a k)) (r : Fin 4096) :
    rLse zi zj r = Ideal.log (kState (catRows zi zj) (cat labels) (cat p) r 8).2.1 := by
  have hS : ∀ c, IsFin (kS (catRows zi zj) r c) := kS_fin zi zj hzi hzj r
  rw [kState_l (catRows zi zj) (cat labels) (cat p) r hS]
  unfold rLse rShift
  rw [rMax_eq zi zj labels p hzi hzj r, cZero_eq, zero_add]
  congr 1
  exact Finset.sum_congr rfl fun c _ => by rw [kS_eq_rSim zi zj hzi hzj r c]

/-- One row of the loss: the blockwise online form equals the dense form. -/
theorem row_eq (hzi : ∀ a k, IsFin (zi a k)) (hzj : ∀ a k, IsFin (zj a k)) (hp : ∀ a, IsFin (p a))
    (hlab : ∀ a, (labels a).toNat < 4) (r : Fin 4096) :
    kRowLoss (catRows zi zj) (cat labels) (cat p) r = ∑ c : Fin 4096, rLogSm zi zj r c * rFw labels p r c := by
  have hS : ∀ c, IsFin (kS (catRows zi zj) r c) := kS_fin zi zj hzi hzj r
  obtain ⟨hm, -, -⟩ := kState_m_fin (catRows zi zj) (cat labels) (cat p) r hS
  obtain ⟨hl, hl1⟩ := kState_l_fin zi zj labels p hzi hzj r
  have hL := log_fin_of_one_le hl hl1
  have hterm : ∀ c : Fin 4096, rLogSm zi zj r c * rFw labels p r c =
      ((kS (catRows zi zj) r c - (kState (catRows zi zj) (cat labels) (cat p) r 8).1)
        - Ideal.log (kState (catRows zi zj) (cat labels) (cat p) r 8).2.1) * kFw (cat labels) (cat p) r c := by
    intro c
    unfold rLogSm rShift
    rw [rLse_eq zi zj labels p hzi hzj r, rMax_eq zi zj labels p hzi hzj r, kS_eq_rSim zi zj hzi hzj r c,
      kFw_eq_rFw labels p hp hlab r c]
  rw [Finset.sum_congr rfl fun c _ => hterm c]
  show (kState (catRows zi zj) (cat labels) (cat p) r 8).2.2.1
      - ((kState (catRows zi zj) (cat labels) (cat p) r 8).1
          + Ideal.log (kState (catRows zi zj) (cat labels) (cat p) r 8).2.1)
        * (kState (catRows zi zj) (cat labels) (cat p) r 8).2.2.2 = _
  rw [kState_s1, kState_s0]
  exact row_identity Finset.univ _ _ _ _ hS (kFw_fin labels p hp r) hm hL

end

/-- For finite normalised rows, finite positions and labels in range, the blockwise online form of the loss is the
    dense form: row by row `Σ fw·S − (m + log l)·Σ fw = Σ (S − max − log Σ exp (S − max))·fw`. -/
theorem kLoss_eq_rLoss (zi zj : Fin 2048 → Fin 512 → EReal) (labels : Fin 2048 → BitVec 32) (p : Fin 2048 → EReal)
    (hzi : ∀ a k, IsFin (zi a k)) (hzj : ∀ a k, IsFin (zj a k)) (hp : ∀ a, IsFin (p a))
    (hlab : ∀ a, (labels a).toNat < 4) :
    kLoss (catRows zi zj) (cat labels) (cat p) = rLoss zi zj labels p := by
  unfold kLoss rLoss
  rw [Finset.sum_congr rfl fun r _ => row_eq zi zj labels p hzi hzj hp hlab r]

end Cert.MathFinal

end
-- ==== Proof.PreFacts.lean ====
/- The precondition read back. The stated precondition is a single truth word: the conjunction of "every entry of the
   absolute value of each float input is below +infinity" (three times) with "every label is at least 0" and "every label
   is below 4", both read signed. This module turns that word being 1 into the facts the mathematics uses: every float
   entry is a real number (neither infinity), and every label, read unsigned, is below 4. -/
import proofs.«421925_j36627481101076_1_alg».proof.Proof.Gen.Pre_finite_inputs
import proofs.«421925_j36627481101076_1_alg».proof.Proof.LibFinite
import Idealize.ShloMosaic.Lib.ReduceAll

namespace Cert.PreFacts

open Idealize.ShloMosaic
open Cert.Pre_finite_inputs

/-- The shape of a scalar has one index. -/
instance : Subsingleton S_.Idx := ⟨fun a b => funext fun d => d.elim0⟩

/-- The word 0x7F800000 denotes +infinity. -/
theorem ofBits_inf : Ideal.ofBits .f32 0x7F800000#32 = (⊤ : EReal) := by
  simp [Ideal.ofBits, Ideal.ieee]

/-- An extended real whose absolute value max x (-x) is below +infinity is finite. -/
theorem isFin_of_abs_lt (x : EReal)
    (h : Ideal.cmp .olt (max x (-x)) (Ideal.ofBits .f32 0x7F800000#32) = 1#1) : Cert.LibFinite.IsFin x := by
  rw [ofBits_inf] at h
  have h1 : BitVec.ofBool (decide (max x (-x) < ⊤)) = 1#1 := h
  have h' : max x (-x) < ⊤ := by
    by_contra hn
    rw [decide_eq_false hn] at h1
    exact absurd h1 (by decide)
  rw [max_lt_iff] at h'
  refine ⟨ne_of_lt h'.1, ?_⟩
  intro hb
  rw [hb] at h'
  exact absurd h'.2 (by simp)

/-- A 32-bit word that is at least 0 and below 4, both read signed, is below 4 read unsigned. -/
theorem toNat_lt_four (w : BitVec 32) (h0 : IntOp.cmpi .sge w 0#32 = 1#1) (h4 : IntOp.cmpi .slt w 4#32 = 1#1) :
    w.toNat < 4 := by
  rw [IntOp.cmpi_sge] at h0
  rw [IntOp.cmpi_slt] at h4
  have e0 : (0#32 : BitVec 32).toInt = 0 := by decide
  have e4 : (4#32 : BitVec 32).toInt = 4 := by decide
  rw [e0] at h0
  rw [e4] at h4
  rw [BitVec.toInt_eq_toNat_cond] at h0 h4
  split at h0 <;> omega

theorem pre_facts [Cert.Pre_finite_inputs.Facts] (x0 x1 : FVec Ideal Cert.Pre_finite_inputs.S2048x512 .f32)
    (x2 : IVec Cert.Pre_finite_inputs.S2048 32) (x3 : FVec Ideal Cert.Pre_finite_inputs.S2048x1 .f32)
    (h : Cert.Pre_finite_inputs.fn (F := Ideal) x0 x1 x2 x3 = fun _ => 1#1) :
    (∀ i, Cert.LibFinite.IsFin (x0 i)) ∧ (∀ i, Cert.LibFinite.IsFin (x1 i)) ∧ (∀ i, Cert.LibFinite.IsFin (x3 i)) ∧
      (∀ i, (x2 i).toNat < 4) := by
  have h0 := congrFun h (fun a => a.elim0)
  dsimp only [Cert.Pre_finite_inputs.fn, Cert.Pre_finite_inputs.fn_part1] at h0
  obtain ⟨h13, h19⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_, fun i => ?_⟩
  · exact isFin_of_abs_lt (x0 i) (Host.reduce_andi_all _ _ _ _ _ h3 i)
  · exact isFin_of_abs_lt (x1 i) (Host.reduce_andi_all _ _ _ _ _ h7 i)
  · exact isFin_of_abs_lt (x3 i) (Host.reduce_andi_all _ _ _ _ _ h12 i)
  · have hi := Host.reduce_andi_all _ _ _ _ _ h19 i
    obtain ⟨ha, hb⟩ := IntOp.andi_eq_one.1 hi
    exact toNat_lt_four (x2 i) ha hb

end Cert.PreFacts
-- ==== Proof.lean ====
/-
  The certificate's five claims.

  Both kernel programs (the word-level one and its idealization) run through their two pipelined regions with
  every unscoped buffer named at the end (Run.lean and its word-level sibling), which gives the two frames
  and, at the extended reals, the result buffer as the blockwise online form of the loss (KernelValue.lean).
  The reference's run (RefValue.lean) ends at the dense form.  The two forms are one number for finite inputs
  and labels in range (MathFinal.lean), which is what the precondition says (PreFacts.lean); the kernel's
  reciprocal temperature is read as the exact reciprocal of the reference's temperature word, the one
  rewrite the idealization records.
-/
import proofs.«421925_j36627481101076_1_alg».proof.Defs
import proofs.«421925_j36627481101076_1_alg».proof.Proof.Gen.Kernel
import proofs.«421925_j36627481101076_1_alg».proof.Proof.Gen.KernelIdeal
import proofs.«421925_j36627481101076_1_alg».proof.Proof.Gen.ReferenceIdeal
import proofs.«421925_j36627481101076_1_alg».proof.Proof.Gen.Pre_finite_inputs
import proofs.«421925_j36627481101076_1_alg».proof.Proof.Run
import proofs.«421925_j36627481101076_1_alg».proof.Proof.BitsRun
import proofs.«421925_j36627481101076_1_alg».proof.Proof.KernelValue
import proofs.«421925_j36627481101076_1_alg».proof.Proof.RefValue
import proofs.«421925_j36627481101076_1_alg».proof.Proof.MathFinal
import proofs.«421925_j36627481101076_1_alg».proof.Proof.MathEntries
import proofs.«421925_j36627481101076_1_alg».proof.Proof.PreFacts
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_p : Cert.frame_Kernel := fun m ρ _ =>
  (θ_run (Cert.Kernel.defs (F := Bits)) _ _).mono (fun _ h c => (h c).2) (Cert.Kernel.Hand.run_result (F := Bits) m ρ)

theorem frame_pi : Cert.frame_KernelIdeal := fun m ρ _ =>
  (θ_run (Cert.KernelIdeal.defs (F := Ideal)) _ _).mono (fun _ h c => (h c).2) (Cert.KernelIdeal.Hand.run_result (F := Ideal) m ρ)

theorem frame_ri : Cert.frame_ReferenceIdeal := fun m ρ _ =>
  (θ_run (Cert.ReferenceIdeal.defs (F := Ideal)) _ _).mono (fun _ h c => (h c).2) (Cert.ReferenceIdeal.RefValue.ref_run m ρ)

/-- The one rewrite of the idealization: the kernel's word 10.0 stands for the exact reciprocal of the reference's
    temperature word. -/
theorem preserves : Cert.preserves_Kernel_KernelIdeal :=
  IdealRules.named_const.statement Cert.KernelIdeal.κ "inv_temperature" .f32 0x41200000#32 ((134217728 / 13421773 : ℝ) : EReal) rfl

theorem algebraic : Cert.algebraic_KernelIdeal_ReferenceIdeal := by
  intro m ρ m' ρ' hpre hagree
  refine ⟨fun c => fun _ => Cert.Spec.kLoss
      (Cert.Spec.catRows (Cert.Spec.normalize (Cert.KernelIdeal.Hand.zi0 m c)) (Cert.Spec.normalize (Cert.KernelIdeal.Hand.zj0 m c)))
      (Cert.Spec.cat (Cert.KernelIdeal.Hand.lab0 m c)) (Cert.Spec.cat (Cert.KernelIdeal.Hand.p0 m c)), ?_, ?_⟩
  · refine (θ_run (Cert.KernelIdeal.defs (F := Ideal)) _ _).mono (fun _ h c => ⟨(h c).1.trans ?_, (h c).2⟩)
      (Cert.KernelIdeal.Hand.run_result (F := Ideal) m ρ)
    funext i
    obtain rfl : i = ValueIdx.ix0 := funext fun d => d.elim0
    exact Cert.KernelIdeal.Hand.kernel_value m c (Cert.KernelIdeal.Hand.outsK m) Cert.KernelIdeal.Hand.q1K
      (Cert.KernelIdeal.Hand.outsK_22 m c) (Cert.KernelIdeal.Hand.outsK_24 m c)
  · refine (θ_run (Cert.ReferenceIdeal.defs (F := Ideal)) _ _).mono (fun _ h c => ⟨(h c).1.trans ?_, (h c).2⟩)
      (Cert.ReferenceIdeal.RefValue.ref_run m' ρ')
    obtain ⟨h0, h1, h3, h2⟩ := Cert.PreFacts.pre_facts _ _ _ _ (hpre c)
    funext i
    rw [(hagree c).1, (hagree c).2.1, (hagree c).2.2.1, (hagree c).2.2.2]
    exact (Cert.MathFinal.kLoss_eq_rLoss _ _ _ _
      (Cert.MathEntries.normalize_fin _ fun a k => h0 _) (Cert.MathEntries.normalize_fin _ fun a k => h1 _)
      (fun a => h3 _) (fun a => h2 _)).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
